-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000x32 : Shape := ⟨2, ![640000, 32]⟩
abbrev S160x128 : Shape := ⟨2, ![160, 128]⟩
abbrev S128 : Shape := ⟨1, ![128]⟩
abbrev S128x128 : Shape := ⟨2, ![128, 128]⟩
abbrev S256x128 : Shape := ⟨2, ![256, 128]⟩
abbrev S_ : Shape := ⟨0, ![]⟩
abbrev S1x640000 : Shape := ⟨2, ![1, 640000]⟩
abbrev S640000 : Shape := ⟨1, ![640000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000x32 : S_.BroadcastsInDim S640000x32 (![] : Fin 0 → Fin S640000x32.rank)
  reducesTo_S640000x32_S_d0_1 : S640000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S256x128 : S_.BroadcastsInDim S256x128 (![] : Fin 0 → Fin S256x128.rank)
  reducesTo_S256x128_S_d0_1 : S256x128.ReducesTo [0, 1] S_
  slices_S2x640000_S1x640000_1_0 : S2x640000.Slices ![1, 0] S1x640000
  shapeCasts_S1x640000_S640000 : S1x640000.ShapeCasts S640000
  bcast_S_S640000 : S_.BroadcastsInDim S640000 (![] : Fin 0 → Fin S640000.rank)
  reducesTo_S640000_S_d0 : S640000.ReducesTo [0] S_

variable [Facts]

def fn_part3 {F : FTy → Type} [FloatOps F] (main_arg1 : IVec S2x640000 32) (main_v48 : IVec S_ 1) (main_v50 : IVec S640000 32) (main_c_18 : IVec S_ 32) : IVec S_ 1 :=
  let main_v51 : IVec S640000 32 := broadcastInDim S640000 ![] bcast_S_S640000 main_c_18
  let main_v52 : IVec S640000 1 := cmpi .sge main_v50 main_v51
  let main_v53 : IVec S1x640000 32 := (extractStridedSlice S1x640000 ![1, 0] · slices_S2x640000_S1x640000_1_0) main_arg1
  let main_v54 : IVec S640000 32 := shapeCast S640000 main_v53 shapeCasts_S1x640000_S640000
  let main_c_19 : IVec S_ 32 := constantI S_ 32 50000#32
  let main_v55 : IVec S640000 32 := broadcastInDim S640000 ![] bcast_S_S640000 main_c_19
  let main_v56 : IVec S640000 1 := cmpi .slt main_v54 main_v55
  let main_v57 : IVec S640000 1 := andi main_v52 main_v56
  let main_c_20 : IVec S_ 1 := constantI S_ 1 1#1
  let main_v58 : IVec S_ 1 := (fun x v => Host.reduce IntOp.andi x v reducesTo_S640000_S_d0 h_S_) main_v57 main_c_20
  let main_v59 : IVec S_ 1 := andi main_v48 main_v58
  main_v59

def fn_part2 {F : FTy → Type} [FloatOps F] (main_arg1 : IVec S2x640000 32) (main_arg8 : FVec F S128 .f32) (main_arg9 : FVec F S128 .f32) (main_arg10 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : IVec S1x640000 32 := (extractStridedSlice S1x640000 ![1, 0] · slices_S2x640000_S1x640000_1_0) main_arg1
  let main_v50 : IVec S640000 32 := shapeCast S640000 main_v49 shapeCasts_S1x640000_S640000
  let main_c_18 : IVec S_ 32 := constantI S_ 32 4294917296#32
  fn_part3 (F := F) main_arg1 main_v48 main_v50 main_c_18

def fn_part1 {F : FTy → Type} [FloatOps F] (main_arg1 : IVec S2x640000 32) (main_arg5 : FVec F S128x128 .f32) (main_arg6 : FVec F S128 .f32) (main_arg7 : FVec F S256x128 .f32) (main_arg8 : FVec F S128 .f32) (main_arg9 : FVec F S128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg1 main_arg8 main_arg9 main_arg10 main_v33

def fn {F : FTy → Type} [FloatOps F] (main_arg0 : FVec F S50000x128 .f32) (main_arg1 : IVec S2x640000 32) (main_arg2 : FVec F S640000x32 .f32) (main_arg3 : FVec F S160x128 .f32) (main_arg4 : FVec F S128 .f32) (main_arg5 : FVec F S128x128 .f32) (main_arg6 : FVec F S128 .f32) (main_arg7 : FVec F S256x128 .f32) (main_arg8 : FVec F S128 .f32) (main_arg9 : FVec F S128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000x32 .f32 := Host.absf main_arg2
  let main_cst_0 : FVec F S_ .f32 := constant S_ .f32 0x7F800000#32
  let main_v5 : FVec F S640000x32 .f32 := broadcastInDim S640000x32 ![] bcast_S_S640000x32 main_cst_0
  let main_v6 : IVec S640000x32 1 := cmpf .olt main_v4 main_v5
  let main_c_1 : IVec S_ 1 := constantI S_ 1 1#1
  let main_v7 : IVec S_ 1 := (fun x v => Host.reduce IntOp.andi x v reducesTo_S640000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S50000x128 : Shape := ⟨2, ![50000, 128]⟩
abbrev S2x640000 : Shape := ⟨2, ![2, 640000]⟩
abbrev S640000x32 : Shape := ⟨2, ![640000, 32]⟩
abbrev S160x128 : Shape := ⟨2, ![160, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S1 : Shape := ⟨1, ![1]⟩
abbrev S1x1 : Shape := ⟨2, ![1, 1]⟩
abbrev S640000x128 : Shape := ⟨2, ![640000, 128]⟩
abbrev S32x128 : Shape := ⟨2, ![32, 128]⟩
abbrev S6400x128 : Shape := ⟨2, ![6400, 128]⟩
abbrev S6400x32 : Shape := ⟨2, ![6400, 32]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 48
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x32, .f32⟩
  | .hbm, ⟨3, _⟩ => ⟨S160x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S1, .i32⟩
  | .hbm, ⟨24, _⟩ => ⟨S_, .i32⟩
  | .hbm, ⟨25, _⟩ => ⟨S640000x1, .i32⟩
  | .hbm, ⟨26, _⟩ => ⟨S640000x1, .i1⟩
  | .hbm, ⟨27, _⟩ => ⟨S1x1, .i32⟩
  | .hbm, ⟨28, _⟩ => ⟨S640000x1, .i32⟩
  | .hbm, ⟨29, _⟩ => ⟨S640000x1, .i1⟩
  | .hbm, ⟨30, _⟩ => ⟨S640000x1, .i1⟩
  | .hbm, ⟨31, _⟩ => ⟨S_, .i1⟩
  | .hbm, ⟨32, _⟩ => ⟨S640000, .i1⟩
  | .hbm, ⟨33, _⟩ => ⟨S640000x128, .f32⟩
  | .hbm, ⟨34, _⟩ => ⟨S640000x128, .i1⟩
  | .hbm, ⟨35, _⟩ => ⟨S_, .f32⟩
  | .hbm, ⟨36, _⟩ => ⟨S640000x128, .f32⟩
  | .hbm, ⟨37, _⟩ => ⟨S640000x128, .f32⟩
  | .hbm, ⟨38, _⟩ => ⟨S128x128, .f32⟩
  | .hbm, ⟨39, _⟩ => ⟨S32x128, .f32⟩
  | .hbm, ⟨40, _⟩ => ⟨S640000x128, .f32⟩
  | .hbm, ⟨41, _⟩ => ⟨S_, .f32⟩
  | .hbm, ⟨42, _⟩ => ⟨S50000x128, .f32⟩
  | .hbm, ⟨43, _⟩ => ⟨S640000x1, .i32⟩
  | .hbm, ⟨44, _⟩ => ⟨S50000x128, .f32⟩
  | .hbm, ⟨45, _⟩ => ⟨S128x128, .f32⟩
  | .hbm, ⟨46, _⟩ => ⟨S128x128, .f32⟩
  | .hbm, ⟨47, _⟩ => ⟨S50000x128, .f32⟩
  | .local _ .vmem, ⟨0, _⟩ => ⟨S6400x128, .f32⟩
  | .local _ .vmem, ⟨1, _⟩ => ⟨S6400x128, .f32⟩
  | .local _ .vmem, ⟨2, _⟩ => ⟨S6400x32, .f32⟩
  | .local _ .vmem, ⟨3, _⟩ => ⟨S6400x32, .f32⟩
  | .local _ .vmem, ⟨4, _⟩ => ⟨S128x128, .f32⟩
  | .local _ .vmem, ⟨5, _⟩ => ⟨S32x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S6400x128, .f32⟩
  | .local _ .vmem, ⟨10, _⟩ => ⟨S6400x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_cst : Ref sig .tc := ⟨.hbm, 41, rfl⟩
abbrev main_v8 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  slices_S160x128_S128x128_0_0 : S160x128.Slices ![0, 0] S128x128
  slices_S160x128_S32x128_128_0 : S160x128.Slices ![128, 0] S32x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bitsLt_bf16_f32 : FTy.bits .bf16 < FTy.bits .f32
  inb_S6400x32_S6400x32_0_0 : ∀ a, (![0, 0] : Fin 2 → Nat) a + S6400x32.size a ≤ S6400x32.size a
  h_S6400x32 : 0 < S6400x32.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S6400x128 : S1x128.Broadcasts S6400x128
  bcast_S_S50000x128 : S_.BroadcastsInDim S50000x128 (![] : Fin 0 → Fin S50000x128.rank)
  slices_S256x128_S128x128_0_0 : S256x128.Slices ![0, 0] S128x128
  slices_S256x128_S128x128_128_0 : S256x128.Slices ![128, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  gather_S50000x128_S640000x1_S640000x128_1_0_n_n_0_1_1128_wf : GatherDims.WF S50000x128 S640000x1 S640000x128 [1] [0] [] [0] [] 1 ![1, 128]
  dot_S6400x128_S128x128_S6400x128_1_0_0_1_n_n_wf : DotDims.WF S6400x128 S128x128 S6400x128 [1] [0] [0] [1] [] []
  dot_S6400x32_S32x128_S6400x128_1_0_0_1_n_n_wf : DotDims.WF S6400x32 S32x128 S6400x128 [1] [0] [0] [1] [] []
  scatter_S50000x128_S640000x1_S640000x128_1_0_0_1_wf : ScatterDims.WF S50000x128 S640000x1 S640000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S640000x128.size a
  hwx0_0 : ∀ i : grid0.Coords, EltTy.bits .f32 = 32 ∨ (Rect.block (s := S640000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x32.size a ≤ S640000x32.size a
  hwx0_1 : ∀ i : grid0.Coords, EltTy.bits .f32 = 32 ∨ (Rect.block (s := S640000x32) S6400x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S32x128.size a
  hwx0_3 : ∀ i : grid0.Coords, EltTy.bits .f32 = 32 ∨ (Rect.block (s := S32x128) S32x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x128.size a ≤ S640000x128.size a
  hwx0_7 : ∀ i : grid0.Coords, EltTy.bits .f32 = 32 ∨ (Rect.block (s := S640000x128) S6400x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S32x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S6400x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v12) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v13) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000x32 : Shape := ⟨2, ![640000, 32]⟩
abbrev S160x128 : Shape := ⟨2, ![160, 128]⟩
abbrev S128 : Shape := ⟨1, ![128]⟩
abbrev S128x128 : Shape := ⟨2, ![128, 128]⟩
abbrev S256x128 : Shape := ⟨2, ![256, 128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S640000x160 : Shape := ⟨2, ![640000, 160]⟩
abbrev S1x128 : Shape := ⟨2, ![1, 128]⟩
abbrev S50000x256 : Shape := ⟨2, ![50000, 256]⟩
abbrev S50000 : Shape := ⟨1, ![50000]⟩
abbrev S50000x1 : Shape := ⟨2, ![50000, 1]⟩

abbrev nBuf : Space → Nat
  | .hbm => 96
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000x32, .f32⟩
  | .hbm, ⟨3, _⟩ => ⟨S160x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S1x640000, .i32⟩
  | .hbm, ⟨12, _⟩ => ⟨S640000, .i32⟩
  | .hbm, ⟨13, _⟩ => ⟨S1x640000, .i32⟩
  | .hbm, ⟨14, _⟩ => ⟨S640000, .i32⟩
  | .hbm, ⟨15, _⟩ => ⟨S_, .i32⟩
  | .hbm, ⟨16, _⟩ => ⟨S640000, .i32⟩
  | .hbm, ⟨17, _⟩ => ⟨S640000, .i1⟩
  | .hbm, ⟨18, _⟩ => ⟨S_, .i32⟩
  | .hbm, ⟨19, _⟩ => ⟨S640000, .i32⟩
  | .hbm, ⟨20, _⟩ => ⟨S640000, .i32⟩
  | .hbm, ⟨21, _⟩ => ⟨S640000, .i32⟩
  | .hbm, ⟨22, _⟩ => ⟨S640000x1, .i32⟩
  | .hbm, ⟨23, _⟩ => ⟨S640000x128, .f32⟩
  | .hbm, ⟨24, _⟩ => ⟨S640000x160, .f32⟩
  | .hbm, ⟨25, _⟩ => ⟨S640000x128, .f32⟩
  | .hbm, ⟨26, _⟩ => ⟨S1x128, .f32⟩
  | .hbm, ⟨27, _⟩ => ⟨S640000x128, .f32⟩
  | .hbm, ⟨28, _⟩ => ⟨S640000x128, .f32⟩
  | .hbm, ⟨29, _⟩ => ⟨S_, .f32⟩
  | .hbm, ⟨30, _⟩ => ⟨S640000x128, .f32⟩
  | .hbm, ⟨31, _⟩ => ⟨S640000x128, .f32⟩
  | .hbm, ⟨32, _⟩ => ⟨S640000x128, .f32⟩
  | .hbm, ⟨33, _⟩ => ⟨S1x128, .f32⟩
  | .hbm, ⟨34, _⟩ => ⟨S640000x128, .f32⟩
  | .hbm, ⟨35, _⟩ => ⟨S640000x128, .f32⟩
  | .hbm, ⟨36, _⟩ => ⟨S_, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S50000x128, .f32⟩
  | .hbm, ⟨41, _⟩ => ⟨S640000x1, .i32⟩
  | .hbm, ⟨42, _⟩ => ⟨S50000x128, .f32⟩
  | .hbm, ⟨43, _⟩ => ⟨S50000x256, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .f32⟩
  | .hbm, ⟨53, _⟩ => ⟨S50000, .f32⟩
  | .hbm, ⟨54, _⟩ => ⟨S50000x1, .f32⟩
  | .hbm, ⟨55, _⟩ => ⟨S_, .f32⟩
  | .hbm, ⟨56, _⟩ => ⟨S50000x1, .f32⟩
  | .hbm, ⟨57, _⟩ => ⟨S50000x1, .f32⟩
  | .hbm, ⟨58, _⟩ => ⟨S_, .i32⟩
  | .hbm, ⟨59, _⟩ => ⟨S_, .f32⟩
  | .hbm, ⟨60, _⟩ => ⟨S50000, .f32⟩
  | .hbm, ⟨61, _⟩ => ⟨S50000x1, .f32⟩
  | .hbm, ⟨62, _⟩ => ⟨S_, .f32⟩
  | .hbm, ⟨63, _⟩ => ⟨S50000x1, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S50000, .f32⟩
  | .hbm, ⟨73, _⟩ => ⟨S50000x1, .f32⟩
  | .hbm, ⟨74, _⟩ => ⟨S50000x1, .f32⟩
  | .hbm, ⟨75, _⟩ => ⟨S50000x1, .f32⟩
  | .hbm, ⟨76, _⟩ => ⟨S_, .f32⟩
  | .hbm, ⟨77, _⟩ => ⟨S_, .i1⟩
  | .hbm, ⟨78, _⟩ => ⟨S_, .f32⟩
  | .hbm, ⟨79, _⟩ => ⟨S_, .f32⟩
  | .hbm, ⟨80, _⟩ => ⟨S50000x1, .f32⟩
  | .hbm, ⟨81, _⟩ => ⟨S50000x1, .f32⟩
  | .hbm, ⟨82, _⟩ => ⟨S50000x128, .f32⟩
  | .hbm, ⟨83, _⟩ => ⟨S50000x128, .f32⟩
  | .hbm, ⟨84, _⟩ => ⟨S_, .f32⟩
  | .hbm, ⟨85, _⟩ => ⟨S50000x1, .f32⟩
  | .hbm, ⟨86, _⟩ => ⟨S50000x1, .f32⟩
  | .hbm, ⟨87, _⟩ => ⟨S50000x1, .f32⟩
  | .hbm, ⟨88, _⟩ => ⟨S50000x128, .f32⟩
  | .hbm, ⟨89, _⟩ => ⟨S50000x128, .f32⟩
  | .hbm, ⟨90, _⟩ => ⟨S1x128, .f32⟩
  | .hbm, ⟨91, _⟩ => ⟨S50000x128, .f32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call0_cst : Ref sig .tc := ⟨.hbm, 29, rfl⟩
abbrev main_call0_v0 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call1_cst : Ref sig .tc := ⟨.hbm, 36, rfl⟩
abbrev main_call1_v0 : Ref sig .tc := ⟨.hbm, 37, rfl⟩
abbrev main_v21 : Ref sig .tc := ⟨.hbm, 38, rfl⟩
abbrev main_cst : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_call2_cst : Ref sig .tc := ⟨.hbm, 48, rfl⟩
abbrev main_call2_v0 : Ref sig .tc := ⟨.hbm, 49, rfl⟩
abbrev main_v30 : Ref sig .tc := ⟨.hbm, 50, rfl⟩
abbrev main_v31 : Ref sig .tc := ⟨.hbm, 51, rfl⟩
abbrev main_cst_1 : Ref sig .tc := ⟨.hbm, 52, rfl⟩
abbrev main_v32 : Ref sig .tc := ⟨.hbm, 53, rfl⟩
abbrev main_v33 : Ref sig .tc := ⟨.hbm, 54, rfl⟩
abbrev main_cst_2 : Ref sig .tc := ⟨.hbm, 55, rfl⟩
abbrev main_v34 : Ref sig .tc := ⟨.hbm, 56, rfl⟩
abbrev main_v35 : Ref sig .tc := ⟨.hbm, 57, rfl⟩
abbrev main_c_3 : Ref sig .tc := ⟨.hbm, 58, rfl⟩
abbrev main_call3_cst : Ref sig .tc := ⟨.hbm, 59, rfl⟩
abbrev main_call3_v0 : Ref sig .tc := ⟨.hbm, 60, rfl⟩
abbrev main_call3_v1 : Ref sig .tc := ⟨.hbm, 61, rfl⟩
abbrev main_call3_cst_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_v6 : Ref sig .tc := ⟨.hbm, 67, rfl⟩
abbrev main_call3_v7 : Ref sig .tc := ⟨.hbm, 68, rfl⟩
abbrev main_call3_cst_1 : Ref sig .tc := ⟨.hbm, 69, rfl⟩
abbrev main_call3_v8 : Ref sig .tc := ⟨.hbm, 70, rfl⟩
abbrev main_call3_cst_2 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_v12 : Ref sig .tc := ⟨.hbm, 75, rfl⟩
abbrev main_call3_cst_3 : Ref sig .tc := ⟨.hbm, 76, rfl⟩
abbrev main_call3_v13 : Ref sig .tc := ⟨.hbm, 77, rfl⟩
abbrev main_call3_cst_4 : Ref sig .tc := ⟨.hbm, 78, rfl⟩
abbrev main_call3_call0_v0 : Ref sig .tc := ⟨.hbm, 79, rfl⟩
abbrev main_call3_call0_v1 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_4 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x32_S640000x160_d1 : Shape.Concatenates [S640000x128, S640000x32] S640000x160 1
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  dot_S640000x160_S160x128_S640000x128_1_0_0_1_n_n_wf : DotDims.WF S640000x160 S160x128 S640000x128 [1] [0] [0] [1] [] []
  dot_S640000x128_S128x128_S640000x128_1_0_0_1_n_n_wf : DotDims.WF S640000x128 S128x128 S640000x128 [1] [0] [0] [1] [] []
  scatter_S50000x128_S640000x1_S640000x128_1_0_0_1_wf : ScatterDims.WF S50000x128 S640000x1 S640000x128 [1] [0] [0] 1
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def dot_S640000x160_S160x128_S640000x128_1_0_0_1_n_n : DotDims S640000x160 S160x128 S640000x128 where
  lhsContracting := [1]
  rhsContracting := [0]
  lhsNonContracting := [0]
  rhsNonContracting := [1]
  lhsBatch := []
  rhsBatch := []
  wf := dot_S640000x160_S160x128_S640000x128_1_0_0_1_n_n_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.RefTerm.lean ====
/-
  The reference layer's result as ONE term of its eleven argument arrays, stage by stage in the order its host
  program computes them: the source rows gathered at the wrapped second row of the edge list; the edge network on
  [source ‖ attribute] rows (two dense layers, each followed by max with 0); the messages summed into their
  destination rows (first row of the edge list); the node network on [feature ‖ aggregate] rows plus the feature;
  the row-wise normalisation (mean, variance recomputed from its own mean, ε, inverse square root, scale, shift).
-/
import proofs.«430327_j2954937499917_1_alg».proof.Proof.Gen.ReferenceIdeal

noncomputable section

namespace Cert.ReferenceIdeal.Term

open Cert.ReferenceIdeal Cert.ReferenceIdeal.Gen Idealize.ShloMosaic

variable {F : FTy → Type} [FloatOps F]

/-- Row 0 of the edge list (the destinations), as a vector of 640000 words. -/
def dstOf (ei : IVec S2x640000 32) : IVec S640000 32 :=
  shapeCast S640000 (extractStridedSlice S1x640000 ![0, 0] ei slices_S2x640000_S1x640000_0_0) shapeCasts_S1x640000_S640000
/-- Row 1 of the edge list (the sources). -/
def srcOf (ei : IVec S2x640000 32) : IVec S640000 32 :=
  shapeCast S640000 (extractStridedSlice S1x640000 ![1, 0] ei slices_S2x640000_S1x640000_1_0) shapeCasts_S1x640000_S640000
/-- A negative index counts from the end: j < 0 becomes j + 50000. -/
def wrapIdx (j : IVec S640000 32) : IVec S640000 32 :=
  select (cmpi .slt j (broadcastInDim S640000 ![] bcast_S_S640000 (constantI S_ 32 0#32)))
    (addi j (broadcastInDim S640000 ![] bcast_S_S640000 (constantI S_ 32 50000#32))) j
/-- The gather's start indices: the wrapped sources as a 640000 × 1 array. -/
def startIdx (ei : IVec S2x640000 32) : IVec S640000x1 32 :=
  broadcastInDim S640000x1 ![0] bcast_S640000_S640000x1_0 (wrapIdx (srcOf ei))
/-- The gathered source rows. -/
def refSrc (x : FVec F S50000x128 .f32) (ei : IVec S2x640000 32) : FVec F S640000x128 .f32 :=
  Host.gather gather_S50000x128_S640000x1_S640000x128_1_0_n_n_0_1_1128 x (startIdx ei)

/-- A bias vector repeated down the 640000 edge rows. -/
def biasE (b : FVec F S128 .f32) : FVec F S640000x128 .f32 :=
  broadcastInDim S640000x128 ![0, 1] bcast_S1x128_S640000x128_0_1 (broadcastInDim S1x128 ![1] bcast_S128_S1x128_1 b)
/-- max with 0 on an edge-sized array. -/
def reluE (a : FVec F S640000x128 .f32) : FVec F S640000x128 .f32 :=
  maximumf a (broadcastInDim S640000x128 ![] bcast_S_S640000x128 (constant S_ .f32 0x00000000#32))
/-- The edge network. -/
def refEdge (src : FVec F S640000x128 .f32) (ea : FVec F S640000x32 .f32) (w1 : FVec F S160x128 .f32) (b1 : FVec F S128 .f32)
    (w2 : FVec F S128x128 .f32) (b2 : FVec F S128 .f32) : FVec F S640000x128 .f32 :=
  reluE (addf (Host.dotGeneral dot_S640000x128_S128x128_S640000x128_1_0_0_1_n_n none
      (reluE (addf (Host.dotGeneral dot_S640000x160_S160x128_S640000x128_1_0_0_1_n_n none
        (concatenate S640000x160 1 [⟨S640000x128, src⟩, ⟨S640000x32, ea⟩] concatenates_S640000x128_S640000x32_S640000x160_d1) w1) (biasE b1)))
      w2) (biasE b2))

/-- The messages summed into their destination rows, from an array of zeros. -/
def refAgg (ei : IVec S2x640000 32) (e : FVec F S640000x128 .f32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 (dstOf ei)) e

/-- A vector of 128 repeated down the 50000 node rows. -/
def biasN (b : FVec F S128 .f32) : FVec F S50000x128 .f32 :=
  broadcastInDim S50000x128 ![0, 1] bcast_S1x128_S50000x128_0_1 (broadcastInDim S1x128 ![1] bcast_S128_S1x128_1 b)
/-- max with 0 on a node-sized array. -/
def reluN (a : FVec F S50000x128 .f32) : FVec F S50000x128 .f32 :=
  maximumf a (broadcastInDim S50000x128 ![] bcast_S_S50000x128 (constant S_ .f32 0x00000000#32))
/-- The residual rows: the node network on [feature ‖ aggregate], max with 0, plus the feature. -/
def refRes (x agg : FVec F S50000x128 .f32) (wn : FVec F S256x128 .f32) (bn : FVec F S128 .f32) : FVec F S50000x128 .f32 :=
  addf (reluN (addf (Host.dotGeneral dot_S50000x256_S256x128_S50000x128_1_0_0_1_n_n none
      (concatenate S50000x256 1 [⟨S50000x128, x⟩, ⟨S50000x128, agg⟩] concatenates_S50000x128_S50000x128_S50000x256_d1) wn) (biasN bn))) x

/-- A column of one value per node, repeated across the 128 entries of its row. -/
def spread (col : FVec F S50000x1 .f32) : FVec F S50000x128 .f32 :=
  broadcastInDim S50000x128 ![0, 1] bcast_S50000x1_S50000x128_0_1 col
/-- The row sums as a column. -/
def rowSum (r : FVec F S50000x128 .f32) : FVec F S50000x1 .f32 :=
  broadcastInDim S50000x1 ![0] bcast_S50000_S50000x1_0 (Host.reduceAdd r (constant S_ .f32 0x00000000#32) reducesTo_S50000x128_S50000_d1 h_S_)
/-- The row means as a column: the row sums over 128. -/
def refMean (r : FVec F S50000x128 .f32) : FVec F S50000x1 .f32 :=
  Host.divf (rowSum r) (broadcastInDim S50000x1 ![] bcast_S_S50000x1 (constant S_ .f32 0x43000000#32))
/-- The variance's divisor: 128 minus the correction 0, as a scalar. -/
def varDen : FVec F S_ .f32 := subf (constant S_ .f32 0x43000000#32) (sitofp .f32 (constantI S_ 32 0#32))
/-- The row variances as a column: the sums of squared deviations from the row's own mean over the divisor, kept where
    the divisor is positive. -/
def refVar (r : FVec F S50000x128 .f32) : FVec F S50000x1 .f32 :=
  select (broadcastInDim S50000x1 ![] bcast_S_S50000x1 (cmpf .ogt (varDen (F := F)) (constant S_ .f32 0x00000000#32)))
    (Host.divf (rowSum (mulf (subf r (spread (refMean r))) (subf r (spread (refMean r)))))
      (broadcastInDim S50000x1 ![] bcast_S_S50000x1 (varDen (F := F))))
    (broadcastInDim S50000x1 ![] bcast_S_S50000x1 (id (constant S_ .f32 0x7FC00000#32)))
/-- The normalised, scaled and shifted rows. -/
def refNorm (r : FVec F S50000x128 .f32) (gamma beta : FVec F S128 .f32) : FVec F S50000x128 .f32 :=
  addf (mulf (mulf (subf r (spread (refMean r)))
      (spread (Host.rsqrt (addf (refVar r) (broadcastInDim S50000x1 ![] bcast_S_S50000x1 (constant S_ .f32 0x3727C5AC#32))))))
    (biasN gamma)) (biasN beta)

/-- The reference's result, of its eleven arguments in order. -/
def refOut (x : FVec F S50000x128 .f32) (ei : IVec S2x640000 32) (ea : FVec F S640000x32 .f32) (w1 : FVec F S160x128 .f32)
    (b1 : FVec F S128 .f32) (w2 : FVec F S128x128 .f32) (b2 : FVec F S128 .f32) (wn : FVec F S256x128 .f32)
    (bn gamma beta : FVec F S128 .f32) : FVec F S50000x128 .f32 :=
  refNorm (refRes x (refAgg ei (refEdge (refSrc x ei) ea w1 b1 w2 b2)) wn bn) gamma beta

end Cert.ReferenceIdeal.Term

end
-- ==== Proof.RefRun.lean ====
/-
  The reference layer's host program read back. Its entry function is a straight line of 85 array operations once the
  four functions it calls are put in their calls' places: max with 0 (three times: twice on the 640000 edge rows, once on
  the 50000 node rows), three operations each, and the row variance, twenty operations followed by the three of the
  selection that guards its divisor. Every weakly fair execution of the program terminates; the result array then holds
  the composed term of the eleven argument arrays (`Term.refOut`: gather of the source rows, edge network, sum into the
  destination rows, node network plus the feature, row normalisation), and the eleven arguments are unchanged.
-/
import proofs.«430327_j2954937499917_1_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A line run after another is the two run in turn. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- A single array among a list of arrays, as sets of device arrays. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

/-- The entry function's 85 operations in order, each called function's operations standing in its call's place over
    that call's own arrays: the edge list's two rows and the wrapped source index (12), the gather, the edge network
    (two dense layers, each followed by the three operations of max with 0), the sum into the destination rows, the
    node network and its max with 0, the residual sum, the row mean (7), the row variance (23), and the
    normalisation, scale and shift (14). -/
abbrev ops : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v3 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v6 (broadcastInDim S640000 ![] bcast_S_S640000 : (⟨S_, .i32⟩ : BufTy).Contents (Elt F) → (⟨S640000, .i32⟩ : BufTy).Contents (Elt F)),
    binary main_v3 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v3 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)),
    binary main_v10 main_arg2 main_v11 ((fun a b => concatenate S640000x160 1 [⟨S640000x128, a⟩, ⟨S640000x32, b⟩] concatenates_S640000x128_S640000x32_S640000x160_d1) : (⟨S640000x128, .f32⟩ : BufTy).Contents (Elt F) → (⟨S640000x32, .f32⟩ : BufTy).Contents (Elt F) → (⟨S640000x160, .f32⟩ : BufTy).Contents (Elt F)),
    binary main_v11 main_arg3 main_v12 ((fun l r => Host.dotGeneral dot_S640000x160_S160x128_S640000x128_1_0_0_1_n_n none l r) : (⟨S640000x160, .f32⟩ : BufTy).Contents (Elt F) → (⟨S160x128, .f32⟩ : BufTy).Contents (Elt F) → (⟨S640000x128, .f32⟩ : BufTy).Contents (Elt F)),
    unary main_arg4 main_v13 (broadcastInDim S1x128 ![1] bcast_S128_S1x128_1 : (⟨S128, .f32⟩ : BufTy).Contents (Elt F) → (⟨S1x128, .f32⟩ : BufTy).Contents (Elt F)),
    unary main_v13 main_v14 (broadcastInDim S640000x128 ![0, 1] bcast_S1x128_S640000x128_0_1 : (⟨S1x128, .f32⟩ : BufTy).Contents (Elt F) → (⟨S640000x128, .f32⟩ : BufTy).Contents (Elt F)),
    binary main_v12 main_v14 main_v15 (addf : (⟨S640000x128, .f32⟩ : BufTy).Contents (Elt F) → (⟨S640000x128, .f32⟩ : BufTy).Contents (Elt F) → (⟨S640000x128, .f32⟩ : BufTy).Contents (Elt F)),
    TRef.nullary main_call0.cst (constant S_ .f32 0x00000000#32),
    TRef.unary main_call0.cst main_call0.v0 (broadcastInDim S640000x128 ![] bcast_S_S640000x128),
    TRef.binary (TRef.of (T := ⟨S640000x128, .f32⟩) main_v15) main_call0.v0 main_call0.v1 maximumf,
    binary main_v16 main_arg5 main_v17 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg6 main_v18 (broadcastInDim S1x128 ![1] bcast_S128_S1x128_1 : (⟨S128, .f32⟩ : BufTy).Contents (Elt F) → (⟨S1x128, .f32⟩ : BufTy).Contents (Elt F)),
    unary main_v18 main_v19 (broadcastInDim S640000x128 ![0, 1] bcast_S1x128_S640000x128_0_1 : (⟨S1x128, .f32⟩ : BufTy).Contents (Elt F) → (⟨S640000x128, .f32⟩ : BufTy).Contents (Elt F)),
    binary main_v17 main_v19 main_v20 (addf : (⟨S640000x128, .f32⟩ : BufTy).Contents (Elt F) → (⟨S640000x128, .f32⟩ : BufTy).Contents (Elt F) → (⟨S640000x128, .f32⟩ : BufTy).Contents (Elt F)),
    TRef.nullary main_call1.cst (constant S_ .f32 0x00000000#32),
    TRef.unary main_call1.cst main_call1.v0 (broadcastInDim S640000x128 ![] bcast_S_S640000x128),
    TRef.binary (TRef.of (T := ⟨S640000x128, .f32⟩) main_v20) main_call1.v0 main_call1.v1 maximumf,
    nullary main_cst (constant S_ .f32 0x00000000#32),
    unary main_cst main_v22 (broadcastInDim S50000x128 ![] bcast_S_S50000x128 : (⟨S_, .f32⟩ : BufTy).Contents (Elt F) → (⟨S50000x128, .f32⟩ : BufTy).Contents (Elt F)),
    unary main_v1 main_v23 (broadcastInDim S640000x1 ![0] bcast_S640000_S640000x1_0 : (⟨S640000, .i32⟩ : BufTy).Contents (Elt F) → (⟨S640000x1, .i32⟩ : BufTy).Contents (Elt F)),
    ternary main_v22 main_v23 main_v21 main_v24 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)),
    binary main_arg0 main_v24 main_v25 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v25 main_arg7 main_v26 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg8 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (TRef.of (T := ⟨S50000x128, .f32⟩) main_v29) main_call2.v0 main_call2.v1 maximumf,
    binary main_v30 main_arg0 main_v31 (addf : (⟨S50000x128, .f32⟩ : BufTy).Contents (Elt F) → (⟨S50000x128, .f32⟩ : BufTy).Contents (Elt F) → (⟨S50000x128, .f32⟩ : BufTy).Contents (Elt F)),
    nullary main_cst_1 (constant S_ .f32 0x00000000#32),
    binary main_v31 main_cst_1 main_v32 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v32 main_v33 (broadcastInDim S50000x1 ![0] bcast_S50000_S50000x1_0 : (⟨S50000, .f32⟩ : BufTy).Contents (Elt F) → (⟨S50000x1, .f32⟩ : BufTy).Contents (Elt F)),
    nullary main_cst_2 (constant S_ .f32 0x43000000#32),
    unary main_cst_2 main_v34 (broadcastInDim S50000x1 ![] bcast_S_S50000x1 : (⟨S_, .f32⟩ : BufTy).Contents (Elt F) → (⟨S50000x1, .f32⟩ : BufTy).Contents (Elt F)),
    binary main_v33 main_v34 main_v35 (Host.divf : (⟨S50000x1, .f32⟩ : BufTy).Contents (Elt F) → (⟨S50000x1, .f32⟩ : BufTy).Contents (Elt F) → (⟨S50000x1, .f32⟩ : BufTy).Contents (Elt F)),
    nullary main_c_3 (constantI S_ 32 0#32),
    TRef.nullary main_call3.cst (constant S_ .f32 0x00000000#32),
    TRef.binary (TRef.of (T := ⟨S50000x128, .f32⟩) main_v31) main_call3.cst main_call3.v0 (fun x v => Host.reduceAdd x v reducesTo_S50000x128_S50000_d1 h_S_),
    TRef.unary main_call3.v0 main_call3.v1 (broadcastInDim S50000x1 ![0] bcast_S50000_S50000x1_0),
    TRef.nullary main_call3.cst_0 (constant S_ .f32 0x43000000#32),
    TRef.unary main_call3.cst_0 main_call3.v2 (broadcastInDim S50000x1 ![] bcast_S_S50000x1),
    TRef.binary main_call3.v1 main_call3.v2 main_call3.v3 Host.divf,
    TRef.unary main_call3.v3 main_call3.v4 (broadcastInDim S50000x128 ![0, 1] bcast_S50000x1_S50000x128_0_1),
    TRef.binary (TRef.of (T := ⟨S50000x128, .f32⟩) main_v31) main_call3.v4 main_call3.v5 subf,
    TRef.binary main_call3.v5 main_call3.v5 main_call3.v6 mulf,
    TRef.unary (TRef.of (T := ⟨S_, .i32⟩) main_c_3) main_call3.v7 (sitofp .f32),
    TRef.nullary main_call3.cst_1 (constant S_ .f32 0x43000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S50000_d1 h_S_),
    TRef.unary main_call3.v9 main_call3.v10 (broadcastInDim S50000x1 ![0] bcast_S50000_S50000x1_0),
    TRef.unary main_call3.v8 main_call3.v11 (broadcastInDim S50000x1 ![] bcast_S_S50000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S50000x1 ![] bcast_S_S50000x1),
    TRef.ternary main_call3.v13 main_call3.v12 main_call3.call0.v1 main_call3.call0.v2 (fun p a b => select (broadcastInDim S50000x1 ![] bcast_S_S50000x1 p) a b),
    unary main_v35 main_v37 (broadcastInDim S50000x128 ![0, 1] bcast_S50000x1_S50000x128_0_1 : (⟨S50000x1, .f32⟩ : BufTy).Contents (Elt F) → (⟨S50000x128, .f32⟩ : BufTy).Contents (Elt F)),
    binary main_v31 main_v37 main_v38 (subf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3727C5AC#32),
    unary main_cst_4 main_v39 (broadcastInDim S50000x1 ![] bcast_S_S50000x1 : (⟨S_, .f32⟩ : BufTy).Contents (Elt F) → (⟨S50000x1, .f32⟩ : BufTy).Contents (Elt F)),
    binary main_v36 main_v39 main_v40 (addf : (⟨S50000x1, .f32⟩ : BufTy).Contents (Elt F) → (⟨S50000x1, .f32⟩ : BufTy).Contents (Elt F) → (⟨S50000x1, .f32⟩ : BufTy).Contents (Elt F)),
    unary main_v40 main_v41 (Host.rsqrt : (⟨S50000x1, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v38 main_v42 main_v43 (mulf : (⟨S50000x128, .f32⟩ : BufTy).Contents (Elt F) → (⟨S50000x128, .f32⟩ : BufTy).Contents (Elt F) → (⟨S50000x128, .f32⟩ : BufTy).Contents (Elt F)),
    unary main_arg9 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (mulf : (⟨S50000x128, .f32⟩ : BufTy).Contents (Elt F) → (⟨S50000x128, .f32⟩ : BufTy).Contents (Elt F) → (⟨S50000x128, .f32⟩ : BufTy).Contents (Elt F)),
    unary main_arg10 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)) ]

set_option maxRecDepth 8192 in
set_option maxHeartbeats 1000000 in
/-- The entry function is that straight line: the called functions' bodies unfolded at their calls, both sides are one
    chain of steps once sequencing is reassociated. -/
theorem main_eq (c : Dev nD) : main (F := F) c = seq ops := by
  simp only [main, fn_relu.body, fn_relu_0.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches arrays of the program's own table only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., unary_bufs_sub ..,
    unary_bufs_sub .., ternary_bufs_sub .., binary_bufs_sub .., binary_bufs_sub .., unary_bufs_sub .., unary_bufs_sub ..,
    binary_bufs_sub .., nullary_bufs_sub .., unary_bufs_sub .., binary_bufs_sub .., binary_bufs_sub .., nullary_bufs_sub ..,
    binary_bufs_sub .., unary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub .., unary_bufs_sub .., unary_bufs_sub .., ternary_bufs_sub .., unary_bufs_sub ..,
    binary_bufs_sub .., nullary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub ..⟩

/-! ## The line in six stages

The line is cut where few arrays are live, and so that each concatenation is the first operation of its stage (its
operands are then arrays the stage was handed). For each stage: the arrays it writes, that any other array keeps its
contents, and what the arrays read later hold, as terms of what the stage was handed. -/

/-- The edge list's two rows as vectors, the source index wrapped (a negative index plus 50000), and the gather of the source rows: 13 operations. -/
abbrev opsA1 : List (HloOp τ sig (Elt F)) :=
  [ unary main_arg1 main_v0 ((extractStridedSlice S1x640000 ![0, 0] · slices_S2x640000_S1x640000_0_0) : (⟨S2x640000, .i32⟩ : BufTy).Contents (Elt F) → (⟨S1x640000, .i32⟩ : BufTy).Contents (Elt F)),
    reshape main_v0 main_v1 rfl shapeCasts_S1x640000_S640000,
    unary main_arg1 main_v2 ((extractStridedSlice S1x640000 ![1, 0] · slices_S2x640000_S1x640000_1_0) : (⟨S2x640000, .i32⟩ : BufTy).Contents (Elt F) → (⟨S1x640000, .i32⟩ : BufTy).Contents (Elt F)),
    reshape main_v2 main_v3 rfl shapeCasts_S1x640000_S640000,
    nullary main_c (constantI S_ 32 0#32),
    unary main_c main_v4 (broadcastInDim S640000 ![] bcast_S_S640000 : (⟨S_, .i32⟩ : BufTy).Contents (Elt F) → (⟨S640000, .i32⟩ : BufTy).Contents (Elt F)),
    binary main_v3 main_v4 main_v5 (cmpi .slt : (⟨S640000, .i32⟩ : BufTy).Contents (Elt F) → (⟨S640000, .i32⟩ : BufTy).Contents (Elt F) → (⟨S640000, .i1⟩ : BufTy).Contents (Elt F)),
    nullary main_c_0 (constantI S_ 32 50000#32),
    unary main_c_0 main_v6 (broadcastInDim S640000 ![] bcast_S_S640000 : (⟨S_, .i32⟩ : BufTy).Contents (Elt F) → (⟨S640000, .i32⟩ : BufTy).Contents (Elt F)),
    binary main_v3 main_v6 main_v7 (addi : (⟨S640000, .i32⟩ : BufTy).Contents (Elt F) → (⟨S640000, .i32⟩ : BufTy).Contents (Elt F) → (⟨S640000, .i32⟩ : BufTy).Contents (Elt F)),
    ternary main_v5 main_v7 main_v3 main_v8 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    unary main_v8 main_v9 (broadcastInDim S640000x1 ![0] bcast_S640000_S640000x1_0 : (⟨S640000, .i32⟩ : BufTy).Contents (Elt F) → (⟨S640000x1, .i32⟩ : BufTy).Contents (Elt F)),
    binary main_arg0 main_v9 main_v10 ((fun x i => Host.gather gather_S50000x128_S640000x1_S640000x128_1_0_n_n_0_1_1128 x i) : (⟨S50000x128, .f32⟩ : BufTy).Contents (Elt F) → (⟨S640000x1, .i32⟩ : BufTy).Contents (Elt F) → (⟨S640000x128, .f32⟩ : BufTy).Contents (Elt F)) ]

/-- The arrays stage A1 writes, one per operation. -/
def WA1 : List (Ref sig .tc) :=
  [main_v0, main_v1, main_v2, main_v3, main_c, main_v4, main_v5, main_c_0, main_v6, main_v7, main_v8, main_v9, main_v10]

/-- Each operation of stage A1 writes one array of that list. -/
theorem writesA1 : (opsA1 : List (HloOp τ sig (Elt F))).Forall fun op => op.writes ⊆ ((WA1).map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide)⟩

/-- An array stage A1 does not write keeps its contents. -/
theorem keepA1 (V : Valuation τ sig (Elt F)) {r : Ref sig .tc} (hr : r ∉ WA1) :
    after opsA1 V (Proc.devRef .tc r) = V (Proc.devRef .tc r) :=
  after_of_writes_sub opsA1 V writesA1 hr

/-- The edge network on [source ‖ attribute] rows: two dense layers, each followed by the three operations of max with 0: 15 operations. -/
abbrev opsA2 : List (HloOp τ sig (Elt F)) :=
  [ binary main_v10 main_arg2 main_v11 ((fun a b => concatenate S640000x160 1 [⟨S640000x128, a⟩, ⟨S640000x32, b⟩] concatenates_S640000x128_S640000x32_S640000x160_d1) : (⟨S640000x128, .f32⟩ : BufTy).Contents (Elt F) → (⟨S640000x32, .f32⟩ : BufTy).Contents (Elt F) → (⟨S640000x160, .f32⟩ : BufTy).Contents (Elt F)),
    binary main_v11 main_arg3 main_v12 ((fun l r => Host.dotGeneral dot_S640000x160_S160x128_S640000x128_1_0_0_1_n_n none l r) : (⟨S640000x160, .f32⟩ : BufTy).Contents (Elt F) → (⟨S160x128, .f32⟩ : BufTy).Contents (Elt F) → (⟨S640000x128, .f32⟩ : BufTy).Contents (Elt F)),
    unary main_arg4 main_v13 (broadcastInDim S1x128 ![1] bcast_S128_S1x128_1 : (⟨S128, .f32⟩ : BufTy).Contents (Elt F) → (⟨S1x128, .f32⟩ : BufTy).Contents (Elt F)),
    unary main_v13 main_v14 (broadcastInDim S640000x128 ![0, 1] bcast_S1x128_S640000x128_0_1 : (⟨S1x128, .f32⟩ : BufTy).Contents (Elt F) → (⟨S640000x128, .f32⟩ : BufTy).Contents (Elt F)),
    binary main_v12 main_v14 main_v15 (addf : (⟨S640000x128, .f32⟩ : BufTy).Contents (Elt F) → (⟨S640000x128, .f32⟩ : BufTy).Contents (Elt F) → (⟨S640000x128, .f32⟩ : BufTy).Contents (Elt F)),
    TRef.nullary main_call0.cst (constant S_ .f32 0x00000000#32),
    TRef.unary main_call0.cst main_call0.v0 (broadcastInDim S640000x128 ![] bcast_S_S640000x128),
    TRef.binary (TRef.of (T := ⟨S640000x128, .f32⟩) main_v15) main_call0.v0 main_call0.v1 maximumf,
    binary main_v16 main_arg5 main_v17 ((fun l r => Host.dotGeneral dot_S640000x128_S128x128_S640000x128_1_0_0_1_n_n none l r) : (⟨S640000x128, .f32⟩ : BufTy).Contents (Elt F) → (⟨S128x128, .f32⟩ : BufTy).Contents (Elt F) → (⟨S640000x128, .f32⟩ : BufTy).Contents (Elt F)),
    unary main_arg6 main_v18 (broadcastInDim S1x128 ![1] bcast_S128_S1x128_1 : (⟨S128, .f32⟩ : BufTy).Contents (Elt F) → (⟨S1x128, .f32⟩ : BufTy).Contents (Elt F)),
    unary main_v18 main_v19 (broadcastInDim S640000x128 ![0, 1] bcast_S1x128_S640000x128_0_1 : (⟨S1x128, .f32⟩ : BufTy).Contents (Elt F) → (⟨S640000x128, .f32⟩ : BufTy).Contents (Elt F)),
    binary main_v17 main_v19 main_v20 (addf : (⟨S640000x128, .f32⟩ : BufTy).Contents (Elt F) → (⟨S640000x128, .f32⟩ : BufTy).Contents (Elt F) → (⟨S640000x128, .f32⟩ : BufTy).Contents (Elt F)),
    TRef.nullary main_call1.cst (constant S_ .f32 0x00000000#32),
    TRef.unary main_call1.cst main_call1.v0 (broadcastInDim S640000x128 ![] bcast_S_S640000x128),
    TRef.binary (TRef.of (T := ⟨S640000x128, .f32⟩) main_v20) main_call1.v0 main_call1.v1 maximumf ]

/-- The arrays stage A2 writes, one per operation. -/
def WA2 : List (Ref sig .tc) :=
  [main_v11, main_v12, main_v13, main_v14, main_v15, main_call0_cst, main_call0_v0, main_v16, main_v17, main_v18, main_v19, main_v20, main_call1_cst, main_call1_v0, main_v21]

/-- Each operation of stage A2 writes one array of that list. -/
theorem writesA2 : (opsA2 : List (HloOp τ sig (Elt F))).Forall fun op => op.writes ⊆ ((WA2).map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide)⟩

/-- An array stage A2 does not write keeps its contents. -/
theorem keepA2 (V : Valuation τ sig (Elt F)) {r : Ref sig .tc} (hr : r ∉ WA2) :
    after opsA2 V (Proc.devRef .tc r) = V (Proc.devRef .tc r) :=
  after_of_writes_sub opsA2 V writesA2 hr

/-- The messages summed into their destination rows from an array of zeros: 4 operations. -/
abbrev opsB1 : List (HloOp τ sig (Elt F)) :=
  [ nullary main_cst (constant S_ .f32 0x00000000#32),
    unary main_cst main_v22 (broadcastInDim S50000x128 ![] bcast_S_S50000x128 : (⟨S_, .f32⟩ : BufTy).Contents (Elt F) → (⟨S50000x128, .f32⟩ : BufTy).Contents (Elt F)),
    unary main_v1 main_v23 (broadcastInDim S640000x1 ![0] bcast_S640000_S640000x1_0 : (⟨S640000, .i32⟩ : BufTy).Contents (Elt F) → (⟨S640000x1, .i32⟩ : BufTy).Contents (Elt F)),
    ternary main_v22 main_v23 main_v21 main_v24 ((fun x i u => Host.scatterAdd scatter_S50000x128_S640000x1_S640000x128_1_0_0_1 x i u) : (⟨S50000x128, .f32⟩ : BufTy).Contents (Elt F) → (⟨S640000x1, .i32⟩ : BufTy).Contents (Elt F) → (⟨S640000x128, .f32⟩ : BufTy).Contents (Elt F) → (⟨S50000x128, .f32⟩ : BufTy).Contents (Elt F)) ]

/-- The arrays stage B1 writes, one per operation. -/
def WB1 : List (Ref sig .tc) :=
  [main_cst, main_v22, main_v23, main_v24]

/-- Each operation of stage B1 writes one array of that list. -/
theorem writesB1 : (opsB1 : List (HloOp τ sig (Elt F))).Forall fun op => op.writes ⊆ ((WB1).map (Proc.devRef (τ := τ) .tc)).toFinset :=
  ⟨sub_of_mem (by decide), sub_of_mem (by decide), sub_of_mem (by decide), sub_of_mem (by decide)⟩

/-- An array stage B1 does not write keeps its contents. -/
theorem keepB1 (V : Valuation τ sig (Elt F)) {r : Ref sig .tc} (hr : r ∉ WB1) :
    after opsB1 V (Proc.devRef .tc r) = V (Proc.devRef .tc r) :=
  after_of_writes_sub opsB1 V writesB1 hr

/-- The node network on [feature ‖ aggregate] rows, its max with 0, plus the feature: 9 operations. -/
abbrev opsB2 : List (HloOp τ sig (Elt F)) :=
  [ binary main_arg0 main_v24 main_v25 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v25 main_arg7 main_v26 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg8 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    TRef.nullary main_call2.cst (constant S_ .f32 0x00000000#32),
    TRef.unary main_call2.cst main_call2.v0 (broadcastInDim S50000x128 ![] bcast_S_S50000x128),
    TRef.binary (TRef.of (T := ⟨S50000x128, .f32⟩) main_v29) main_call2.v0 main_call2.v1 maximumf,
    binary main_v30 main_arg0 main_v31 (addf : (⟨S50000x128, .f32⟩ : BufTy).Contents (Elt F) → (⟨S50000x128, .f32⟩ : BufTy).Contents (Elt F) → (⟨S50000x128, .f32⟩ : BufTy).Contents (Elt F)) ]

/-- The arrays stage B2 writes, one per operation. -/
def WB2 : List (Ref sig .tc) :=
  [main_v25, main_v26, main_v27, main_v28, main_v29, main_call2_cst, main_call2_v0, main_v30, main_v31]

/-- Each operation of stage B2 writes one array of that list. -/
theorem writesB2 : (opsB2 : List (HloOp τ sig (Elt F))).Forall fun op => op.writes ⊆ ((WB2).map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide)⟩

/-- An array stage B2 does not write keeps its contents. -/
theorem keepB2 (V : Valuation τ sig (Elt F)) {r : Ref sig .tc} (hr : r ∉ WB2) :
    after opsB2 V (Proc.devRef .tc r) = V (Proc.devRef .tc r) :=
  after_of_writes_sub opsB2 V writesB2 hr

/-- The row mean (7 operations) and the row variance (20 operations and the 3 of the selection guarding its divisor). -/
abbrev opsC : List (HloOp τ sig (Elt F)) :=
  [ nullary main_cst_1 (constant S_ .f32 0x00000000#32),
    binary main_v31 main_cst_1 main_v32 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    unary main_v32 main_v33 (broadcastInDim S50000x1 ![0] bcast_S50000_S50000x1_0 : (⟨S50000, .f32⟩ : BufTy).Contents (Elt F) → (⟨S50000x1, .f32⟩ : BufTy).Contents (Elt F)),
    nullary main_cst_2 (constant S_ .f32 0x43000000#32),
    unary main_cst_2 main_v34 (broadcastInDim S50000x1 ![] bcast_S_S50000x1 : (⟨S_, .f32⟩ : BufTy).Contents (Elt F) → (⟨S50000x1, .f32⟩ : BufTy).Contents (Elt F)),
    binary main_v33 main_v34 main_v35 (Host.divf : (⟨S50000x1, .f32⟩ : BufTy).Contents (Elt F) → (⟨S50000x1, .f32⟩ : BufTy).Contents (Elt F) → (⟨S50000x1, .f32⟩ : BufTy).Contents (Elt F)),
    nullary main_c_3 (constantI S_ 32 0#32),
    TRef.nullary main_call3.cst (constant S_ .f32 0x00000000#32),
    TRef.binary (TRef.of (T := ⟨S50000x128, .f32⟩) main_v31) main_call3.cst main_call3.v0 (fun x v => Host.reduceAdd x v reducesTo_S50000x128_S50000_d1 h_S_),
    TRef.unary main_call3.v0 main_call3.v1 (broadcastInDim S50000x1 ![0] bcast_S50000_S50000x1_0),
    TRef.nullary main_call3.cst_0 (constant S_ .f32 0x43000000#32),
    TRef.unary main_call3.cst_0 main_call3.v2 (broadcastInDim S50000x1 ![] bcast_S_S50000x1),
    TRef.binary main_call3.v1 main_call3.v2 main_call3.v3 Host.divf,
    TRef.unary main_call3.v3 main_call3.v4 (broadcastInDim S50000x128 ![0, 1] bcast_S50000x1_S50000x128_0_1),
    TRef.binary (TRef.of (T := ⟨S50000x128, .f32⟩) main_v31) main_call3.v4 main_call3.v5 subf,
    TRef.binary main_call3.v5 main_call3.v5 main_call3.v6 mulf,
    TRef.unary (TRef.of (T := ⟨S_, .i32⟩) main_c_3) main_call3.v7 (sitofp .f32),
    TRef.nullary main_call3.cst_1 (constant S_ .f32 0x43000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S50000_d1 h_S_),
    TRef.unary main_call3.v9 main_call3.v10 (broadcastInDim S50000x1 ![0] bcast_S50000_S50000x1_0),
    TRef.unary main_call3.v8 main_call3.v11 (broadcastInDim S50000x1 ![] bcast_S_S50000x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S50000x1 ![] bcast_S_S50000x1),
    TRef.ternary main_call3.v13 main_call3.v12 main_call3.call0.v1 main_call3.call0.v2 (fun p a b => select (broadcastInDim S50000x1 ![] bcast_S_S50000x1 p) a b) ]

/-- The arrays stage C writes, one per operation. -/
def WC : List (Ref sig .tc) :=
  [main_cst_1, main_v32, main_v33, main_cst_2, main_v34, main_v35, main_c_3, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v36]

/-- Each operation of stage C writes one array of that list. -/
theorem writesC : (opsC : List (HloOp τ sig (Elt F))).Forall fun op => op.writes ⊆ ((WC).map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide), sub_of_mem (by decide)⟩

/-- An array stage C does not write keeps its contents. -/
theorem keepC (V : Valuation τ sig (Elt F)) {r : Ref sig .tc} (hr : r ∉ WC) :
    after opsC V (Proc.devRef .tc r) = V (Proc.devRef .tc r) :=
  after_of_writes_sub opsC V writesC hr

/-- Centre, scale by the inverse square root of variance plus ε, scale and shift: 14 operations. -/
abbrev opsD : List (HloOp τ sig (Elt F)) :=
  [ unary main_v35 main_v37 (broadcastInDim S50000x128 ![0, 1] bcast_S50000x1_S50000x128_0_1 : (⟨S50000x1, .f32⟩ : BufTy).Contents (Elt F) → (⟨S50000x128, .f32⟩ : BufTy).Contents (Elt F)),
    binary main_v31 main_v37 main_v38 (subf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3727C5AC#32),
    unary main_cst_4 main_v39 (broadcastInDim S50000x1 ![] bcast_S_S50000x1 : (⟨S_, .f32⟩ : BufTy).Contents (Elt F) → (⟨S50000x1, .f32⟩ : BufTy).Contents (Elt F)),
    binary main_v36 main_v39 main_v40 (addf : (⟨S50000x1, .f32⟩ : BufTy).Contents (Elt F) → (⟨S50000x1, .f32⟩ : BufTy).Contents (Elt F) → (⟨S50000x1, .f32⟩ : BufTy).Contents (Elt F)),
    unary main_v40 main_v41 (Host.rsqrt : (⟨S50000x1, .f32⟩ : BufTy).Contents (Elt F) → (⟨S50000x1, .f32⟩ : BufTy).Contents (Elt F)),
    unary main_v41 main_v42 (broadcastInDim S50000x128 ![0, 1] bcast_S50000x1_S50000x128_0_1 : (⟨S50000x1, .f32⟩ : BufTy).Contents (Elt F) → (⟨S50000x128, .f32⟩ : BufTy).Contents (Elt F)),
    binary main_v38 main_v42 main_v43 (mulf : (⟨S50000x128, .f32⟩ : BufTy).Contents (Elt F) → (⟨S50000x128, .f32⟩ : BufTy).Contents (Elt F) → (⟨S50000x128, .f32⟩ : BufTy).Contents (Elt F)),
    unary main_arg9 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (mulf : (⟨S50000x128, .f32⟩ : BufTy).Contents (Elt F) → (⟨S50000x128, .f32⟩ : BufTy).Contents (Elt F) → (⟨S50000x128, .f32⟩ : BufTy).Contents (Elt F)),
    unary main_arg10 main_v47 (broadcastInDim S1x128 ![1] bcast_S128_S1x128_1 : (⟨S128, .f32⟩ : BufTy).Contents (Elt F) → (⟨S1x128, .f32⟩ : BufTy).Contents (Elt F)),
    unary main_v47 main_v48 (broadcastInDim S50000x128 ![0, 1] bcast_S1x128_S50000x128_0_1 : (⟨S1x128, .f32⟩ : BufTy).Contents (Elt F) → (⟨S50000x128, .f32⟩ : BufTy).Contents (Elt F)),
    binary main_v46 main_v48 main_v49 (addf : (⟨S50000x128, .f32⟩ : BufTy).Contents (Elt F) → (⟨S50000x128, .f32⟩ : BufTy).Contents (Elt F) → (⟨S50000x128, .f32⟩ : BufTy).Contents (Elt F)) ]

/-- The arrays stage D writes, one per operation. -/
def WD : List (Ref sig .tc) :=
  [main_v37, main_v38, main_cst_4, main_v39, main_v40, main_v41, main_v42, main_v43, main_v44, main_v45, main_v46, main_v47, main_v48, main_v49]

/-- Each operation of stage D writes one array of that list. -/
theorem writesD : (opsD : List (HloOp τ sig (Elt F))).Forall fun op => op.writes ⊆ ((WD).map (Proc.devRef (τ := τ) .tc)).toFinset :=
  ⟨sub_of_mem (by decide), sub_of_mem (by decide), sub_of_mem (by decide), sub_of_mem (by decide), sub_of_mem (by decide),
    sub_of_mem (by decide), sub_of_mem (by decide), sub_of_mem (by decide), sub_of_mem (by decide), sub_of_mem (by decide),
    sub_of_mem (by decide), sub_of_mem (by decide), sub_of_mem (by decide), sub_of_mem (by decide)⟩

/-- An array stage D does not write keeps its contents. -/
theorem keepD (V : Valuation τ sig (Elt F)) {r : Ref sig .tc} (hr : r ∉ WD) :
    after opsD V (Proc.devRef .tc r) = V (Proc.devRef .tc r) :=
  after_of_writes_sub opsD V writesD hr

attribute [local irreducible] Host.gather Host.scatterAdd Host.reduceAdd concatenate in
set_option maxRecDepth 8192 in
set_option maxHeartbeats 1000000 in
/-- After stage A1 the destination vector is row 0 of the edge list. -/
theorem a1_dst (V : Valuation τ sig (Elt F)) :
    after opsA1 V (Proc.devRef .tc main_v1)
      = Term.dstOf (V (Proc.devRef .tc main_arg1)) := by
  simp only [Term.dstOf]
  after_results <;> rfl

attribute [local irreducible] Host.gather Host.scatterAdd Host.reduceAdd concatenate in
set_option maxRecDepth 8192 in
set_option maxHeartbeats 1000000 in
/-- After stage A1 the gathered rows are the feature rows at the wrapped sources. -/
theorem a1_src (V : Valuation τ sig (Elt F)) :
    after opsA1 V (Proc.devRef .tc main_v10)
      = Term.refSrc (V (Proc.devRef .tc main_arg0)) (V (Proc.devRef .tc main_arg1)) := by
  simp only [Term.refSrc, Term.startIdx, Term.wrapIdx, Term.srcOf]
  after_results <;> rfl

attribute [local irreducible] Host.gather Host.scatterAdd Host.reduceAdd concatenate in
set_option maxRecDepth 8192 in
set_option maxHeartbeats 1000000 in
/-- After stage A2 the messages are the edge network of the gathered rows and the edge attributes. -/
theorem a2_edge (V : Valuation τ sig (Elt F)) :
    after opsA2 V (Proc.devRef .tc main_v21)
      = Term.refEdge (V (Proc.devRef .tc main_v10)) (V (Proc.devRef .tc main_arg2)) (V (Proc.devRef .tc main_arg3)) (V (Proc.devRef .tc main_arg4)) (V (Proc.devRef .tc main_arg5)) (V (Proc.devRef .tc main_arg6)) := by
  simp only [Term.refEdge, Term.reluE, Term.biasE]
  after_results <;> rfl

attribute [local irreducible] Host.gather Host.scatterAdd Host.reduceAdd concatenate in
set_option maxRecDepth 8192 in
set_option maxHeartbeats 1000000 in
/-- After stage B1 the aggregate is the messages summed at the destination vector's rows, from zeros. -/
theorem b1_agg (V : Valuation τ sig (Elt F)) :
    after opsB1 V (Proc.devRef .tc main_v24)
      = Host.scatterAdd scatter_S50000x128_S640000x1_S640000x128_1_0_0_1
          (broadcastInDim S50000x128 ![] bcast_S_S50000x128 (constant S_ .f32 0x00000000#32))
          (broadcastInDim S640000x1 ![0] bcast_S640000_S640000x1_0 (V (Proc.devRef .tc main_v1))) (V (Proc.devRef .tc main_v21)) := by
  after_results <;> rfl

attribute [local irreducible] Host.gather Host.scatterAdd Host.reduceAdd concatenate in
set_option maxRecDepth 8192 in
set_option maxHeartbeats 1000000 in
/-- After stage B2 the residual rows are the node network of feature and aggregate, plus the feature. -/
theorem b2_res (V : Valuation τ sig (Elt F)) :
    after opsB2 V (Proc.devRef .tc main_v31)
      = Term.refRes (V (Proc.devRef .tc main_arg0)) (V (Proc.devRef .tc main_v24)) (V (Proc.devRef .tc main_arg7)) (V (Proc.devRef .tc main_arg8)) := by
  simp only [Term.refRes, Term.reluN, Term.biasN]
  after_results <;> rfl

attribute [local irreducible] Host.gather Host.scatterAdd Host.reduceAdd concatenate in
set_option maxRecDepth 8192 in
set_option maxHeartbeats 1000000 in
/-- After stage C the mean column is the row sums of the residual rows over 128. -/
theorem c_mean (V : Valuation τ sig (Elt F)) :
    after opsC V (Proc.devRef .tc main_v35)
      = Term.refMean (V (Proc.devRef .tc main_v31)) := by
  simp only [Term.refMean, Term.rowSum]
  after_results <;> rfl

attribute [local irreducible] Host.gather Host.scatterAdd Host.reduceAdd concatenate in
set_option maxRecDepth 8192 in
set_option maxHeartbeats 1000000 in
/-- After stage C the variance column is the residual rows' mean squared deviation from their own mean, guarded by the divisor's sign. -/
theorem c_var (V : Valuation τ sig (Elt F)) :
    after opsC V (Proc.devRef .tc main_v36)
      = Term.refVar (V (Proc.devRef .tc main_v31)) := by
  simp only [Term.refVar, Term.varDen, Term.refMean, Term.rowSum, Term.spread]
  after_results <;> rfl

attribute [local irreducible] Host.gather Host.scatterAdd Host.reduceAdd concatenate in
set_option maxRecDepth 8192 in
set_option maxHeartbeats 1000000 in
/-- After stage D the result is the centred rows times the inverse square root of variance plus ε, scaled and shifted. -/
theorem d_out (V : Valuation τ sig (Elt F)) :
    after opsD V (Proc.devRef .tc main_v49)
      = addf (mulf (mulf (subf (V (Proc.devRef .tc main_v31)) (Term.spread (V (Proc.devRef .tc main_v35))))
            (Term.spread (Host.rsqrt (addf (V (Proc.devRef .tc main_v36)) (broadcastInDim S50000x1 ![] bcast_S_S50000x1 (constant S_ .f32 0x3727C5AC#32))))))
          (Term.biasN (V (Proc.devRef .tc main_arg9)))) (Term.biasN (V (Proc.devRef .tc main_arg10))) := by
  simp only [Term.spread, Term.biasN]
  after_results <;> rfl

/-! ## The six stages in turn -/

/-- The 85 operations are the six stages one after the other. -/
theorem ops_split : (ops : List (HloOp τ sig (Elt F))) = opsA1 ++ (opsA2 ++ (opsB1 ++ (opsB2 ++ (opsC ++ opsD)))) := rfl

/-- The contents after the whole line: the stages' results composed. -/
theorem after_ops (V : Valuation τ sig (Elt F)) :
    after ops V = after opsD (after opsC (after opsB2 (after opsB1 (after opsA2 (after opsA1 V))))) := by
  rw [ops_split, after_append, after_append, after_append, after_append, after_append]

/-- The result array after the whole line, from any contents: the layer's term of the eleven arguments. Read from the
    last stage backwards: each stage's value lemma names what it computed from the arrays it was handed, and an array a
    stage does not write is read in the stage before. -/
theorem out_eq (V : Valuation τ sig (Elt F)) :
    after ops V (Proc.devRef .tc main_v49) = Term.refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  unfold Term.refOut Term.refNorm Term.refAgg
  rw [after_ops, d_out,
    c_mean, c_var, keepC _ (r := main_v31) (by decide), keepC _ (r := main_arg9) (by decide), keepC _ (r := main_arg10) (by decide),
    b2_res, keepB2 _ (r := main_arg9) (by decide), keepB2 _ (r := main_arg10) (by decide),
    b1_agg, keepB1 _ (r := main_arg0) (by decide), keepB1 _ (r := main_arg7) (by decide), keepB1 _ (r := main_arg8) (by decide), keepB1 _ (r := main_arg9) (by decide), keepB1 _ (r := main_arg10) (by decide),
    a2_edge, keepA2 _ (r := main_v1) (by decide), keepA2 _ (r := main_arg0) (by decide), keepA2 _ (r := main_arg7) (by decide), keepA2 _ (r := main_arg8) (by decide), keepA2 _ (r := main_arg9) (by decide), keepA2 _ (r := main_arg10) (by decide),
    a1_src, a1_dst, keepA1 _ (r := main_arg0) (by decide),
    keepA1 _ (r := main_arg2) (by decide),
    keepA1 _ (r := main_arg3) (by decide),
    keepA1 _ (r := main_arg4) (by decide),
    keepA1 _ (r := main_arg5) (by decide),
    keepA1 _ (r := main_arg6) (by decide),
    keepA1 _ (r := main_arg7) (by decide),
    keepA1 _ (r := main_arg8) (by decide),
    keepA1 _ (r := main_arg9) (by decide),
    keepA1 _ (r := main_arg10) (by decide)]

/-- An array no stage writes keeps its contents through the whole line. -/
theorem keep_all (V : Valuation τ sig (Elt F)) {r : Ref sig .tc}
    (h : r ∉ WA1 ++ (WA2 ++ (WB1 ++ (WB2 ++ (WC ++ WD))))) :
    after ops V (Proc.devRef .tc r) = V (Proc.devRef .tc r) := by
  simp only [List.mem_append, not_or] at h
  rw [after_ops, keepD _ h.2.2.2.2.2, keepC _ h.2.2.2.2.1, keepB2 _ h.2.2.2.1, keepB1 _ h.2.2.1, keepA2 _ h.2.1, keepA1 _ h.1]

/-- On every device, for any float values, from any memory with zero counters: every weakly fair execution of the
    reference program terminates with its result at the composed term of the arguments' launch contents, and the
    eleven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49)
          = Term.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v49).trans (out_eq (launchContents m c)),
      (h c main_arg0).trans (keep_all (launchContents m c) (by decide)),
      (h c main_arg1).trans (keep_all (launchContents m c) (by decide)),
      (h c main_arg2).trans (keep_all (launchContents m c) (by decide)),
      (h c main_arg3).trans (keep_all (launchContents m c) (by decide)),
      (h c main_arg4).trans (keep_all (launchContents m c) (by decide)),
      (h c main_arg5).trans (keep_all (launchContents m c) (by decide)),
      (h c main_arg6).trans (keep_all (launchContents m c) (by decide)),
      (h c main_arg7).trans (keep_all (launchContents m c) (by decide)),
      (h c main_arg8).trans (keep_all (launchContents m c) (by decide)),
      (h c main_arg9).trans (keep_all (launchContents m c) (by decide)),
      (h c main_arg10).trans (keep_all (launchContents m c) (by decide))⟩)
    (run_seq scopedRefs_eq scopedSems_eq defs main (fun _ => ops) main_eq (fun _ => ops_sub) m ρ)

end Cert.ReferenceIdeal.RefRun

end
-- ==== Proof.KerTerm.lean ====
/-
  The kernel program's host-side values as terms of its argument arrays: the source rows it gathers (rows at the
  wrapped second row of the edge list, kept where the wrapped index lies inside the table, a filler word elsewhere),
  the four weight slices its two kernels read, and the messages summed into their destination rows.
-/
import proofs.«430327_j2954937499917_1_alg».proof.Proof.Gen.KernelIdeal

noncomputable section

namespace Cert.KernelIdeal.Term

open Cert.KernelIdeal Cert.KernelIdeal.Gen Idealize.ShloMosaic

variable {F : FTy → Type} [FloatOps F]

/-- Row 0 of the edge list (the destinations), as a vector of 640000 words. -/
def dstOf (ei : IVec S2x640000 32) : IVec S640000 32 :=
  shapeCast S640000 (extractStridedSlice S1x640000 ![0, 0] ei slices_S2x640000_S1x640000_0_0) shapeCasts_S1x640000_S640000
/-- Row 1 of the edge list (the sources). -/
def srcOf (ei : IVec S2x640000 32) : IVec S640000 32 :=
  shapeCast S640000 (extractStridedSlice S1x640000 ![1, 0] ei slices_S2x640000_S1x640000_1_0) shapeCasts_S1x640000_S640000
/-- A negative index counts from the end: j < 0 becomes j + 50000. -/
def wrapIdx (j : IVec S640000 32) : IVec S640000 32 :=
  select (cmpi .slt j (broadcastInDim S640000 ![] bcast_S_S640000 (constantI S_ 32 0#32)))
    (addi j (broadcastInDim S640000 ![] bcast_S_S640000 (constantI S_ 32 50000#32))) j
/-- The gather's start indices: the wrapped sources as a 640000 × 1 array. -/
def startIdx (ei : IVec S2x640000 32) : IVec S640000x1 32 :=
  broadcastInDim S640000x1 ![0] bcast_S640000_S640000x1_0 (wrapIdx (srcOf ei))
/-- Per edge: is the wrapped index inside the table, 0 ≤ index ≤ 49999? -/
def inTable (ei : IVec S2x640000 32) : IVec S640000 1 :=
  Host.reduce IntOp.andi
    (andi (cmpi .sge (startIdx ei) (broadcastInDim S640000x1 ![] bcast_S_S640000x1 (constantI S_ 32 0#32)))
      (cmpi .sle (startIdx ei) (broadcastInDim S640000x1 ![0, 1] bcast_S1x1_S640000x1_0_1
        (broadcastInDim S1x1 ![1] bcast_S1_S1x1_1 (constantI S1 32 49999#32)))))
    (constantI S_ 1 1#1) reducesTo_S640000x1_S640000_d1 h_S_
/-- The gathered source rows: the table's row where the wrapped index is inside the table, the filler word elsewhere. -/
def kerSrc (x : FVec F S50000x128 .f32) (ei : IVec S2x640000 32) : FVec F S640000x128 .f32 :=
  select (broadcastInDim S640000x128 ![0] bcast_S640000_S640000x128_0 (inTable ei))
    (Host.gather gather_S50000x128_S640000x1_S640000x128_1_0_n_n_0_1_1128 x (startIdx ei))
    (broadcastInDim S640000x128 ![] bcast_S_S640000x128 (constant S_ .f32 0x7FC00000#32))

/-- Rows 0–127 of the first edge layer's weights (they meet the source features). -/
def w1xOf (w1 : FVec F S160x128 .f32) : FVec F S128x128 .f32 := extractStridedSlice S128x128 ![0, 0] w1 slices_S160x128_S128x128_0_0
/-- Rows 128–159 of the first edge layer's weights (they meet the edge attributes). -/
def w1eOf (w1 : FVec F S160x128 .f32) : FVec F S32x128 .f32 := extractStridedSlice S32x128 ![128, 0] w1 slices_S160x128_S32x128_128_0
/-- Rows 0–127 of the node layer's weights (they meet the node features). -/
def wnxOf (wn : FVec F S256x128 .f32) : FVec F S128x128 .f32 := extractStridedSlice S128x128 ![0, 0] wn slices_S256x128_S128x128_0_0
/-- Rows 128–255 of the node layer's weights (they meet the aggregated messages). -/
def wnaOf (wn : FVec F S256x128 .f32) : FVec F S128x128 .f32 := extractStridedSlice S128x128 ![128, 0] wn slices_S256x128_S128x128_128_0

/-- The messages summed into their destination rows, from an array of zeros. -/
def kerAgg (ei : IVec S2x640000 32) (e : FVec F S640000x128 .f32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 (dstOf ei)) e

end Cert.KernelIdeal.Term

end
-- ==== Proof.KernelHost.lean ====
/-
  What each region's arrays hold when the region is entered, as terms of the launch memory.

  @main is six segments: three stretches of host operations (the two rows of the edge list sliced and flattened; the
  outlined take, which wraps the sources, tests them against the table's range, gathers the rows and puts a filler
  where the test fails; the two slices of the first edge layer's weights), region 0 (the edge layer), one more stretch
  (zeros, the destinations as a column, the messages summed into their destination rows, the two slices of the node
  layer's weights), and region 1 (the node layer and its normalisation). The buffer contents at each boundary are a
  fold from the launch memory: a host operation rewrites its own result buffer and leaves every other, a region
  rewrites its windows' arrays and leaves every other. Read at one buffer, the fold is either the launch contents (no
  segment before the boundary writes it) or the operations' term over buffers read the same way; the terms are those
  of `Cert.KernelIdeal.Term`.
-/
import proofs.«430327_j2954937499917_1_alg».proof.Proof.Gen.KernelIdeal.Frame
import proofs.«430327_j2954937499917_1_alg».proof.Proof.KerTerm
import Idealize.ShloMosaic.Lib.StableHlo.Run

set_option maxRecDepth 16384

noncomputable section

namespace Cert.KernelIdeal.KerHost

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## What each stretch of host operations writes

A stretch's operations each write one buffer, their own result; a buffer outside the stretch's list of results holds
after the stretch what it held before. -/

/-- The results of the first stretch: the two rows of the edge list, sliced and flattened. -/
abbrev wr0 : List (Ref sig .tc) := [main_v0, main_v1, main_v2, main_v3]
/-- The results of the outlined take: its constants, the wrapped index, the range test, the gathered rows, the filler, the selection. -/
abbrev wr01 : List (Ref sig .tc) := [main_call0_c, main_call0_v0, main_call0_v1, main_call0_c_0, main_call0_v2, main_call0_v3, main_call0_v4,
  main_call0_v5, main_call0_c_1, main_call0_c_2, main_call0_v6, main_call0_v7, main_call0_v8, main_call0_v9, main_call0_v10, main_call0_v11,
  main_call0_c_3, main_call0_v12, main_call0_v13, main_call0_v14, main_call0_cst, main_call0_v15, main_v4]
/-- The results of the third stretch: the two slices of the first edge layer's weights. -/
abbrev wr02 : List (Ref sig .tc) := [main_v5, main_v6]
/-- The results of the stretch between the two regions: the zero array, the destinations as a column, the summed
    messages, the two slices of the node layer's weights. -/
abbrev wr1 : List (Ref sig .tc) := [main_cst, main_v8, main_v9, main_v10, main_v11, main_v12]

/-- One result buffer, a member of the list, as a subset of the list's device buffers. -/
theorem single_sub {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

theorem hostOps0_wr : (hostOps0 : List (HloOp τ sig (Elt F))).Forall fun op => op.writes ⊆ (wr0.map (Proc.devRef (τ := τ) .tc)).toFinset := by
  simp only [hostOps0, List.Forall]
  repeat' apply And.intro
  all_goals exact single_sub (by decide)
theorem hostOps0_1_wr : (hostOps0_1 : List (HloOp τ sig (Elt F))).Forall fun op => op.writes ⊆ (wr01.map (Proc.devRef (τ := τ) .tc)).toFinset := by
  simp only [hostOps0_1, List.Forall]
  repeat' apply And.intro
  all_goals exact single_sub (by decide)
theorem hostOps0_2_wr : (hostOps0_2 : List (HloOp τ sig (Elt F))).Forall fun op => op.writes ⊆ (wr02.map (Proc.devRef (τ := τ) .tc)).toFinset := by
  simp only [hostOps0_2, List.Forall]
  repeat' apply And.intro
  all_goals exact single_sub (by decide)
theorem hostOps1_wr : (hostOps1 : List (HloOp τ sig (Elt F))).Forall fun op => op.writes ⊆ (wr1.map (Proc.devRef (τ := τ) .tc)).toFinset := by
  simp only [hostOps1, List.Forall]
  repeat' apply And.intro
  all_goals exact single_sub (by decide)

/-- A buffer that is no result of a stretch holds after it what it held before. -/
theorem keep0 (V : Valuation τ sig (Elt F)) (r : Ref sig .tc) (hr : r ∉ wr0) :
    StableHlo.after hostOps0 V (Proc.devRef .tc r) = V (Proc.devRef .tc r) := StableHlo.after_of_writes_sub _ V hostOps0_wr hr
theorem keep01 (V : Valuation τ sig (Elt F)) (r : Ref sig .tc) (hr : r ∉ wr01) :
    StableHlo.after hostOps0_1 V (Proc.devRef .tc r) = V (Proc.devRef .tc r) := StableHlo.after_of_writes_sub _ V hostOps0_1_wr hr
theorem keep02 (V : Valuation τ sig (Elt F)) (r : Ref sig .tc) (hr : r ∉ wr02) :
    StableHlo.after hostOps0_2 V (Proc.devRef .tc r) = V (Proc.devRef .tc r) := StableHlo.after_of_writes_sub _ V hostOps0_2_wr hr
theorem keep1 (V : Valuation τ sig (Elt F)) (r : Ref sig .tc) (hr : r ∉ wr1) :
    StableHlo.after hostOps1 V (Proc.devRef .tc r) = V (Proc.devRef .tc r) := StableHlo.after_of_writes_sub _ V hostOps1_wr hr

variable (c : Dev nD)

/-! ## The two regions' results: what their pipelines leave in the output window's array -/

/-- The result buffer at the last boundary: what region 1's pipeline leaves in its output array (window 7). -/
theorem out_eq : Gen.W6 m ρ c (Proc.devRef .tc main_v13) = (Gen.dat1 (Gen.V5 m ρ) c).arrAt 7 cfg1.N := Gen.W6_arr m ρ c 7
/-- The edge messages at region 0's exit: what region 0's pipeline leaves in its output array (window 7). -/
theorem edge_eq : Gen.V4 m ρ c main_v7 = (Gen.dat0 (Gen.V3 m ρ) c).arrAt 7 cfg0.N := Gen.W4_arr m ρ c 7

/-! ## Region 0's entry contents (`V3`): three stretches of host operations from the launch memory -/

/-- A buffer none of the first three stretches writes holds its launch contents when region 0 is entered. -/
theorem W3_of_launch (r : Ref sig .tc) (h0 : r ∉ wr0) (h1 : r ∉ wr01) (h2 : r ∉ wr02) :
    W3 m ρ c (Proc.devRef .tc r) = m ((c : Thread nD τ).loc r) :=
  (keep02 _ r h2).trans ((keep01 _ r h1).trans (keep0 _ r h0))

theorem V3_ea : Gen.V3 m ρ c main_arg2 = m ((c : Thread nD τ).loc main_arg2) :=
  W3_of_launch m ρ c main_arg2 (by decide) (by decide) (by decide)
theorem V3_b1 : Gen.V3 m ρ c main_arg4 = m ((c : Thread nD τ).loc main_arg4) :=
  W3_of_launch m ρ c main_arg4 (by decide) (by decide) (by decide)
theorem V3_w2 : Gen.V3 m ρ c main_arg5 = m ((c : Thread nD τ).loc main_arg5) :=
  W3_of_launch m ρ c main_arg5 (by decide) (by decide) (by decide)
theorem V3_b2 : Gen.V3 m ρ c main_arg6 = m ((c : Thread nD τ).loc main_arg6) :=
  W3_of_launch m ρ c main_arg6 (by decide) (by decide) (by decide)

/-- The first slice of the edge layer's weights: the third stretch's first operation on the launch contents. -/
theorem V3_w1x : Gen.V3 m ρ c main_v5 = Term.w1xOf (F := F) (m ((c : Thread nD τ).loc main_arg3)) := by
  show StableHlo.after hostOps0_2 (W2 m ρ c) (Proc.devRef .tc main_v5) = _
  after_results
  rfl
/-- The second slice of the edge layer's weights. -/
theorem V3_w1e : Gen.V3 m ρ c main_v6 = Term.w1eOf (F := F) (m ((c : Thread nD τ).loc main_arg3)) := by
  show StableHlo.after hostOps0_2 (W2 m ρ c) (Proc.devRef .tc main_v6) = _
  after_results
  rfl

/-- The sources (row 1 of the edge list, flattened) after the first stretch. -/
theorem W1_src : W1 m ρ c (Proc.devRef .tc main_v3) = Term.srcOf (m ((c : Thread nD τ).loc main_arg1)) := by
  show StableHlo.after hostOps0 (W0 m ρ c) (Proc.devRef .tc main_v3) = _
  after_results
  rfl
/-- The destinations (row 0 of the edge list, flattened) after the first stretch. -/
theorem W1_dst : W1 m ρ c (Proc.devRef .tc main_v1) = Term.dstOf (m ((c : Thread nD τ).loc main_arg1)) := by
  show StableHlo.after hostOps0 (W0 m ρ c) (Proc.devRef .tc main_v1) = _
  after_results
  rfl

set_option maxHeartbeats 1000000 in
/-- The gathered source rows: the outlined take's 23 operations on the table and the sources. Each operation's result
    is read at its own buffer and every other buffer is left as it was; a value passes through its typed buffer and back
    unchanged; what is left is the term `Term.kerSrc` names, over the sources and the table. -/
theorem W2_src : W2 m ρ c (Proc.devRef .tc main_v4)
    = Term.kerSrc (F := F) (m ((c : Thread nD τ).loc main_arg0)) (m ((c : Thread nD τ).loc main_arg1)) := by
  show StableHlo.after hostOps0_1 (W1 m ρ c) (Proc.devRef .tc main_v4) = _
  generalize hW : W1 m ρ c = V1
  have hs : V1 (Proc.devRef .tc main_v3) = Term.srcOf (m ((c : Thread nD τ).loc main_arg1)) := hW ▸ W1_src m ρ c
  have hx : V1 (Proc.devRef .tc main_arg0) = m ((c : Thread nD τ).loc main_arg0) := hW ▸ keep0 _ main_arg0 (by decide)
  after_results_simp
  simp only [cast_cast, cast_eq]
  rw [hs, hx]
  unfold Term.kerSrc Term.inTable Term.startIdx Term.wrapIdx
  rfl

theorem V3_src : Gen.V3 m ρ c main_v4
    = Term.kerSrc (F := F) (m ((c : Thread nD τ).loc main_arg0)) (m ((c : Thread nD τ).loc main_arg1)) :=
  (keep02 _ main_v4 (by decide)).trans (W2_src m ρ c)

/-! ## Region 1's entry contents (`V5`): one stretch of host operations from region 0's exit contents -/

/-- A buffer that neither a host operation nor region 0 writes holds its launch contents when region 1 is entered. -/
theorem W5_of_launch (r : Ref sig .tc) (h0 : r ∉ wr0) (h1 : r ∉ wr01) (h2 : r ∉ wr02) (ha : ∀ w, Pipeline.arrRef spec0 w ≠ r)
    (h3 : r ∉ wr1) : W5 m ρ c (Proc.devRef .tc r) = m ((c : Thread nD τ).loc r) :=
  (keep1 _ r h3).trans ((W4_of_ne m ρ c r ha).trans (W3_of_launch m ρ c r h0 h1 h2))

theorem V5_x : Gen.V5 m ρ c main_arg0 = m ((c : Thread nD τ).loc main_arg0) :=
  W5_of_launch m ρ c main_arg0 (by decide) (by decide) (by decide) (by decide) (by decide)
theorem V5_bn : Gen.V5 m ρ c main_arg8 = m ((c : Thread nD τ).loc main_arg8) :=
  W5_of_launch m ρ c main_arg8 (by decide) (by decide) (by decide) (by decide) (by decide)
theorem V5_gamma : Gen.V5 m ρ c main_arg9 = m ((c : Thread nD τ).loc main_arg9) :=
  W5_of_launch m ρ c main_arg9 (by decide) (by decide) (by decide) (by decide) (by decide)
theorem V5_beta : Gen.V5 m ρ c main_arg10 = m ((c : Thread nD τ).loc main_arg10) :=
  W5_of_launch m ρ c main_arg10 (by decide) (by decide) (by decide) (by decide) (by decide)

/-- The node layer's weights reach region 0's exit as launched. -/
theorem W4_wn : W4 m ρ c (Proc.devRef .tc main_arg7) = m ((c : Thread nD τ).loc main_arg7) :=
  (W4_of_ne m ρ c main_arg7 (by decide)).trans (W3_of_launch m ρ c main_arg7 (by decide) (by decide) (by decide))
/-- The destinations reach region 0's exit as the first stretch left them. -/
theorem W4_dst : W4 m ρ c (Proc.devRef .tc main_v1) = Term.dstOf (m ((c : Thread nD τ).loc main_arg1)) :=
  (W4_of_ne m ρ c main_v1 (by decide)).trans ((keep02 _ main_v1 (by decide)).trans ((keep01 _ main_v1 (by decide)).trans (W1_dst m ρ c)))

/-- The first slice of the node layer's weights. -/
theorem V5_wnx : Gen.V5 m ρ c main_v11 = Term.wnxOf (F := F) (m ((c : Thread nD τ).loc main_arg7)) := by
  show StableHlo.after hostOps1 (W4 m ρ c) (Proc.devRef .tc main_v11) = _
  after_results
  rw [W4_wn]
  rfl
/-- The second slice of the node layer's weights. -/
theorem V5_wna : Gen.V5 m ρ c main_v12 = Term.wnaOf (F := F) (m ((c : Thread nD τ).loc main_arg7)) := by
  show StableHlo.after hostOps1 (W4 m ρ c) (Proc.devRef .tc main_v12) = _
  after_results
  rw [W4_wn]
  rfl
/-- The messages region 0 left, summed into their destination rows from an array of zeros. -/
theorem V5_agg : Gen.V5 m ρ c main_v10
    = Term.kerAgg (F := F) (m ((c : Thread nD τ).loc main_arg1)) (Gen.V4 m ρ c main_v7) := by
  show StableHlo.after hostOps1 (W4 m ρ c) (Proc.devRef .tc main_v10) = _
  after_results
  rw [W4_dst]
  rfl

end Cert.KernelIdeal.KerHost

end
-- ==== Proof.LayerSpec.lean ====
/-
  One message-passing layer, entry by entry, over the extended reals.

  An edge e with source row s (128 features) and attribute row a (32 features) gets the hidden vector
    hid k = max (Σ_i s i · W1x (i, k) + Σ_i a i · W1e (i, k) + b1 k) 0
  and the message
    msg h = max (Σ_k hid k · W2 (k, h) + b2 h) 0.
  A node with feature row x and aggregated message row g gets
    r k = max (Σ_i x i · Wnx (i, k) + Σ_i g i · Wna (i, k) + bn k) 0 + x k,
  and the layer's output is the row-wise normalisation of r:
    μ = (Σ_k r k) / 128,  v = (Σ_k (r k − μ)²) / 128,  out k = (r k − μ) · (v + ε)^(−1/2) · γ k + β k.
  The divisor 128 and ε are kept as the words the programs carry; both programs carry the same words.
-/
import Idealize.ShloMosaic.PureOps.Ideal
import Idealize.ShloMosaic.Lib.ValueIdx

noncomputable section

namespace Cert.Layer

open Idealize.ShloMosaic Idealize.ShloMosaic.ValueIdx
open scoped BigOperators

abbrev SE128 : Shape := ⟨2, ![640000, 128]⟩
abbrev SE32 : Shape := ⟨2, ![640000, 32]⟩
abbrev SN128 : Shape := ⟨2, ![50000, 128]⟩
abbrev S128x128 : Shape := ⟨2, ![128, 128]⟩
abbrev S32x128 : Shape := ⟨2, ![32, 128]⟩
abbrev S128 : Shape := ⟨1, ![128]⟩

abbrev S160x128 : Shape := ⟨2, ![160, 128]⟩
abbrev S256x128 : Shape := ⟨2, ![256, 128]⟩

/-- Rows 0–127 of the first edge layer's 160 × 128 weights: the rows that meet the source features. -/
def w1Top (w : S160x128.Idx → EReal) : S128x128.Idx → EReal :=
  fun i => w (ix2 (⟨(i 0).val, by have := idx2_lt0 i; omega⟩ : Fin 160) (i 1))
/-- Rows 128–159 of them: the rows that meet the edge attributes. -/
def w1Bot (w : S160x128.Idx → EReal) : S32x128.Idx → EReal :=
  fun i => w (ix2 (⟨128 + (i 0).val, by have := idx2_lt0 i; omega⟩ : Fin 160) (i 1))
/-- Rows 0–127 of the node layer's 256 × 128 weights: the rows that meet the node features. -/
def wnTop (w : S256x128.Idx → EReal) : S128x128.Idx → EReal :=
  fun i => w (ix2 (⟨(i 0).val, by have := idx2_lt0 i; omega⟩ : Fin 256) (i 1))
/-- Rows 128–255 of them: the rows that meet the aggregated messages. -/
def wnBot (w : S256x128.Idx → EReal) : S128x128.Idx → EReal :=
  fun i => w (ix2 (⟨128 + (i 0).val, by have := idx2_lt0 i; omega⟩ : Fin 256) (i 1))

/-- The word for 128.0, the row length the two means divide by. -/
abbrev c128 : EReal := Ideal.ofBits .f32 0x43000000#32
/-- The word for the normalisation's ε. -/
abbrev cEps : EReal := Ideal.ofBits .f32 0x3727C5AC#32

/-- Hidden unit k of one edge: the first layer applied to the source row and the attribute row, then max with 0. -/
def edgeHid (sx : Fin 128 → EReal) (ea : Fin 32 → EReal) (w1x : S128x128.Idx → EReal) (w1e : S32x128.Idx → EReal)
    (b1 : S128.Idx → EReal) (k : Fin 128) : EReal :=
  max ((∑ a : Fin 128, sx a * w1x (ix2 a k)) + (∑ a : Fin 32, ea a * w1e (ix2 a k)) + b1 (ix1 k)) 0

/-- Entry h of one edge's message: the second layer applied to the hidden vector, then max with 0. -/
def edgeOut (sx : Fin 128 → EReal) (ea : Fin 32 → EReal) (w1x : S128x128.Idx → EReal) (w1e : S32x128.Idx → EReal)
    (b1 : S128.Idx → EReal) (w2 : S128x128.Idx → EReal) (b2 : S128.Idx → EReal) (h : Fin 128) : EReal :=
  max ((∑ k : Fin 128, edgeHid sx ea w1x w1e b1 k * w2 (ix2 k h)) + b2 (ix1 h)) 0

/-- Entry k of one node's residual row: the node layer applied to the feature row and the aggregated row, max with 0,
    plus the feature itself. -/
def nodeRes (x agg : Fin 128 → EReal) (wnx wna : S128x128.Idx → EReal) (bn : S128.Idx → EReal) (k : Fin 128) : EReal :=
  max ((∑ a : Fin 128, x a * wnx (ix2 a k)) + (∑ a : Fin 128, agg a * wna (ix2 a k)) + bn (ix1 k)) 0 + x k

/-- The mean of a row of 128 entries: their sum divided by the word for 128. -/
def rowMean (r : Fin 128 → EReal) : EReal := Ideal.div (∑ k : Fin 128, r k) c128

/-- Entry k of one node's output row: the residual row normalised to mean 0 and variance 1 (up to ε), scaled and shifted. -/
def nodeOut (x agg : Fin 128 → EReal) (wnx wna : S128x128.Idx → EReal) (bn gamma beta : S128.Idx → EReal) (k : Fin 128) : EReal :=
  (nodeRes x agg wnx wna bn k - rowMean (nodeRes x agg wnx wna bn))
      * Ideal.rsqrt (rowMean (fun a => (nodeRes x agg wnx wna bn a - rowMean (nodeRes x agg wnx wna bn))
          * (nodeRes x agg wnx wna bn a - rowMean (nodeRes x agg wnx wna bn))) + cEps)
      * gamma (ix1 k)
    + beta (ix1 k)

/-- All edges' messages: row e of the result is `edgeOut` of row e of the sources and row e of the attributes. -/
def edgeArr (sx : SE128.Idx → EReal) (ea : SE32.Idx → EReal) (w1x : S128x128.Idx → EReal) (w1e : S32x128.Idx → EReal)
    (b1 : S128.Idx → EReal) (w2 : S128x128.Idx → EReal) (b2 : S128.Idx → EReal) : SE128.Idx → EReal :=
  fun i => edgeOut (fun a => sx (ix2 (i 0) a)) (fun a => ea (ix2 (i 0) a)) w1x w1e b1 w2 b2 (i 1)

/-- All nodes' outputs: row n of the result is `nodeOut` of row n of the features and row n of the aggregated messages. -/
def nodeArr (x agg : SN128.Idx → EReal) (wnx wna : S128x128.Idx → EReal) (bn gamma beta : S128.Idx → EReal) : SN128.Idx → EReal :=
  fun i => nodeOut (fun a => x (ix2 (i 0) a)) (fun a => agg (ix2 (i 0) a)) wnx wna bn gamma beta (i 1)

end Cert.Layer

end
-- ==== Proof.LibDenseLayer.lean ====
/-
  One dense layer followed by rectification, at the ideal values.

  For a matrix `a` of `B` rows and `K` columns and a weight matrix `w` of `N` rows and `K` columns the layer is

      denseRelu a w (r, n) = max (Σ_k a (r, k) · w (n, k)) 0 ,

  i.e. `relu (a · wᵀ)`.  Row `r` of the result depends on row `r` of `a` alone, and column `n` on row `n` of `w`
  alone (`denseRelu_congr`): a block of rows of the result is the layer of that block of rows.

  Two printed spellings of it are read to this form.  Both contract ONE axis, of extent `K`, and the sum over the
  contraction index is re-indexed to `Fin K` through its one coordinate (`contraction_sum`):

  * a kernel's matrix product accumulated into the zero splat, the weight's SECOND axis contracted, then the
    maximum with the zero splat (`matmul_relu_eq`);
  * the host's `dot_general` of `a` with the TRANSPOSE of `w` (so the transpose's FIRST axis is contracted), then the
    maximum with the broadcast zero constant (`dot_transpose_relu_eq`).

  What the two need of the dimension numbers is stated as hypotheses on the operand index maps, coordinate by
  coordinate; for a literal record each is decided by unfolding.  Only `0 + x = x` is used of the arithmetic, so
  both hold at the infinities too.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx
open scoped BigOperators

/-- `relu (a · wᵀ)` on extended reals: entry `(r, n)` is `max (Σ_k a (r, k) · w (n, k)) 0`. -/
def denseRelu {B K N : Nat} (a : (⟨2, ![B, K]⟩ : Shape).Idx → EReal) (w : (⟨2, ![N, K]⟩ : Shape).Idx → EReal) :
    (⟨2, ![B, N]⟩ : Shape).Idx → EReal :=
  fun i => max (∑ k : Fin K, a (ix2 (i 0 : Fin B) k) * w (ix2 (i 1 : Fin N) k)) 0

theorem denseRelu_apply {B K N : Nat} (a : (⟨2, ![B, K]⟩ : Shape).Idx → EReal) (w : (⟨2, ![N, K]⟩ : Shape).Idx → EReal)
    (r : Fin B) (n : Fin N) : denseRelu a w (ix2 r n) = max (∑ k : Fin K, a (ix2 r k) * w (ix2 n k)) 0 := rfl

/-- An entry of the layer depends on one row of each operand: equal rows give equal entries, whatever the two
    operands' other rows (and numbers of rows) are. -/
theorem denseRelu_congr {B B' K N N' : Nat} (a : (⟨2, ![B, K]⟩ : Shape).Idx → EReal) (a' : (⟨2, ![B', K]⟩ : Shape).Idx → EReal)
    (w : (⟨2, ![N, K]⟩ : Shape).Idx → EReal) (w' : (⟨2, ![N', K]⟩ : Shape).Idx → EReal)
    (r : Fin B) (r' : Fin B') (n : Fin N) (n' : Fin N')
    (ha : ∀ k : Fin K, a (ix2 r k) = a' (ix2 r' k)) (hw : ∀ k : Fin K, w (ix2 n k) = w' (ix2 n' k)) :
    denseRelu a w (ix2 r n) = denseRelu a' w' (ix2 r' n') := by
  rw [denseRelu_apply, denseRelu_apply]
  exact congrArg (fun t => max t 0) (Finset.sum_congr rfl fun k _ => by rw [ha k, hw k])

/-- A ONE-AXIS CONTRACTION AS A SUM OVER `Fin K`: if at the result index `j` the two operands, read at the operand
    indices of the contraction position `q`, are `L` and `R` of `q`'s one coordinate, the contraction's sum is
    `Σ_k L k · R k`. -/
theorem contraction_sum {sl sr so : Shape} (d : DotDims sl sr so) (K : Nat) (hrk : d.contr.rank = 1)
    (hsz : d.contr.size ⟨0, by omega⟩ = K) (lhs : sl.Idx → EReal) (rhs : sr.Idx → EReal) (j : so.Idx) (L R : Fin K → EReal)
    (hl : ∀ q : d.contr.Idx, lhs (d.lhsIdx j q) = L ((q ⟨0, by omega⟩).cast hsz))
    (hr : ∀ q : d.contr.Idx, rhs (d.rhsIdx j q) = R ((q ⟨0, by omega⟩).cast hsz)) :
    ∑ q : d.contr.Idx, lhs (d.lhsIdx j q) * rhs (d.rhsIdx j q) = ∑ k : Fin K, L k * R k :=
  (Finset.sum_congr rfl fun q _ => by rw [hl q, hr q]; rfl).trans
    (Equiv.sum_comp (contrEquiv1 d K hrk hsz) fun k => L k * R k)

section Kernel
variable {B K N : Nat} {φ₁ φ₂ : FTy} (d : DotDims ⟨2, ![B, K]⟩ ⟨2, ![N, K]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (j 1).val)
  (hr1 : ∀ (j : (⟨2, ![B, N]⟩ : Shape).Idx) (q : d.contr.Idx), (d.rhsIdx j q 1).val = (q ⟨0, by omega⟩).val)

include hrk hsz hl0 hl1 hr0 hr1 in
/-- THE KERNEL'S LAYER: the product of `a` (rows × `K`) with `w` (columns × `K`, its second axis contracted)
    accumulated into the zero splat, then the maximum with the zero splat, is `denseRelu a w`. -/
theorem matmul_relu_eq (a : FVec Ideal ⟨2, ![B, K]⟩ φ₁) (w : FVec Ideal ⟨2, ![N, K]⟩ φ₂) :
    maximumf (matmul d none a w (constant ⟨2, ![B, N]⟩ .f32 0x00000000#32))
        (broadcast ⟨2, ![B, N]⟩ (Scalar.ofBits (F := Ideal) .f32 0x00000000#32))
      = denseRelu a w := by
  funext j
  show max (FloatOps.matmul d none a w (constant ⟨2, ![B, N]⟩ .f32 0x00000000#32) j) (Ideal.ofBits .f32 0x00000000#32) = _
  rw [Ideal.matmul_constant_zero_apply, Ideal.ofBits_zero_f32,
    contraction_sum d K hrk hsz a w j (fun k => a (ix2 (j 0 : Fin B) k)) (fun k => w (ix2 (j 1 : Fin N) k))
      (fun q => congrArg a (funext fun ax => Fin.ext (by
        match ax with
        | ⟨0, _⟩ => exact hl0 j q
        | ⟨1, _⟩ => exact hl1 j q)))
      (fun q => congrArg w (funext fun ax => Fin.ext (by
        match ax with
        | ⟨0, _⟩ => exact hr0 j q
        | ⟨1, _⟩ => exact hr1 j q)))]
  rfl

end Kernel

section Host
variable {B K N : Nat} {φ₁ φ₂ : FTy} (d : DotDims ⟨2, ![B, K]⟩ ⟨2, ![K, N]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (q ⟨0, by omega⟩).val)
  (hr1 : ∀ (j : (⟨2, ![B, N]⟩ : Shape).Idx) (q : d.contr.Idx), (d.rhsIdx j q 1).val = (j 1).val)

include hrk hsz hl0 hl1 hr0 hr1 in
/-- THE HOST'S LAYER: `dot_general` of `a` (rows × `K`) with the transpose of `w` (`K` × columns, its first axis
    contracted), then the maximum with the zero constant broadcast, is `denseRelu a w`. -/
theorem dot_transpose_relu_eq (ht : (⟨2, ![N, K]⟩ : Shape).Transposes [1, 0] ⟨2, ![K, N]⟩)
    (hb : (⟨0, ![]⟩ : Shape).BroadcastsInDim ⟨2, ![B, N]⟩ (![] : Fin 0 → Fin 2))
    (a : FVec Ideal ⟨2, ![B, K]⟩ φ₁) (w : FVec Ideal ⟨2, ![N, K]⟩ φ₂) :
    maximumf (Host.dotGeneral d none a (transpose ⟨2, ![K, N]⟩ [1, 0] w ht))
        (broadcastInDim ⟨2, ![B, N]⟩ ![] hb (constant (F := Ideal) ⟨0, ![]⟩ .f32 0x00000000#32))
      = denseRelu a w := by
  funext j
  show max (FloatOps.dotGeneral d none .single a (transpose ⟨2, ![K, N]⟩ [1, 0] w ht) j) (Ideal.ofBits .f32 0x00000000#32) = _
  rw [Ideal.dotGeneral_apply, Ideal.ofBits_zero_f32,
    contraction_sum d K hrk hsz a (transpose ⟨2, ![K, N]⟩ [1, 0] w ht) j (fun k => a (ix2 (j 0 : Fin B) k))
      (fun k => w (ix2 (j 1 : Fin N) k))
      (fun q => congrArg a (funext fun ax => Fin.ext (by
        match ax with
        | ⟨0, _⟩ => exact hl0 j q
        | ⟨1, _⟩ => exact hl1 j q)))
      (fun q => transpose_apply [1, 0] w ht (d.rhsIdx j q) (ix2 (j 1 : Fin N) ((q ⟨0, by omega⟩).cast hsz)) (fun b => by
        match b with
        | ⟨0, _⟩ => exact (hr0 j q).symm
        | ⟨1, _⟩ => exact (hr1 j q).symm))]
  rfl

end Host

end Cert.Lib

end
-- ==== Proof.EdgeValue.lean ====
/-
  The edge kernel's output array after its last grid point, as ONE function of the arrays it reads.

  The kernel runs over 100 grid points. At point t it reads rows 6400 t … 6400 t + 6399 of the gathered source rows
  (128 features) and of the edge attributes (32 features), and the whole of the two slices of the first layer's
  weights, the first bias, the second layer's weights and the second bias; it writes rows 6400 t … 6400 t + 6399 of
  the output. For row p of the block and column q its body computes

      max (Σ_k max (Σ_i s (p, i) · W1x (i, k) + Σ_i a (p, i) · W1e (i, k) + b1 k) 0 · W2 (k, q) + b2 q) 0 ,

  which is entry q of the message of the edge whose source row is s (p, ·) and whose attribute row is a (p, ·)
  (`Cert.Layer.edgeOut`). Three steps:

  * the body's arithmetic read at an index (`k0_pay1_apply`): the changes of format are the identity on extended
    reals, a cast to the same shape is the identity, each of the three products accumulated into zero is the sum over
    the contracted coordinate of the operands' products (the operand indices of the two dimension-number records are
    read coordinate by coordinate first), each bias row is read at its column, each maximum is taken with 0;
  * what point t writes back is block t of the array of all edges' messages (`edge_flushed`): row p of the two
    edge blocks is row 6400 t + p of the two edge arrays, the weight and bias blocks are the whole arrays, and entry
    (p, q) of the output block sits at (6400 t + p, q) of the output array;
  * every point writes back, and row r of the output lies in the block of point r / 6400 (`edge_cover`), so the
    array ends holding the array of all edges' messages (`edge_final`).
-/
import proofs.«430327_j2954937499917_1_alg».proof.Proof.Gen.KernelIdeal.Frame
import proofs.«430327_j2954937499917_1_alg».proof.Proof.LayerSpec
import proofs.«430327_j2954937499917_1_alg».proof.Proof.LibDenseLayer
import Idealize.ShloMosaic.Lib.ValueLayout
import Idealize.ShloMosaic.Lib.Pipeline.Value
import Idealize.ShloMosaic.PureOps.Ideal.Laws

noncomputable section

namespace Cert.KernelIdeal.EdgeValue

open Cert.KernelIdeal Cert.KernelIdeal.Gen Idealize.ShloMosaic Idealize.ShloMosaic.TcCoe Idealize.SL.Sem Idealize.ShloMosaic.ValueIdx
open Idealize.ShloMosaic.Pipeline (Dat)
open scoped BigOperators

/-! ## The two products' operand indices, coordinate by coordinate

Both dimension-number records contract the left operand's axis 1 with the right operand's axis 0 and keep the left
operand's axis 0 and the right operand's axis 1, in that order, as the result's axes. So at result index `j` and
contraction position `q` the left operand is read at `(j 0, q)` and the right one at `(q, j 1)`. -/

theorem lhs_dot_S6400x128_S128x128_S6400x128_1_0_0_1_n_n_0 (j : S6400x128.Idx)
    (q : dot_S6400x128_S128x128_S6400x128_1_0_0_1_n_n.contr.Idx) :
    (dot_S6400x128_S128x128_S6400x128_1_0_0_1_n_n.lhsIdx j q 0).val = (j 0).val := by
  unfold DotDims.lhsIdx
  rw [dif_neg (show ¬(0 : Fin S6400x128.rank) ∈ dot_S6400x128_S128x128_S6400x128_1_0_0_1_n_n.lhsBatch by decide),
    dif_pos (show (0 : Fin S6400x128.rank) ∈ dot_S6400x128_S128x128_S6400x128_1_0_0_1_n_n.lhsNonContracting by decide)]
  rfl

theorem lhs_dot_S6400x128_S128x128_S6400x128_1_0_0_1_n_n_1 (j : S6400x128.Idx)
    (q : dot_S6400x128_S128x128_S6400x128_1_0_0_1_n_n.contr.Idx) :
    (dot_S6400x128_S128x128_S6400x128_1_0_0_1_n_n.lhsIdx j q 1).val = (q ⟨0, by decide⟩).val :=
  dot_S6400x128_S128x128_S6400x128_1_0_0_1_n_n.lhsIdx_val_of_single (cl := 1) rfl j q

theorem rhs_dot_S6400x128_S128x128_S6400x128_1_0_0_1_n_n_0 (j : S6400x128.Idx)
    (q : dot_S6400x128_S128x128_S6400x128_1_0_0_1_n_n.contr.Idx) :
    (dot_S6400x128_S128x128_S6400x128_1_0_0_1_n_n.rhsIdx j q 0).val = (q ⟨0, by decide⟩).val :=
  dot_S6400x128_S128x128_S6400x128_1_0_0_1_n_n.rhsIdx_val_of_single (cr := 0) rfl j q

theorem rhs_dot_S6400x128_S128x128_S6400x128_1_0_0_1_n_n_1 (j : S6400x128.Idx)
    (q : dot_S6400x128_S128x128_S6400x128_1_0_0_1_n_n.contr.Idx) :
    (dot_S6400x128_S128x128_S6400x128_1_0_0_1_n_n.rhsIdx j q 1).val = (j 1).val := by
  unfold DotDims.rhsIdx
  rw [dif_neg (show ¬(1 : Fin S128x128.rank) ∈ dot_S6400x128_S128x128_S6400x128_1_0_0_1_n_n.rhsBatch by decide),
    dif_pos (show (1 : Fin S128x128.rank) ∈ dot_S6400x128_S128x128_S6400x128_1_0_0_1_n_n.rhsNonContracting by decide)]
  rfl

theorem lhs_dot_S6400x32_S32x128_S6400x128_1_0_0_1_n_n_0 (j : S6400x128.Idx)
    (q : dot_S6400x32_S32x128_S6400x128_1_0_0_1_n_n.contr.Idx) :
    (dot_S6400x32_S32x128_S6400x128_1_0_0_1_n_n.lhsIdx j q 0).val = (j 0).val := by
  unfold DotDims.lhsIdx
  rw [dif_neg (show ¬(0 : Fin S6400x32.rank) ∈ dot_S6400x32_S32x128_S6400x128_1_0_0_1_n_n.lhsBatch by decide),
    dif_pos (show (0 : Fin S6400x32.rank) ∈ dot_S6400x32_S32x128_S6400x128_1_0_0_1_n_n.lhsNonContracting by decide)]
  rfl

theorem lhs_dot_S6400x32_S32x128_S6400x128_1_0_0_1_n_n_1 (j : S6400x128.Idx)
    (q : dot_S6400x32_S32x128_S6400x128_1_0_0_1_n_n.contr.Idx) :
    (dot_S6400x32_S32x128_S6400x128_1_0_0_1_n_n.lhsIdx j q 1).val = (q ⟨0, by decide⟩).val :=
  dot_S6400x32_S32x128_S6400x128_1_0_0_1_n_n.lhsIdx_val_of_single (cl := 1) rfl j q

theorem rhs_dot_S6400x32_S32x128_S6400x128_1_0_0_1_n_n_0 (j : S6400x128.Idx)
    (q : dot_S6400x32_S32x128_S6400x128_1_0_0_1_n_n.contr.Idx) :
    (dot_S6400x32_S32x128_S6400x128_1_0_0_1_n_n.rhsIdx j q 0).val = (q ⟨0, by decide⟩).val :=
  dot_S6400x32_S32x128_S6400x128_1_0_0_1_n_n.rhsIdx_val_of_single (cr := 0) rfl j q

theorem rhs_dot_S6400x32_S32x128_S6400x128_1_0_0_1_n_n_1 (j : S6400x128.Idx)
    (q : dot_S6400x32_S32x128_S6400x128_1_0_0_1_n_n.contr.Idx) :
    (dot_S6400x32_S32x128_S6400x128_1_0_0_1_n_n.rhsIdx j q 1).val = (j 1).val := by
  unfold DotDims.rhsIdx
  rw [dif_neg (show ¬(1 : Fin S32x128.rank) ∈ dot_S6400x32_S32x128_S6400x128_1_0_0_1_n_n.rhsBatch by decide),
    dif_pos (show (1 : Fin S32x128.rank) ∈ dot_S6400x32_S32x128_S6400x128_1_0_0_1_n_n.rhsNonContracting by decide)]
  rfl

/-! ## The two products at an index

Accumulated into the zero splat, each product read at `(p, q)` is the sum over the contracted coordinate `k` of the
left operand at `(p, k)` times the right operand at `(k, q)`. -/

/-- The 6400 × 128 by 128 × 128 product at `(p, q)`. -/
theorem matmul_S6400x128_S128x128_apply {φ₁ φ₂ : FTy} (a : FVec Ideal S6400x128 φ₁) (w : FVec Ideal S128x128 φ₂)
    (p : Fin 6400) (q : Fin 128) :
    matmul dot_S6400x128_S128x128_S6400x128_1_0_0_1_n_n none a w (constant (F := Ideal) S6400x128 .f32 0x00000000#32) (ix2 p q)
      = ∑ k : Fin 128, a (ix2 p k) * w (ix2 k q) := by
  show FloatOps.matmul dot_S6400x128_S128x128_S6400x128_1_0_0_1_n_n none a w
      (constant (F := Ideal) S6400x128 .f32 0x00000000#32) (ix2 p q) = _
  rw [Ideal.matmul_constant_zero_apply]
  exact Cert.Lib.contraction_sum dot_S6400x128_S128x128_S6400x128_1_0_0_1_n_n 128 rfl rfl a w (ix2 p q)
    (fun k => a (ix2 p k)) (fun k => w (ix2 k q))
    (fun r => congrArg a (funext fun ax => Fin.ext (by
      match ax with
      | ⟨0, _⟩ => exact lhs_dot_S6400x128_S128x128_S6400x128_1_0_0_1_n_n_0 _ _
      | ⟨1, _⟩ => exact lhs_dot_S6400x128_S128x128_S6400x128_1_0_0_1_n_n_1 _ _)))
    (fun r => congrArg w (funext fun ax => Fin.ext (by
      match ax with
      | ⟨0, _⟩ => exact rhs_dot_S6400x128_S128x128_S6400x128_1_0_0_1_n_n_0 _ _
      | ⟨1, _⟩ => exact rhs_dot_S6400x128_S128x128_S6400x128_1_0_0_1_n_n_1 _ _)))

/-- The 6400 × 32 by 32 × 128 product at `(p, q)`. -/
theorem matmul_S6400x32_S32x128_apply {φ₁ φ₂ : FTy} (a : FVec Ideal S6400x32 φ₁) (w : FVec Ideal S32x128 φ₂)
    (p : Fin 6400) (q : Fin 128) :
    matmul dot_S6400x32_S32x128_S6400x128_1_0_0_1_n_n none a w (constant (F := Ideal) S6400x128 .f32 0x00000000#32) (ix2 p q)
      = ∑ k : Fin 32, a (ix2 p k) * w (ix2 k q) := by
  show FloatOps.matmul dot_S6400x32_S32x128_S6400x128_1_0_0_1_n_n none a w
      (constant (F := Ideal) S6400x128 .f32 0x00000000#32) (ix2 p q) = _
  rw [Ideal.matmul_constant_zero_apply]
  exact Cert.Lib.contraction_sum dot_S6400x32_S32x128_S6400x128_1_0_0_1_n_n 32 rfl rfl a w (ix2 p q)
    (fun k => a (ix2 p k)) (fun k => w (ix2 k q))
    (fun r => congrArg a (funext fun ax => Fin.ext (by
      match ax with
      | ⟨0, _⟩ => exact lhs_dot_S6400x32_S32x128_S6400x128_1_0_0_1_n_n_0 _ _
      | ⟨1, _⟩ => exact lhs_dot_S6400x32_S32x128_S6400x128_1_0_0_1_n_n_1 _ _)))
    (fun r => congrArg w (funext fun ax => Fin.ext (by
      match ax with
      | ⟨0, _⟩ => exact rhs_dot_S6400x32_S32x128_S6400x128_1_0_0_1_n_n_0 _ _
      | ⟨1, _⟩ => exact rhs_dot_S6400x32_S32x128_S6400x128_1_0_0_1_n_n_1 _ _)))

/-! ## A bias row over all edge rows, and the zero the maxima are taken with -/

/-- A 128-vector viewed as one row and repeated over the 6400 rows reads, at `(p, q)`, the vector at `q`. -/
theorem bias_apply (b : Vec Ideal S128 .f32) (h : S128.ShapeCasts S1x128) (h' : S1x128.Broadcasts S6400x128)
    (p : Fin 6400) (q : Fin 128) :
    broadcastTo S6400x128 (shapeCast S1x128 b h) h' (ix2 p q) = b (ix1 q) :=
  (broadcastTo_1b_ab_apply (shapeCast S1x128 b h) h' p q).trans (shapeCast_a_1a_apply b h 0 q)

/-- The zero word repeated everywhere is the extended real `0`. -/
theorem zero_apply (i : S6400x128.Idx) :
    broadcast S6400x128 (Scalar.ofBits (F := Ideal) .f32 0x00000000#32) i = (0 : EReal) :=
  Ideal.ofBits_zero_f32

/-! ## The body's arithmetic at an index -/

/-- THE PAYLOAD AT `(p, q)`: entry `q` of the message of the edge whose source row is row `p` of the first block and
    whose attribute row is row `p` of the second. The format changes are the identity on extended reals, the casts to
    the same shape are the identity, each product is a sum over the contracted coordinate, each bias is read at its
    column, and each maximum is taken with `0`. -/
theorem k0_pay1_apply (x0 : Vec Ideal S6400x128 .f32) (x1 : Vec Ideal S6400x32 .f32) (x2 : Vec Ideal S128x128 .f32)
    (x3 : Vec Ideal S32x128 .f32) (x4 : Vec Ideal S128 .f32) (x5 : Vec Ideal S128x128 .f32) (x6 : Vec Ideal S128 .f32)
    (p : Fin 6400) (q : Fin 128) :
    k0_pay1 (F := Ideal) x0 x1 x2 x3 x4 x5 x6 (ix2 p q)
      = Cert.Layer.edgeOut (fun a => x0 (ix2 p a)) (fun a => x1 (ix2 p a)) x2 x3 x4 x5 x6 q := by
  unfold k0_pay1
  rw [shapeCast_self x0, shapeCast_self x2, shapeCast_self x3]
  -- the second layer: maximum with zero of the product plus the bias
  rw [maximumf_apply, addf_apply, zero_apply, bias_apply, matmul_S6400x128_S128x128_apply]
  unfold Cert.Layer.edgeOut
  refine congrArg (fun s : EReal => max (s + x6 (ix1 q)) 0) (Finset.sum_congr rfl fun k _ => ?_)
  rw [truncf_apply, truncf_apply]
  refine congrArg (fun s : EReal => s * x5 (ix2 k q)) ?_
  -- the first layer at hidden unit `k`: maximum with zero of the two products plus the bias
  rw [maximumf_apply, addf_apply, addf_apply, zero_apply, bias_apply, matmul_S6400x128_S128x128_apply,
    matmul_S6400x32_S32x128_apply]
  rfl

/-! ## From the blocks to the array -/

theorem zero_offsets₂ : (![0, 0] : Fin 2 → Nat) = fun _ => 0 := funext fun a => by fin_cases a <;> rfl
theorem zero_offsets₁ : (![0] : Fin 1 → Nat) = fun _ => 0 := funext fun a => by fin_cases a <;> rfl

/-- ONE ROW OF A BLOCK IS ONE ROW OF THE ARRAYS: if row `p` of the two edge blocks is row `r` of the two edge arrays,
    the weight and bias blocks are the whole weight and bias arrays, and entry `(p, q)` of the output block is entry
    `(r, q)` of the output array, then the message entry computed from the blocks is the array of messages there. -/
theorem edgeOut_block (A0 : S640000x128.Idx → EReal) (A1 : S640000x32.Idx → EReal)
    (W2 : S128x128.Idx → EReal) (W3 : S32x128.Idx → EReal) (B4 : S128.Idx → EReal) (W5 : S128x128.Idx → EReal)
    (B6 : S128.Idx → EReal)
    (e0 : S6400x128.Idx → S640000x128.Idx) (e1 : S6400x32.Idx → S640000x32.Idx) (e2 : S128x128.Idx → S128x128.Idx)
    (e3 : S32x128.Idx → S32x128.Idx) (e4 : S128.Idx → S128.Idx) (e5 : S128x128.Idx → S128x128.Idx)
    (e6 : S128.Idx → S128.Idx) (e7 : S6400x128.Idx → S640000x128.Idx)
    (p : Fin 6400) (q : Fin 128) (r : Fin 640000)
    (h0 : ∀ a : Fin 128, e0 (ix2 p a) = ix2 r a) (h1 : ∀ a : Fin 32, e1 (ix2 p a) = ix2 r a)
    (h2 : ∀ y, e2 y = y) (h3 : ∀ y, e3 y = y) (h4 : ∀ y, e4 y = y) (h5 : ∀ y, e5 y = y) (h6 : ∀ y, e6 y = y)
    (h7 : e7 (ix2 p q) = ix2 r q) :
    Cert.Layer.edgeOut (fun a => A0 (e0 (ix2 p a))) (fun a => A1 (e1 (ix2 p a))) (fun y => W2 (e2 y))
        (fun y => W3 (e3 y)) (fun y => B4 (e4 y)) (fun y => W5 (e5 y)) (fun y => B6 (e6 y)) q
      = Cert.Layer.edgeArr A0 A1 W2 W3 B4 W5 B6 (e7 (ix2 p q)) := by
  rw [h7]
  simp only [h0, h1, h2, h3, h4, h5, h6]
  rfl

/-- The printed index maps, decided once over the grid: at point `t` the two edge windows and the output window are
    on block `t` of the rows and block 0 of the columns, and the weight and bias windows on block 0 of everything. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-- WHAT POINT `t` WRITES BACK is block `t` of the array of all edges' messages, computed from the arrays as the region
    finds them: row `p` of the point's edge blocks is row `6400 t + p` of the edge arrays, and the weight and bias blocks
    are the whole arrays. -/
theorem edge_flushed (c : Dev nD) (t : Fin cfg0.N) :
    (dat0 (F := Ideal) V c).flushed 7 t = ((cfg0.win 7).blk t).view.read (Elt Ideal)
      (Cert.Layer.edgeArr (V c main_v4) (V c main_arg2) (V c main_v5) (V c main_v6) (V c main_arg4) (V c main_arg5)
        (V c main_arg6)) := by
  show (cfg0.win 7).cut (grid0.coords t) ((dat0 V c).after 7 t) = _
  rw [after0_7]
  unfold out0_7
  rw [View.canon_unit_zero zero_offsets₂]
  simp only [View.ld_unit_zero (S := S6400x128) zero_offsets₂, View.ld_unit_zero (S := S6400x32) zero_offsets₂,
    View.ld_unit_zero (S := S128x128) zero_offsets₂, View.ld_unit_zero (S := S32x128) zero_offsets₂,
    View.ld_unit_zero (S := S128) zero_offsets₁]
  obtain ⟨i00, i01, i10, i11, i20, i21, i30, i31, i40, i50, i51, i60, i70, i71⟩ := block_index t
  have ht : t.val < 100 := lt_of_lt_of_eq (show t.val < grid0.N from t.isLt) N_0
  funext j
  obtain ⟨p, q, rfl⟩ : ∃ (p : Fin 6400) (q : Fin 128), j = ix2 p q := ⟨j 0, j 1, eq_ix2 j⟩
  have hp : p.val < 6400 := p.isLt
  have hq : q.val < 128 := q.isLt
  show k0_pay1 (F := Ideal) (iblk0 V c 0 t) (iblk0 V c 1 t) (iblk0 V c 2 t) (iblk0 V c 3 t) (iblk0 V c 4 t)
      (iblk0 V c 5 t) (iblk0 V c 6 t) (ix2 p q)
    = Cert.Layer.edgeArr (V c main_v4) (V c main_arg2) (V c main_v5) (V c main_v6) (V c main_arg4) (V c main_arg5)
        (V c main_arg6) (((cfg0.win 7).blk t).view.emb (ix2 p q))
  refine (k0_pay1_apply (iblk0 V c 0 t) (iblk0 V c 1 t) (iblk0 V c 2 t) (iblk0 V c 3 t) (iblk0 V c 4 t)
    (iblk0 V c 5 t) (iblk0 V c 6 t) p q).trans ?_
  refine edgeOut_block (V c main_v4) (V c main_arg2) (V c main_v5) (V c main_v6) (V c main_arg4) (V c main_arg5)
    (V c main_arg6) ((cfg0.win 0).blk t).view.emb ((cfg0.win 1).blk t).view.emb ((cfg0.win 2).blk t).view.emb
    ((cfg0.win 3).blk t).view.emb ((cfg0.win 4).blk t).view.emb ((cfg0.win 5).blk t).view.emb
    ((cfg0.win 6).blk t).view.emb ((cfg0.win 7).blk t).view.emb p q ⟨t.val * 6400 + p.val, by omega⟩
    ?_ ?_ ?_ ?_ ?_ ?_ ?_ ?_
  · intro a; funext d; apply Fin.ext
    have ha : a.val < 128 := a.isLt
    match d with
    | ⟨0, _⟩ => show win0_0.index t (0 : Fin 2) * 6400 + 1 * p.val = t.val * 6400 + p.val; omega
    | ⟨1, _⟩ => show win0_0.index t (1 : Fin 2) * 128 + 1 * a.val = a.val; omega
  · intro a; funext d; apply Fin.ext
    have ha : a.val < 32 := a.isLt
    match d with
    | ⟨0, _⟩ => show win0_1.index t (0 : Fin 2) * 6400 + 1 * p.val = t.val * 6400 + p.val; omega
    | ⟨1, _⟩ => show win0_1.index t (1 : Fin 2) * 32 + 1 * a.val = a.val; omega
  · intro y; funext d; apply Fin.ext
    match d with
    | ⟨0, _⟩ => show win0_2.index t (0 : Fin 2) * 128 + 1 * (y 0).val = (y 0).val; omega
    | ⟨1, _⟩ => show win0_2.index t (1 : Fin 2) * 128 + 1 * (y 1).val = (y 1).val; omega
  · intro y; funext d; apply Fin.ext
    match d with
    | ⟨0, _⟩ => show win0_3.index t (0 : Fin 2) * 32 + 1 * (y 0).val = (y 0).val; omega
    | ⟨1, _⟩ => show win0_3.index t (1 : Fin 2) * 128 + 1 * (y 1).val = (y 1).val; omega
  · intro y; funext d; apply Fin.ext
    match d with
    | ⟨0, _⟩ => show win0_4.index t (0 : Fin 1) * 128 + 1 * (y 0).val = (y 0).val; omega
  · intro y; funext d; apply Fin.ext
    match d with
    | ⟨0, _⟩ => show win0_5.index t (0 : Fin 2) * 128 + 1 * (y 0).val = (y 0).val; omega
    | ⟨1, _⟩ => show win0_5.index t (1 : Fin 2) * 128 + 1 * (y 1).val = (y 1).val; omega
  · intro y; funext d; apply Fin.ext
    match d with
    | ⟨0, _⟩ => show win0_6.index t (0 : Fin 1) * 128 + 1 * (y 0).val = (y 0).val; omega
  · funext d; apply Fin.ext
    match d with
    | ⟨0, _⟩ => show win0_7.index t (0 : Fin 2) * 6400 + 1 * p.val = t.val * 6400 + p.val; omega
    | ⟨1, _⟩ => show win0_7.index t (1 : Fin 2) * 128 + 1 * q.val = q.val; omega

/-- An index of the output array is in point `t`'s block iff each coordinate is in the block's range on its axis. -/
theorem mem_edge_block (t : Fin cfg0.N) (i : S640000x128.Idx) :
    i ∈ ((cfg0.win 7).blk t).view.set ↔ ∀ a : Fin 2, win0_7.index t a * S6400x128.size a ≤ (i a).val
      ∧ (i a).val < win0_7.index t a * S6400x128.size a + S6400x128.size a := by
  show i ∈ ((View.whole main_v7).slice (win0_7.rect t)).set ↔ _
  rw [View.set_slice_whole, Rect.mem_set_unit]
  exact Iff.rfl

/-- THE BLOCKS COVER THE ARRAY: row `r` of the output lies in the block of point `r / 6400`, which writes back. -/
theorem edge_cover (i : S640000x128.Idx) :
    ∃ t : Fin cfg0.N, (cfg0.win 7).flush t = true ∧ i ∈ ((cfg0.win 7).blk t).view.set := by
  have hi0 : (i 0).val < 640000 := (i 0).isLt
  have hi1 : (i 1).val < 128 := (i 1).isLt
  obtain ⟨t, ht⟩ : ∃ t : Fin cfg0.N, t.val = (i 0).val / 6400 :=
    ⟨⟨(i 0).val / 6400, by show _ < grid0.N; rw [N_0]; omega⟩, rfl⟩
  obtain ⟨-, -, -, -, -, -, -, -, -, -, -, -, i70, i71⟩ := block_index t
  refine ⟨t, flush0_7 t, ?_⟩
  rw [mem_edge_block]
  intro a
  match a with
  | ⟨0, _⟩ =>
    show win0_7.index t (0 : Fin 2) * 6400 ≤ (i 0).val ∧ (i 0).val < win0_7.index t (0 : Fin 2) * 6400 + 6400
    omega
  | ⟨1, _⟩ =>
    show win0_7.index t (1 : Fin 2) * 128 ≤ (i 1).val ∧ (i 1).val < win0_7.index t (1 : Fin 2) * 128 + 128
    omega

/-- THE OUTPUT ARRAY AFTER THE LAST POINT is the array of all edges' messages, computed from the arrays the region
    reads as it finds them: every point writes back its block of that one array, and the blocks cover it. -/
theorem edge_final (c : Dev nD) :
    (Gen.dat0 (F := Ideal) V c).arrAt 7 cfg0.N
      = Cert.Layer.edgeArr (V c main_v4) (V c main_arg2) (V c main_v5) (V c main_v6) (V c main_arg4) (V c main_arg5)
          (V c main_arg6) :=
  (dat0 (F := Ideal) V c).arrAt_eq_of_cover 7
    (Cert.Layer.edgeArr (V c main_v4) (V c main_arg2) (V c main_v5) (V c main_v6) (V c main_arg4) (V c main_arg5)
      (V c main_arg6))
    (fun t _ => edge_flushed V c t) edge_cover

end Cert.KernelIdeal.EdgeValue

end
-- ==== Proof.NodePayload.lean ====
/-
  The node kernel's stored block, entry by entry.

  From a block of 5000 feature rows x, the matching block of aggregated rows g, the two weight slices Wx, Wa, the bias b
  and the scale and shift γ, β, the kernel stores the block whose entry (p, q) is

      (r_p q − μ_p) · (v_p + ε)^(−1/2) · γ q + β q,

  where r_p k = max (Σ_i x (p, i) · Wx (i, k) + Σ_i g (p, i) · Wa (i, k) + b k) 0 + x (p, k) is the residual row,
  μ_p = (Σ_k r_p k) / 128 its mean and v_p = (Σ_k (r_p k − μ_p)²) / 128 its variance: entry q of the layer's output row
  for row p of the two blocks (`payload_apply`). The steps: the two products as sums over the contracted axis
  (`matmul_at`), the residual block (`resBlock_apply`), a row's mean kept as a column of extent one (`meanCol_apply`),
  the normalisation, whose two columns are broadcast back over the lanes (`normBlock_apply`), and the scale and shift
  (`pay1_apply`). The narrowing of the products' operands to sixteen bits is the identity on the extended reals.
-/
import proofs.«430327_j2954937499917_1_alg».proof.Proof.Gen.KernelIdeal.Skeleton
import proofs.«430327_j2954937499917_1_alg».proof.Proof.LayerSpec
import proofs.«430327_j2954937499917_1_alg».proof.Proof.LibDenseLayer
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodeValue

open Cert.KernelIdeal Cert.KernelIdeal.Gen Idealize.ShloMosaic Idealize.ShloMosaic.ValueIdx
open scoped BigOperators

/-! ## Two layout forms of a column kept as an axis of extent one -/

/-- An `[a]` array cast to `[a, 1]` reads, at `(i, u)`, the operand at `i`, whatever the unit coordinate `u`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices

At result index (p, k) and contraction position i the left operand is read at (p, i) and the right one at (i, k):
one equation per operand axis. -/

theorem lhs_dot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_dot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_dot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_dot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- One product of the node layer at `(p, k)`: row `p` of the left operand against column `k` of the weights. -/
theorem matmul_at (a : FVec Ideal S5000x128 .bf16) (w : FVec Ideal S128x128 .bf16) (p : Fin 5000) (k : Fin 128) :
    matmul dot_S5000x128_S128x128_S5000x128_1_0_0_1_n_n none a w (constant S5000x128 .f32 0x00000000#32) (ix2 p k)
      = ∑ i : Fin 128, a (ix2 p i) * w (ix2 i k) := by
  show FloatOps.matmul dot_S5000x128_S128x128_S5000x128_1_0_0_1_n_n none a w (constant S5000x128 .f32 0x00000000#32) (ix2 p k) = _
  rw [Ideal.matmul_constant_zero_apply]
  exact Cert.Lib.contraction_sum dot_S5000x128_S128x128_S5000x128_1_0_0_1_n_n 128 rfl rfl a w (ix2 p k)
    (fun i => a (ix2 p i)) (fun i => w (ix2 i k))
    (fun q => congrArg a (funext fun ax => Fin.ext (by
      match ax with
      | ⟨0, _⟩ => exact lhs_dot_0 _ _
      | ⟨1, _⟩ => exact lhs_dot_1 _ _)))
    (fun q => congrArg w (funext fun ax => Fin.ext (by
      match ax with
      | ⟨0, _⟩ => exact rhs_dot_0 _ _
      | ⟨1, _⟩ => exact rhs_dot_1 _ _)))

/-! ## The residual block -/

/-- The residual block the kernel forms from its loaded blocks: the node layer of the feature block and the aggregated
    block, the maximum with 0, plus the feature block. -/
def resBlock (x0 x1 : Vec Ideal S5000x128 .f32) (x2 x3 : Vec Ideal S128x128 .f32) (x4 : Vec Ideal S128 .f32) :
    FVec Ideal S5000x128 .f32 :=
  addf (maximumf (addf (addf
        (matmul dot_S5000x128_S128x128_S5000x128_1_0_0_1_n_n none (truncf .bf16 x0 bitsLt_bf16_f32)
          (truncf .bf16 (shapeCast S128x128 x2 shapeCasts_S128x128_S128x128) bitsLt_bf16_f32)
          (constant S5000x128 .f32 0x00000000#32))
        (matmul dot_S5000x128_S128x128_S5000x128_1_0_0_1_n_n none
          (truncf .bf16 (shapeCast S5000x128 x1 shapeCasts_S5000x128_S5000x128) bitsLt_bf16_f32)
          (truncf .bf16 (shapeCast S128x128 x3 shapeCasts_S128x128_S128x128) bitsLt_bf16_f32)
          (constant S5000x128 .f32 0x00000000#32)))
        (broadcastTo S5000x128 (shapeCast S1x128 x4 shapeCasts_S128_S1x128) broadcasts_S1x128_S5000x128))
      (broadcast S5000x128 (Scalar.ofBits .f32 0x00000000#32))) x0

/-- Entry `(p, k)` of the residual block is entry `k` of the residual row of row `p` of the two blocks. -/
theorem resBlock_apply (x0 x1 : Vec Ideal S5000x128 .f32) (x2 x3 : Vec Ideal S128x128 .f32) (x4 : Vec Ideal S128 .f32)
    (p : Fin 5000) (k : Fin 128) :
    resBlock x0 x1 x2 x3 x4 (ix2 p k)
      = Cert.Layer.nodeRes (fun a => x0 (ix2 p a)) (fun a => x1 (ix2 p a)) x2 x3 x4 k := by
  unfold resBlock Cert.Layer.nodeRes
  rw [shapeCast_self, shapeCast_self, shapeCast_self]
  simp only [addf_apply, maximumf_apply, broadcast_apply]
  rw [matmul_at, matmul_at, broadcastTo_1b_ab_apply, shapeCast_a_1a_apply]
  show max _ (Ideal.ofBits .f32 0x00000000#32) + _ = _
  rw [Ideal.ofBits_zero_f32]
  rfl

/-! ## The mean of each row, kept as a column -/

/-- The lane sums of a block kept as a column and divided by the word for 128. -/
def meanCol (r : FVec Ideal S5000x128 .f32) : FVec Ideal S5000x1 .f32 :=
  divf (shapeCast S5000x1 (multiReduction .add [1] S5000 r 0x00000000#32 reduces_S5000x128_S5000 (.inl rfl) rfl)
      shapeCasts_S5000_S5000x1)
    (broadcast S5000x1 (Scalar.ofBits .f32 0x43000000#32))

/-- Entry `p` of that column is the mean of row `p`. -/
theorem meanCol_apply (r : FVec Ideal S5000x128 .f32) (p : Fin 5000) (u : Fin 1) :
    meanCol r (ix2 p u) = Cert.Layer.rowMean (fun k => r (ix2 p k)) := by
  unfold meanCol Cert.Layer.rowMean
  rw [divf_apply, shapeCast_a_a1_apply]
  refine congrArg (fun t => Ideal.div t (Ideal.ofBits .f32 0x43000000#32)) ?_
  refine (Ideal.multiReduction_add_single r 0x00000000#32 reduces_S5000x128_S5000 (.inl rfl) rfl (ix1 p)).trans ?_
  refine Finset.sum_congr rfl fun k _ => congrArg r (funext fun a => ?_)
  match a with
  | ⟨0, _⟩ => rfl
  | ⟨1, _⟩ => rfl

/-! ## The normalised block -/

/-- A block with each row's mean taken off and the result scaled by the inverse root of the row's variance plus ε:
    the column of means is broadcast back over the lanes, and so is the column of inverse roots. -/
def normBlock (r : FVec Ideal S5000x128 .f32) : FVec Ideal S5000x128 .f32 :=
  mulf (subf r (broadcastTo S5000x128 (meanCol r) broadcasts_S5000x1_S5000x128))
    (broadcastTo S5000x128
      (rsqrt (addf
        (meanCol (mulf (subf r (broadcastTo S5000x128 (meanCol r) broadcasts_S5000x1_S5000x128))
          (subf r (broadcastTo S5000x128 (meanCol r) broadcasts_S5000x1_S5000x128))))
        (broadcast S5000x1 (Scalar.ofBits .f32 0x3727C5AC#32))))
      broadcasts_S5000x1_S5000x128)

/-- Entry `(p, q)` of the normalised block, from row `p` of the block alone. -/
theorem normBlock_apply (r : FVec Ideal S5000x128 .f32) (p : Fin 5000) (q : Fin 128) :
    normBlock r (ix2 p q)
      = (r (ix2 p q) - Cert.Layer.rowMean (fun b => r (ix2 p b)))
        * Ideal.rsqrt (Cert.Layer.rowMean (fun a => (r (ix2 p a) - Cert.Layer.rowMean (fun b => r (ix2 p b)))
            * (r (ix2 p a) - Cert.Layer.rowMean (fun b => r (ix2 p b)))) + Cert.Layer.cEps) := by
  have hsq : (fun a : Fin 128 =>
        mulf (subf r (broadcastTo S5000x128 (meanCol r) broadcasts_S5000x1_S5000x128))
          (subf r (broadcastTo S5000x128 (meanCol r) broadcasts_S5000x1_S5000x128)) (ix2 p a))
      = fun a => (r (ix2 p a) - Cert.Layer.rowMean (fun b => r (ix2 p b)))
          * (r (ix2 p a) - Cert.Layer.rowMean (fun b => r (ix2 p b))) := by
    funext a
    rw [mulf_apply, subf_apply, broadcastTo_a1_ab_apply, meanCol_apply]
  unfold normBlock
  rw [mulf_apply, subf_apply, broadcastTo_a1_ab_apply, broadcastTo_a1_ab_apply, meanCol_apply]
  show _ * Ideal.rsqrt (meanCol _ (ix2 p (0 : Fin 1)) + Ideal.ofBits .f32 0x3727C5AC#32) = _
  rw [meanCol_apply, hsq]

/-- The kernel's first printed part is the normalised residual block. -/
theorem pay2_eq (x0 x1 : Vec Ideal S5000x128 .f32) (x2 x3 : Vec Ideal S128x128 .f32) (x4 : Vec Ideal S128 .f32) :
    k1_pay2 x0 x1 x2 x3 x4 = normBlock (resBlock x0 x1 x2 x3 x4) := rfl

/-- The second part scales lane `q` by γ and shifts it by β. -/
theorem pay1_apply (v : FVec Ideal S5000x128 .f32) (x5 x6 : Vec Ideal S128 .f32) (p : Fin 5000) (q : Fin 128) :
    k1_pay1 v x5 x6 (ix2 p q) = v (ix2 p q) * x5 (ix1 q) + x6 (ix1 q) := by
  unfold k1_pay1
  rw [addf_apply, mulf_apply, broadcastTo_1b_ab_apply, broadcastTo_1b_ab_apply, shapeCast_a_1a_apply, shapeCast_a_1a_apply]

/-- THE STORED BLOCK, ENTRY BY ENTRY: entry `(p, q)` of what the kernel stores is entry `q` of the layer's output row for
    row `p` of the feature block and row `p` of the aggregated block. -/
theorem payload_apply (x0 x1 : Vec Ideal S5000x128 .f32) (x2 x3 : Vec Ideal S128x128 .f32) (x4 x5 x6 : Vec Ideal S128 .f32)
    (p : Fin 5000) (q : Fin 128) :
    k1_pay1 (k1_pay2 x0 x1 x2 x3 x4) x5 x6 (ix2 p q)
      = Cert.Layer.nodeOut (fun a => x0 (ix2 p a)) (fun a => x1 (ix2 p a)) x2 x3 x4 x5 x6 q := by
  rw [pay1_apply, pay2_eq, normBlock_apply]
  simp only [resBlock_apply]
  rfl

end Cert.KernelIdeal.NodeValue

end
-- ==== Proof.NodeValue.lean ====
/-
  The node kernel's region: the array its output window leaves after the last point, as one function of the arrays it
  reads.

  The region runs over ten points. Point t reads rows 5000·t … 5000·t + 4999 of the node features and of the aggregated
  messages, and all of the two weight slices, the bias, the scale and the shift; it writes back rows
  5000·t … 5000·t + 4999 of the result. Entry (p, q) of what it writes is entry q of the layer's output row for rows p of
  the two blocks it read (the stored block, entry by entry), and those are rows 5000·t + p of the two arrays: point t
  writes back block t of the layer's output array (`flushed_eq`). Row r of the array lies in the block of point r / 5000
  (`cover`), so after the last point the array is the layer's output array (`node_final`).
-/
import proofs.«430327_j2954937499917_1_alg».proof.Proof.Gen.KernelIdeal.Frame
import proofs.«430327_j2954937499917_1_alg».proof.Proof.NodePayload
import Idealize.ShloMosaic.Lib.Pipeline.Value

noncomputable section

namespace Cert.KernelIdeal.NodeValue

open Cert.KernelIdeal Cert.KernelIdeal.Gen Idealize.ShloMosaic Idealize.ShloMosaic.TcCoe Idealize.SL.Sem
open Idealize.ShloMosaic.ValueIdx
open Idealize.ShloMosaic.Pipeline (Dat)

/-! ## From the blocks to the array -/

/-- The zero offsets of a whole-buffer access, at rank 2 and at rank 1. -/
theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the ten points: the feature, aggregate and output windows move with the point
    along the rows and stay at column block 0; the weight, bias, scale and shift windows stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0 ∧ win1_5.index t (0 : Fin 1) = 0 ∧ win1_6.index t (0 : Fin 1) = 0
    ∧ win1_7.index t (0 : Fin 2) = t.val ∧ win1_7.index t (1 : Fin 2) = 0 :=
  (by decide +kernel : ∀ t : Fin grid1.N, _)

/-- The stored block at any index of the block. -/
theorem payload_at (x0 x1 : Vec Ideal S5000x128 .f32) (x2 x3 : Vec Ideal S128x128 .f32) (x4 x5 x6 : Vec Ideal S128 .f32)
    (j : S5000x128.Idx) :
    k1_pay1 (k1_pay2 x0 x1 x2 x3 x4) x5 x6 j
      = Cert.Layer.nodeOut (fun a => x0 (ix2 (j 0) a)) (fun a => x1 (ix2 (j 0) a)) x2 x3 x4 x5 x6 (j 1) := by
  obtain ⟨p, q, rfl⟩ : ∃ (p : Fin 5000) (q : Fin 128), j = ix2 p q := ⟨j 0, j 1, eq_ix2 j⟩
  exact payload_apply x0 x1 x2 x3 x4 x5 x6 p q

/-- An output row depends on its two input rows and its lane alone. -/
theorem nodeOut_congr {x x' g g' : Fin 128 → EReal} (wnx wna : Cert.Layer.S128x128.Idx → EReal)
    (bn gamma beta : Cert.Layer.S128.Idx → EReal) {q q' : Fin 128}
    (hx : ∀ a, x a = x' a) (hg : ∀ a, g a = g' a) (hq : q = q') :
    Cert.Layer.nodeOut x g wnx wna bn gamma beta q = Cert.Layer.nodeOut x' g' wnx wna bn gamma beta q' := by
  obtain rfl : x = x' := funext hx
  obtain rfl : g = g' := funext hg
  subst hq; rfl

section Region
variable (V : (c : Dev nD) → (b : Ref sig .tc) → Buf (Elt Ideal) ((c : Thread nD τ).loc b))

/-- Point `t`'s block of the feature rows is rows 5000·t … 5000·t + 4999 of the array. -/
theorem iblk_feat (c : Dev nD) (t : Fin cfg1.N) (y : S5000x128.Idx) (i : S50000x128.Idx)
    (h0 : (i 0).val = t.val * 5000 + (y 0).val) (h1 : (i 1).val = (y 1).val) :
    (iblk1 V c 0 t : Vec Ideal S5000x128 .f32) y = (V c main_arg0 : S50000x128.Idx → EReal) i := by
  obtain ⟨e0, e1, -⟩ := idx_facts t
  show V c main_arg0 (((cfg1.win 0).blk t).view.emb y) = V c main_arg0 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 128 + 1 * (y 1).val = (i 1).val; omega

/-- Point `t`'s block of the aggregated rows likewise. -/
theorem iblk_agg (c : Dev nD) (t : Fin cfg1.N) (y : S5000x128.Idx) (i : S50000x128.Idx)
    (h0 : (i 0).val = t.val * 5000 + (y 0).val) (h1 : (i 1).val = (y 1).val) :
    (iblk1 V c 1 t : Vec Ideal S5000x128 .f32) y = (V c main_v10 : S50000x128.Idx → EReal) i := by
  obtain ⟨-, -, e0, e1, -⟩ := idx_facts t
  show V c main_v10 (((cfg1.win 1).blk t).view.emb y) = V c main_v10 i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 128 + 1 * (y 1).val = (i 1).val; omega

/-- Every point's block of the first weight slice is the whole slice … -/
theorem iblk_wx (c : Dev nD) (t : Fin cfg1.N) : (iblk1 V c 2 t : Vec Ideal S128x128 .f32) = V c main_v11 := by
  obtain ⟨-, -, -, -, e0, e1, -⟩ := idx_facts t
  funext y
  show V c main_v11 (((cfg1.win 2).blk t).view.emb y) = V c main_v11 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega
/-- … of the second the whole second slice … -/
theorem iblk_wa (c : Dev nD) (t : Fin cfg1.N) : (iblk1 V c 3 t : Vec Ideal S128x128 .f32) = V c main_v12 := by
  obtain ⟨-, -, -, -, -, -, e0, e1, -⟩ := idx_facts t
  funext y
  show V c main_v12 (((cfg1.win 3).blk t).view.emb y) = V c main_v12 y
  refine congrArg _ (funext fun a => Fin.ext ?_)
  match a with
  | ⟨0, _⟩ => show win1_3.index t (0 : Fin 2) * 128 + 1 * (y 0).val = (y 0).val; omega
  | ⟨1, _⟩ => show win1_3.index t (1 : Fin 2) * 128 + 1 * (y 1).val = (y 1).val; omega
/-- … and of the bias, the scale and the shift the whole vector. -/
theorem iblk_bias (c : Dev nD) (t : Fin cfg1.N) : (iblk1 V c 4 t : Vec Ideal S128 .f32) = V c main_arg8 := by
  obtain ⟨-, -, -, -, -, -, -, -, e0, -⟩ := idx_facts t
  funext y
  show V c main_arg8 (((cfg1.win 4).blk t).view.emb y) = V c main_arg8 y
  refine congrArg _ (funext fun a => Fin.ext ?_)
  match a with
  | ⟨0, _⟩ => show win1_4.index t (0 : Fin 1) * 128 + 1 * (y 0).val = (y 0).val; omega
theorem iblk_gamma (c : Dev nD) (t : Fin cfg1.N) : (iblk1 V c 5 t : Vec Ideal S128 .f32) = V c main_arg9 := by
  obtain ⟨-, -, -, -, -, -, -, -, -, e0, -⟩ := idx_facts t
  funext y
  show V c main_arg9 (((cfg1.win 5).blk t).view.emb y) = V c main_arg9 y
  refine congrArg _ (funext fun a => Fin.ext ?_)
  match a with
  | ⟨0, _⟩ => show win1_5.index t (0 : Fin 1) * 128 + 1 * (y 0).val = (y 0).val; omega
theorem iblk_beta (c : Dev nD) (t : Fin cfg1.N) : (iblk1 V c 6 t : Vec Ideal S128 .f32) = V c main_arg10 := by
  obtain ⟨-, -, -, -, -, -, -, -, -, -, e0, -⟩ := idx_facts t
  funext y
  show V c main_arg10 (((cfg1.win 6).blk t).view.emb y) = V c main_arg10 y
  refine congrArg _ (funext fun a => Fin.ext ?_)
  match a with
  | ⟨0, _⟩ => show win1_6.index t (0 : Fin 1) * 128 + 1 * (y 0).val = (y 0).val; omega

/-- Entry `(p, q)` of point `t`'s output block sits in the array at row 5000·t + p, lane q. -/
theorem emb_out (t : Fin cfg1.N) (j : S5000x128.Idx) :
    ((((cfg1.win 7).blk t).view.emb j) 0).val = t.val * 5000 + (j 0).val
      ∧ ((((cfg1.win 7).blk t).view.emb j) 1).val = (j 1).val := by
  obtain ⟨-, -, -, -, -, -, -, -, -, -, -, e0, e1⟩ := idx_facts t
  constructor
  · show win1_7.index t (0 : Fin 2) * 5000 + 1 * (j 0).val = _; omega
  · show win1_7.index t (1 : Fin 2) * 128 + 1 * (j 1).val = _; omega

/-- WHAT POINT `t` WRITES BACK is block `t` of the layer's output array of the arrays the region finds. -/
theorem flushed_eq (c : Dev nD) (t : Fin cfg1.N) :
    (dat1 (F := Ideal) V c).flushed 7 t = ((cfg1.win 7).blk t).view.read (Elt Ideal)
      (Cert.Layer.nodeArr (V c main_arg0) (V c main_v10) (V c main_v11) (V c main_v12) (V c main_arg8) (V c main_arg9)
        (V c main_arg10)) := by
  show (cfg1.win 7).cut (grid1.coords t) ((dat1 V c).after 7 t) = _
  rw [after1_7]
  unfold out1_7
  rw [View.canon_unit_zero hz2]
  simp only [View.ld_unit_zero (S := S5000x128) hz2, View.ld_unit_zero (S := S128x128) hz2, View.ld_unit_zero (S := S128) hz1]
  rw [iblk_wx, iblk_wa, iblk_bias, iblk_gamma, iblk_beta]
  funext j
  obtain ⟨ho0, ho1⟩ := emb_out t j
  show k1_pay1 (k1_pay2 (iblk1 V c 0 t) (iblk1 V c 1 t) (V c main_v11) (V c main_v12) (V c main_arg8)) (V c main_arg9)
      (V c main_arg10) j
    = Cert.Layer.nodeArr (V c main_arg0) (V c main_v10) (V c main_v11) (V c main_v12) (V c main_arg8) (V c main_arg9)
        (V c main_arg10) (((cfg1.win 7).blk t).view.emb j)
  rw [payload_at]
  exact nodeOut_congr _ _ _ _ _
    (fun a => iblk_feat V c t _ _ ho0 rfl) (fun a => iblk_agg V c t _ _ ho0 rfl) (Fin.ext ho1.symm)

/-- An index of the array is in point `t`'s block iff each coordinate is in the block's range on its axis. -/
theorem mem_blk (t : Fin cfg1.N) (i : S50000x128.Idx) :
    i ∈ ((cfg1.win 7).blk t).view.set ↔ ∀ a : Fin 2, win1_7.index t a * S5000x128.size a ≤ (i a).val
      ∧ (i a).val < win1_7.index t a * S5000x128.size a + S5000x128.size a := by
  show i ∈ ((View.whole main_v13).slice (win1_7.rect t)).set ↔ _
  rw [View.set_slice_whole, Rect.mem_set_unit]
  exact Iff.rfl

/-- THE BLOCKS COVER THE ARRAY: row `r` lies in the block of point `r / 5000`, which writes it back. -/
theorem cover (i : S50000x128.Idx) :
    ∃ t : Fin cfg1.N, (cfg1.win 7).flush t = true ∧ i ∈ ((cfg1.win 7).blk t).view.set := by
  have hN : cfg1.N = 10 := N_1
  have hi0 : (i 0).val < 50000 := idx2_lt0 i
  have hi1 : (i 1).val < 128 := idx2_lt1 i
  have ht : (i 0).val / 5000 < cfg1.N := by rw [hN]; omega
  obtain ⟨-, -, -, -, -, -, -, -, -, -, -, e0, e1⟩ := idx_facts ⟨(i 0).val / 5000, ht⟩
  have e0' : win1_7.index ⟨(i 0).val / 5000, ht⟩ (0 : Fin 2) = (i 0).val / 5000 := e0
  refine ⟨⟨(i 0).val / 5000, ht⟩, flush1_7 _, ?_⟩
  rw [mem_blk]
  intro a
  match a with
  | ⟨0, _⟩ =>
    show win1_7.index _ (0 : Fin 2) * 5000 ≤ (i 0).val ∧ (i 0).val < win1_7.index _ (0 : Fin 2) * 5000 + 5000
    rw [e0']; omega
  | ⟨1, _⟩ =>
    show win1_7.index _ (1 : Fin 2) * 128 ≤ (i 1).val ∧ (i 1).val < win1_7.index _ (1 : Fin 2) * 128 + 128
    rw [e1]; omega

/-- THE ARRAY the region leaves in its output window: the layer's output, row by row, of the arrays it reads. -/
theorem node_final (c : Dev nD) :
    (Gen.dat1 (F := Ideal) V c).arrAt 7 cfg1.N
      = Cert.Layer.nodeArr (V c main_arg0) (V c main_v10) (V c main_v11) (V c main_v12) (V c main_arg8) (V c main_arg9)
          (V c main_arg10) :=
  (dat1 (F := Ideal) V c).arrAt_eq_of_cover 7 _ (fun t _ => flushed_eq V c t) cover

end Region

end Cert.KernelIdeal.NodeValue

end
-- ==== Proof.WeightRows.lean ====
/-
  The kernel program hands its two kernels the weight matrices in two pieces: rows 0–127 and the rows below them.
  Read at an entry, a piece is the matrix at the same column and the row shifted by the piece's first row.
-/
import proofs.«430327_j2954937499917_1_alg».proof.Proof.KerTerm
import proofs.«430327_j2954937499917_1_alg».proof.Proof.LayerSpec
import Idealize.ShloMosaic.Lib.Pipeline.Value
import Idealize.ShloMosaic.Lib.ValueIdx

noncomputable section

namespace Cert.KernelIdeal.WeightRows

open Cert.KernelIdeal Cert.KernelIdeal.Gen Idealize.ShloMosaic Idealize.ShloMosaic.ValueIdx

/-- Rows 0–127 of the first edge layer's weights. -/
theorem w1xOf_eq (w : FVec Ideal S160x128 .f32) : Term.w1xOf (F := Ideal) w = Cert.Layer.w1Top w := by
  funext i
  unfold Term.w1xOf Cert.Layer.w1Top
  refine extractStridedSlice_apply _ _ _ i _ (fun a => ?_)
  match a with
  | ⟨0, _⟩ => exact (Nat.zero_add _).symm
  | ⟨1, _⟩ => exact (Nat.zero_add _).symm

/-- Rows 128–159 of the first edge layer's weights. -/
theorem w1eOf_eq (w : FVec Ideal S160x128 .f32) : Term.w1eOf (F := Ideal) w = Cert.Layer.w1Bot w := by
  funext i
  unfold Term.w1eOf Cert.Layer.w1Bot
  refine extractStridedSlice_apply _ _ _ i _ (fun a => ?_)
  match a with
  | ⟨0, _⟩ => rfl
  | ⟨1, _⟩ => exact (Nat.zero_add _).symm

/-- Rows 0–127 of the node layer's weights. -/
theorem wnxOf_eq (w : FVec Ideal S256x128 .f32) : Term.wnxOf (F := Ideal) w = Cert.Layer.wnTop w := by
  funext i
  unfold Term.wnxOf Cert.Layer.wnTop
  refine extractStridedSlice_apply _ _ _ i _ (fun a => ?_)
  match a with
  | ⟨0, _⟩ => exact (Nat.zero_add _).symm
  | ⟨1, _⟩ => exact (Nat.zero_add _).symm

/-- Rows 128–255 of the node layer's weights. -/
theorem wnaOf_eq (w : FVec Ideal S256x128 .f32) : Term.wnaOf (F := Ideal) w = Cert.Layer.wnBot w := by
  funext i
  unfold Term.wnaOf Cert.Layer.wnBot
  refine extractStridedSlice_apply _ _ _ i _ (fun a => ?_)
  match a with
  | ⟨0, _⟩ => rfl
  | ⟨1, _⟩ => exact (Nat.zero_add _).symm

end Cert.KernelIdeal.WeightRows

end
-- ==== Proof.LibReduceAndAll.lean ====
/-
  The converse of reading a `jnp.all` back: a `stablehlo.reduce` by `and` over `i1` words is 1 at a result index
  as soon as its initial value is 1 and every operand element that reduces into that index is 1 — a left fold of `and`
  that starts at 1 and meets only 1s stays at 1.
-/
import Idealize.ShloMosaic.Lib.ReduceAll

namespace Cert.Gcn

open Idealize.ShloMosaic

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have ha : f a = 1#1 := h a (List.mem_cons_self ..)
    have h11 : IntOp.andi (1#1 : BitVec 1) 1#1 = 1#1 := by decide
    rw [List.foldl_cons, ha, h11]
    exact foldl_andi_one f l fun n hn => h n (List.mem_cons_of_mem _ hn)

variable {s t u : Shape} {axes : List (Fin s.rank)}

/-- A reduce by `and` from 1 whose operand is 1 at every index reducing into `j` is 1 at `j`. -/
theorem reduce_andi_of_all (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  rw [Host.reduce_eq_foldl, hinit]
  refine foldl_andi_one x _ fun i hi => hx i ?_
  rw [List.mem_filter] at hi
  simpa using hi.2

end Cert.Gcn
-- ==== Proof.SourceRange.lean ====
/-
  What the precondition says of the edge list's source row, and what follows for the kernel program's gather.

  The last conjunct of the precondition is: every source index j satisfies −50000 ≤ j < 50000 as a signed 32-bit
  word. A negative index counts from the table's end (j < 0 becomes j + 50000), so the wrapped index lies in
  0 … 49999: inside the table of 50000 rows. The kernel program keeps a gathered row only where its wrapped index
  passes the test 0 ≤ index ≤ 49999 and writes a filler word elsewhere; under the precondition every edge passes, no
  filler is ever selected, and the gathered rows are the table's rows at the wrapped indices.
-/
import proofs.«430327_j2954937499917_1_alg».proof.Pre_finite_inputs
import proofs.«430327_j2954937499917_1_alg».proof.Proof.Gen.Pre_finite_inputs
import proofs.«430327_j2954937499917_1_alg».proof.Proof.KerTerm
import proofs.«430327_j2954937499917_1_alg».proof.Proof.LibReduceAndAll
import Idealize.ShloMosaic.Lib.ReduceAll
import Idealize.ShloMosaic.Lib.ValueIdx

noncomputable section

namespace Cert.KernelIdeal.SourceRange

open Cert.KernelIdeal Cert.KernelIdeal.Gen Idealize.ShloMosaic

/-! ## Words -/

theorem toInt_50000 : (50000#32 : BitVec 32).toInt = 50000 := by decide
theorem toInt_neg50000 : (4294917296#32 : BitVec 32).toInt = -50000 := by decide
theorem toInt_49999 : (49999#32 : BitVec 32).toInt = 49999 := by decide
theorem toInt_zero : (0#32 : BitVec 32).toInt = 0 := by decide

/-- A signed word in −50000 … 49999, with 50000 added when it is negative, lies in 0 … 49999: the sum does not
    leave the 32-bit range, so it is the sum of the values. -/
theorem wrapped_in_table (w : BitVec 32) (hlo : (-50000 : Int) ≤ w.toInt) (hhi : w.toInt < 50000) :
    (0 : Int) ≤ (Scalar.select (IntOp.cmpi .slt w 0#32) (IntOp.addi w 50000#32) w).toInt
    ∧ (Scalar.select (IntOp.cmpi .slt w 0#32) (IntOp.addi w 50000#32) w).toInt ≤ 49999 := by
  by_cases h : w.toInt < 0
  · have hc : IntOp.cmpi .slt w 0#32 = 1#1 := IntOp.cmpi_slt.2 (by rw [toInt_zero]; exact h)
    rw [hc, ValueIdx.select_one]
    have e : (IntOp.addi w 50000#32).toInt = w.toInt + 50000 := by
      show (w + 50000#32).toInt = _
      rw [BitVec.toInt_add, toInt_50000]
      exact Int.bmod_eq_of_le_mul_two (by norm_num; omega) (by norm_num; omega)
    rw [e]; omega
  · have hc : IntOp.cmpi .slt w 0#32 = 0#1 := by
      apply ValueIdx.eq_zero_of_ne_one
      intro h1
      exact h (by have := IntOp.cmpi_slt.1 h1; rw [toInt_zero] at this; exact this)
    rw [hc, ValueIdx.select_zero]; omega

/-! ## The precondition read back -/

variable {F : FTy → Type} [FloatOps F]

instance : Subsingleton S_.Idx := ⟨fun _ _ => funext fun d => d.elim0⟩

variable (a0 : FVec F S50000x128 .f32) (a1 : IVec S2x640000 32) (a2 : FVec F S640000x32 .f32) (a3 : FVec F S160x128 .f32)
  (a4 : FVec F S128 .f32) (a5 : FVec F S128x128 .f32) (a6 : FVec F S128 .f32) (a7 : FVec F S256x128 .f32)
  (a8 a9 a10 : FVec F S128 .f32)

/-- Under the precondition every source index is a signed word in −50000 … 49999: the precondition's last
    conjunct is the `and`-reduction, over all 640000 edges, of the two comparisons. -/
theorem src_range (h : Cert.Pre_finite_inputs.fn (F := F) a0 a1 a2 a3 a4 a5 a6 a7 a8 a9 a10 = fun _ => 1#1) (e : S640000.Idx) :
    (-50000 : Int) ≤ (Term.srcOf a1 e).toInt ∧ (Term.srcOf a1 e).toInt < 50000 := by
  have h0 : IntOp.andi _ (Host.reduce IntOp.andi
      (andi (cmpi .sge (Term.srcOf a1) (broadcastInDim S640000 ![] bcast_S_S640000 (constantI S_ 32 4294917296#32)))
        (cmpi .slt (Term.srcOf a1) (broadcastInDim S640000 ![] bcast_S_S640000 (constantI S_ 32 50000#32))))
      (constantI S_ 1 1#1) Cert.Pre_finite_inputs.Gen.reducesTo_S640000_S_d0 Cert.Pre_finite_inputs.Gen.h_S_ ValueIdx.ix0) = 1#1 :=
    congrFun h ValueIdx.ix0
  obtain ⟨-, h58⟩ := IntOp.andi_eq_one.1 h0
  have hall := Host.reduce_andi_all _ _ _ _ _ h58 e
  obtain ⟨hge, hlt⟩ := IntOp.andi_eq_one.1 hall
  have h1 := IntOp.cmpi_sge.1 hge
  have h2 := IntOp.cmpi_slt.1 hlt
  exact ⟨by rw [← toInt_neg50000]; exact h1, by rw [← toInt_50000]; exact h2⟩

/-- So every edge passes the in-table test: the wrapped source index lies in 0 … 49999. -/
theorem inTable_all (h : Cert.Pre_finite_inputs.fn (F := F) a0 a1 a2 a3 a4 a5 a6 a7 a8 a9 a10 = fun _ => 1#1) :
    Term.inTable a1 = fun _ => 1#1 := by
  funext e
  unfold Term.inTable
  refine Cert.Gcn.reduce_andi_of_all _ _ _ _ e rfl (fun i _ => ?_)
  obtain ⟨i', hi'⟩ : ∃ i', Term.startIdx a1 i = Term.wrapIdx (Term.srcOf a1) i' := ⟨_, rfl⟩
  have hr := src_range a0 a1 a2 a3 a4 a5 a6 a7 a8 a9 a10 h i'
  have hw := wrapped_in_table (Term.srcOf a1 i') hr.1 hr.2
  show IntOp.andi (IntOp.cmpi .sge (Term.startIdx a1 i) 0#32) (IntOp.cmpi .sle (Term.startIdx a1 i) 49999#32) = 1#1
  rw [hi']
  exact IntOp.andi_eq_one.2 ⟨IntOp.cmpi_sge.2 (by rw [toInt_zero]; exact hw.1), IntOp.cmpi_sle.2 (by rw [toInt_49999]; exact hw.2)⟩

/-- Hence the kernel program's source rows are the table's rows at the wrapped indices: the filler is never selected. -/
theorem kerSrc_eq (x : FVec F S50000x128 .f32)
    (h : Cert.Pre_finite_inputs.fn (F := F) a0 a1 a2 a3 a4 a5 a6 a7 a8 a9 a10 = fun _ => 1#1) :
    Term.kerSrc x a1 = Host.gather gather_S50000x128_S640000x1_S640000x128_1_0_n_n_0_1_1128 x (Term.startIdx a1) := by
  unfold Term.kerSrc
  rw [inTable_all a0 a1 a2 a3 a4 a5 a6 a7 a8 a9 a10 h]
  funext i
  exact ValueIdx.select_one _ _

end Cert.KernelIdeal.SourceRange

end
-- ==== Proof.RefBridge.lean ====
/-
  The reference's two dense stages, read entry by entry at the ideal values, are the specification's functions.

  Edge stage.  The first contraction runs over the 160 columns of the concatenation [source ‖ attribute]; its sum is
  the sum over the source's 128 columns against the weights' rows 0–127 plus the sum over the attribute's 32 columns
  against rows 128–159 (a sum over Fin (128 + 32) splits at 128).  With the bias read at its column and the maximum
  with the zero word read as max · 0 this is the specification's hidden unit; the second contraction over the 128
  hidden units, bias and maximum give the message entry.

  Node stage.  The same splitting at 128 of a contraction over 256 columns of [feature ‖ aggregate], the maximum with 0
  and the added feature give the residual entry.  The normalisation reads: the row sum is 0 + Σ over the row's 128
  entries; the mean is that sum divided by the word for 128; the variance's divisor is the word for 128 minus the
  signed conversion of the zero word, which is 128 − 0, the same extended real; that divisor is positive, so the
  guarded quotient is the quotient itself; the inverse square root, scale and shift are read at the entry.

  Only 0 + x = x, x − 0 = x and the commutative-monoid laws of + are used of the arithmetic: every equation holds at
  the infinities too.
-/
import proofs.«430327_j2954937499917_1_alg».proof.Proof.RefTerm
import proofs.«430327_j2954937499917_1_alg».proof.Proof.LayerSpec
import proofs.«430327_j2954937499917_1_alg».proof.Proof.LibDenseLayer
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Bridge

open Cert.ReferenceIdeal Cert.ReferenceIdeal.Gen Idealize.ShloMosaic Idealize.ShloMosaic.ValueIdx
open scoped BigOperators

/-! ### The three contractions' operand indices, axis by axis -/

theorem lhs160_0 (j : S640000x128.Idx) (q : dot_S640000x160_S160x128_S640000x128_1_0_0_1_n_n.contr.Idx) :
    (dot_S640000x160_S160x128_S640000x128_1_0_0_1_n_n.lhsIdx j q 0).val = (j 0).val := by
  simp [DotDims.lhsIdx, dot_S640000x160_S160x128_S640000x128_1_0_0_1_n_n]; rfl
theorem lhs160_1 (j : S640000x128.Idx) (q : dot_S640000x160_S160x128_S640000x128_1_0_0_1_n_n.contr.Idx) :
    (dot_S640000x160_S160x128_S640000x128_1_0_0_1_n_n.lhsIdx j q 1).val = (q ⟨0, by decide⟩).val := by
  simp [DotDims.lhsIdx, dot_S640000x160_S160x128_S640000x128_1_0_0_1_n_n]; rfl
theorem rhs160_0 (j : S640000x128.Idx) (q : dot_S640000x160_S160x128_S640000x128_1_0_0_1_n_n.contr.Idx) :
    (dot_S640000x160_S160x128_S640000x128_1_0_0_1_n_n.rhsIdx j q 0).val = (q ⟨0, by decide⟩).val := by
  simp [DotDims.rhsIdx, dot_S640000x160_S160x128_S640000x128_1_0_0_1_n_n]; rfl
theorem rhs160_1 (j : S640000x128.Idx) (q : dot_S640000x160_S160x128_S640000x128_1_0_0_1_n_n.contr.Idx) :
    (dot_S640000x160_S160x128_S640000x128_1_0_0_1_n_n.rhsIdx j q 1).val = (j 1).val := by
  simp [DotDims.rhsIdx, dot_S640000x160_S160x128_S640000x128_1_0_0_1_n_n]; rfl

theorem lhs128_0 (j : S640000x128.Idx) (q : dot_S640000x128_S128x128_S640000x128_1_0_0_1_n_n.contr.Idx) :
    (dot_S640000x128_S128x128_S640000x128_1_0_0_1_n_n.lhsIdx j q 0).val = (j 0).val := by
  simp [DotDims.lhsIdx, dot_S640000x128_S128x128_S640000x128_1_0_0_1_n_n]; rfl
theorem lhs128_1 (j : S640000x128.Idx) (q : dot_S640000x128_S128x128_S640000x128_1_0_0_1_n_n.contr.Idx) :
    (dot_S640000x128_S128x128_S640000x128_1_0_0_1_n_n.lhsIdx j q 1).val = (q ⟨0, by decide⟩).val := by
  simp [DotDims.lhsIdx, dot_S640000x128_S128x128_S640000x128_1_0_0_1_n_n]; rfl
theorem rhs128_0 (j : S640000x128.Idx) (q : dot_S640000x128_S128x128_S640000x128_1_0_0_1_n_n.contr.Idx) :
    (dot_S640000x128_S128x128_S640000x128_1_0_0_1_n_n.rhsIdx j q 0).val = (q ⟨0, by decide⟩).val := by
  simp [DotDims.rhsIdx, dot_S640000x128_S128x128_S640000x128_1_0_0_1_n_n]; rfl
theorem rhs128_1 (j : S640000x128.Idx) (q : dot_S640000x128_S128x128_S640000x128_1_0_0_1_n_n.contr.Idx) :
    (dot_S640000x128_S128x128_S640000x128_1_0_0_1_n_n.rhsIdx j q 1).val = (j 1).val := by
  simp [DotDims.rhsIdx, dot_S640000x128_S128x128_S640000x128_1_0_0_1_n_n]; rfl

theorem lhs256_0 (j : S50000x128.Idx) (q : dot_S50000x256_S256x128_S50000x128_1_0_0_1_n_n.contr.Idx) :
    (dot_S50000x256_S256x128_S50000x128_1_0_0_1_n_n.lhsIdx j q 0).val = (j 0).val := by
  simp [DotDims.lhsIdx, dot_S50000x256_S256x128_S50000x128_1_0_0_1_n_n]; rfl
theorem lhs256_1 (j : S50000x128.Idx) (q : dot_S50000x256_S256x128_S50000x128_1_0_0_1_n_n.contr.Idx) :
    (dot_S50000x256_S256x128_S50000x128_1_0_0_1_n_n.lhsIdx j q 1).val = (q ⟨0, by decide⟩).val := by
  simp [DotDims.lhsIdx, dot_S50000x256_S256x128_S50000x128_1_0_0_1_n_n]; rfl
theorem rhs256_0 (j : S50000x128.Idx) (q : dot_S50000x256_S256x128_S50000x128_1_0_0_1_n_n.contr.Idx) :
    (dot_S50000x256_S256x128_S50000x128_1_0_0_1_n_n.rhsIdx j q 0).val = (q ⟨0, by decide⟩).val := by
  simp [DotDims.rhsIdx, dot_S50000x256_S256x128_S50000x128_1_0_0_1_n_n]; rfl
theorem rhs256_1 (j : S50000x128.Idx) (q : dot_S50000x256_S256x128_S50000x128_1_0_0_1_n_n.contr.Idx) :
    (dot_S50000x256_S256x128_S50000x128_1_0_0_1_n_n.rhsIdx j q 1).val = (j 1).val := by
  simp [DotDims.rhsIdx, dot_S50000x256_S256x128_S50000x128_1_0_0_1_n_n]; rfl

/-! ### Each contraction at an entry: a sum over the contracted extent -/

theorem dot160_apply (a : FVec Ideal S640000x160 .f32) (w : FVec Ideal S160x128 .f32) (e : Fin 640000) (k : Fin 128) :
    Host.dotGeneral dot_S640000x160_S160x128_S640000x128_1_0_0_1_n_n none a w (ix2 e k)
      = ∑ c : Fin 160, a (ix2 e c) * w (ix2 c k) := by
  simp only [Host.dotGeneral]
  rw [Ideal.dotGeneral_apply]
  exact Cert.Lib.contraction_sum dot_S640000x160_S160x128_S640000x128_1_0_0_1_n_n 160 rfl rfl a w (ix2 e k)
    (fun c => a (ix2 e c)) (fun c => w (ix2 c k))
    (fun q => congrArg a (funext fun ax => Fin.ext (by
      match ax with
      | ⟨0, _⟩ => exact lhs160_0 _ q
      | ⟨1, _⟩ => exact lhs160_1 _ q)))
    (fun q => congrArg w (funext fun ax => Fin.ext (by
      match ax with
      | ⟨0, _⟩ => exact rhs160_0 _ q
      | ⟨1, _⟩ => exact rhs160_1 _ q)))

theorem dot128_apply (a : FVec Ideal S640000x128 .f32) (w : FVec Ideal S128x128 .f32) (e : Fin 640000) (k : Fin 128) :
    Host.dotGeneral dot_S640000x128_S128x128_S640000x128_1_0_0_1_n_n none a w (ix2 e k)
      = ∑ c : Fin 128, a (ix2 e c) * w (ix2 c k) := by
  simp only [Host.dotGeneral]
  rw [Ideal.dotGeneral_apply]
  exact Cert.Lib.contraction_sum dot_S640000x128_S128x128_S640000x128_1_0_0_1_n_n 128 rfl rfl a w (ix2 e k)
    (fun c => a (ix2 e c)) (fun c => w (ix2 c k))
    (fun q => congrArg a (funext fun ax => Fin.ext (by
      match ax with
      | ⟨0, _⟩ => exact lhs128_0 _ q
      | ⟨1, _⟩ => exact lhs128_1 _ q)))
    (fun q => congrArg w (funext fun ax => Fin.ext (by
      match ax with
      | ⟨0, _⟩ => exact rhs128_0 _ q
      | ⟨1, _⟩ => exact rhs128_1 _ q)))

theorem dot256_apply (a : FVec Ideal S50000x256 .f32) (w : FVec Ideal S256x128 .f32) (e : Fin 50000) (k : Fin 128) :
    Host.dotGeneral dot_S50000x256_S256x128_S50000x128_1_0_0_1_n_n none a w (ix2 e k)
      = ∑ c : Fin 256, a (ix2 e c) * w (ix2 c k) := by
  simp only [Host.dotGeneral]
  rw [Ideal.dotGeneral_apply]
  exact Cert.Lib.contraction_sum dot_S50000x256_S256x128_S50000x128_1_0_0_1_n_n 256 rfl rfl a w (ix2 e k)
    (fun c => a (ix2 e c)) (fun c => w (ix2 c k))
    (fun q => congrArg a (funext fun ax => Fin.ext (by
      match ax with
      | ⟨0, _⟩ => exact lhs256_0 _ q
      | ⟨1, _⟩ => exact lhs256_1 _ q)))
    (fun q => congrArg w (funext fun ax => Fin.ext (by
      match ax with
      | ⟨0, _⟩ => exact rhs256_0 _ q
      | ⟨1, _⟩ => exact rhs256_1 _ q)))

/-! ### The edge stage -/

/-- A sum over `N = m + n` indices is the sum over the first `m` plus the sum over the last `n`. -/
theorem sum_split (m n N : ℕ) (h : m + n = N) (f : Fin N → EReal) :
    ∑ c : Fin N, f c = ∑ a : Fin m, f ⟨a.val, by omega⟩ + ∑ b : Fin n, f ⟨m + b.val, by omega⟩ := by
  subst h; exact Fin.sum_univ_add f

/-- [source ‖ attribute] at a column below 128 is the source there. -/
theorem concatE_left (src : FVec Ideal S640000x128 .f32) (ea : FVec Ideal S640000x32 .f32) (e : Fin 640000) (a : Fin 128)
    (h : a.val < 160) :
    concatenate S640000x160 1 [⟨S640000x128, src⟩, ⟨S640000x32, ea⟩] concatenates_S640000x128_S640000x32_S640000x160_d1
        (ix2 e (⟨a.val, h⟩ : Fin 160)) = src (ix2 e a) :=
  concatenate_pair_apply_left 1 src ea concatenates_S640000x128_S640000x32_S640000x160_d1 (ix2 e (⟨a.val, h⟩ : Fin 160)) rfl
    (ix2 e a) (fun b => by
      match b with
      | ⟨0, _⟩ => rfl
      | ⟨1, _⟩ => rfl)

/-- [source ‖ attribute] at column 128 + b is the attribute at column b. -/
theorem concatE_right (src : FVec Ideal S640000x128 .f32) (ea : FVec Ideal S640000x32 .f32) (e : Fin 640000) (b : Fin 32)
    (h : 128 + b.val < 160) :
    concatenate S640000x160 1 [⟨S640000x128, src⟩, ⟨S640000x32, ea⟩] concatenates_S640000x128_S640000x32_S640000x160_d1
        (ix2 e (⟨128 + b.val, h⟩ : Fin 160)) = ea (ix2 e b) :=
  concatenate_pair_apply_right 1 src ea concatenates_S640000x128_S640000x32_S640000x160_d1 (ix2 e (⟨128 + b.val, h⟩ : Fin 160)) rfl rfl
    (ix2 e b) (fun c => by
      match c with
      | ⟨0, _⟩ => exact fun _ => rfl
      | ⟨1, _⟩ => exact fun hne => absurd rfl hne)
    (by show b.val + 128 = 128 + b.val; omega)

/-- A bias repeated down the edge rows reads its column's entry. -/
theorem biasE_apply (b : FVec Ideal S128 .f32) (e : Fin 640000) (k : Fin 128) : Term.biasE b (ix2 e k) = b (ix1 k) := by
  unfold Term.biasE
  refine (broadcastInDim_apply _ _ _ (ix2 e k) (ix2 (0 : Fin 1) k) (fun a => by
    match a with
    | ⟨0, _⟩ => rfl
    | ⟨1, _⟩ => rfl)).trans ?_
  exact broadcastInDim_apply _ _ _ (ix2 (0 : Fin 1) k) (ix1 k) (fun a => by
    match a with
    | ⟨0, _⟩ => rfl)

/-- The maximum with the broadcast zero word is max · 0. -/
theorem reluE_apply (a : FVec Ideal S640000x128 .f32) (j : S640000x128.Idx) : Term.reluE a j = max (a j) 0 := by
  unfold Term.reluE
  rw [maximumf_apply, broadcastInDim_apply _ _ _ j ix0 (fun a => a.elim0), constant_apply, Ideal.ofBits_zero_f32]

/-- The first edge layer at (e, k) is the specification's hidden unit k of edge e. -/
theorem hid_apply (src : FVec Ideal S640000x128 .f32) (ea : FVec Ideal S640000x32 .f32) (w1 : FVec Ideal S160x128 .f32)
    (b1 : FVec Ideal S128 .f32) (e : Fin 640000) (k : Fin 128) :
    Term.reluE (addf (Host.dotGeneral dot_S640000x160_S160x128_S640000x128_1_0_0_1_n_n none
        (concatenate S640000x160 1 [⟨S640000x128, src⟩, ⟨S640000x32, ea⟩] concatenates_S640000x128_S640000x32_S640000x160_d1) w1)
        (Term.biasE b1)) (ix2 e k)
      = Cert.Layer.edgeHid (fun a => src (ix2 e a)) (fun a => ea (ix2 e a)) (Cert.Layer.w1Top w1) (Cert.Layer.w1Bot w1) b1 k := by
  rw [reluE_apply, addf_apply, biasE_apply, dot160_apply, sum_split 128 32 160 rfl]
  unfold Cert.Layer.edgeHid
  refine congrArg (fun t => max (t + b1 (ix1 k)) 0) ?_
  refine congrArg₂ (· + ·) (Finset.sum_congr rfl fun a _ => ?_) (Finset.sum_congr rfl fun b _ => ?_)
  · rw [concatE_left]; rfl
  · rw [concatE_right]; rfl

/-- THE EDGE STAGE: the reference's edge network is the specification's message array. -/
theorem refEdge_eq (src : FVec Ideal S640000x128 .f32) (ea : FVec Ideal S640000x32 .f32) (w1 : FVec Ideal S160x128 .f32)
    (b1 : FVec Ideal S128 .f32) (w2 : FVec Ideal S128x128 .f32) (b2 : FVec Ideal S128 .f32) :
    Term.refEdge src ea w1 b1 w2 b2 = Cert.Layer.edgeArr src ea (Cert.Layer.w1Top w1) (Cert.Layer.w1Bot w1) b1 w2 b2 := by
  funext j
  obtain ⟨e, h, rfl⟩ : ∃ (e : Fin 640000) (h : Fin 128), j = ix2 e h := ⟨j 0, j 1, eq_ix2 j⟩
  unfold Term.refEdge
  rw [reluE_apply, addf_apply, biasE_apply, dot128_apply]
  show _ = Cert.Layer.edgeOut (fun a => src (ix2 e a)) (fun a => ea (ix2 e a)) (Cert.Layer.w1Top w1) (Cert.Layer.w1Bot w1) b1 w2 b2 h
  unfold Cert.Layer.edgeOut
  refine congrArg (fun t => max (t + b2 (ix1 h)) 0) (Finset.sum_congr rfl fun k _ => ?_)
  rw [hid_apply]

/-! ### The node stage -/

/-- [feature ‖ aggregate] at a column below 128 is the feature there. -/
theorem concatN_left (x agg : FVec Ideal S50000x128 .f32) (n : Fin 50000) (a : Fin 128) (h : a.val < 256) :
    concatenate S50000x256 1 [⟨S50000x128, x⟩, ⟨S50000x128, agg⟩] concatenates_S50000x128_S50000x128_S50000x256_d1
        (ix2 n (⟨a.val, h⟩ : Fin 256)) = x (ix2 n a) :=
  concatenate_pair_apply_left 1 x agg concatenates_S50000x128_S50000x128_S50000x256_d1 (ix2 n (⟨a.val, h⟩ : Fin 256)) rfl
    (ix2 n a) (fun b => by
      match b with
      | ⟨0, _⟩ => rfl
      | ⟨1, _⟩ => rfl)

/-- [feature ‖ aggregate] at column 128 + a is the aggregate at column a. -/
theorem concatN_right (x agg : FVec Ideal S50000x128 .f32) (n : Fin 50000) (a : Fin 128) (h : 128 + a.val < 256) :
    concatenate S50000x256 1 [⟨S50000x128, x⟩, ⟨S50000x128, agg⟩] concatenates_S50000x128_S50000x128_S50000x256_d1
        (ix2 n (⟨128 + a.val, h⟩ : Fin 256)) = agg (ix2 n a) :=
  concatenate_pair_apply_right 1 x agg concatenates_S50000x128_S50000x128_S50000x256_d1 (ix2 n (⟨128 + a.val, h⟩ : Fin 256)) rfl rfl
    (ix2 n a) (fun c => by
      match c with
      | ⟨0, _⟩ => exact fun _ => rfl
      | ⟨1, _⟩ => exact fun hne => absurd rfl hne)
    (by show a.val + 128 = 128 + a.val; omega)

/-- A vector of 128 repeated down the node rows reads its column's entry. -/
theorem biasN_apply (b : FVec Ideal S128 .f32) (n : Fin 50000) (k : Fin 128) : Term.biasN b (ix2 n k) = b (ix1 k) := by
  unfold Term.biasN
  refine (broadcastInDim_apply _ _ _ (ix2 n k) (ix2 (0 : Fin 1) k) (fun a => by
    match a with
    | ⟨0, _⟩ => rfl
    | ⟨1, _⟩ => rfl)).trans ?_
  exact broadcastInDim_apply _ _ _ (ix2 (0 : Fin 1) k) (ix1 k) (fun a => by
    match a with
    | ⟨0, _⟩ => rfl)

/-- The maximum with the broadcast zero word is max · 0. -/
theorem reluN_apply (a : FVec Ideal S50000x128 .f32) (j : S50000x128.Idx) : Term.reluN a j = max (a j) 0 := by
  unfold Term.reluN
  rw [maximumf_apply, broadcastInDim_apply _ _ _ j ix0 (fun a => a.elim0), constant_apply, Ideal.ofBits_zero_f32]

/-- The residual row of node n at k is the specification's. -/
theorem refRes_apply (x agg : FVec Ideal S50000x128 .f32) (wn : FVec Ideal S256x128 .f32) (bn : FVec Ideal S128 .f32)
    (n : Fin 50000) (k : Fin 128) :
    Term.refRes x agg wn bn (ix2 n k)
      = Cert.Layer.nodeRes (fun a => x (ix2 n a)) (fun a => agg (ix2 n a)) (Cert.Layer.wnTop wn) (Cert.Layer.wnBot wn) bn k := by
  unfold Term.refRes
  rw [addf_apply, reluN_apply, addf_apply, biasN_apply, dot256_apply, sum_split 128 128 256 rfl]
  unfold Cert.Layer.nodeRes
  refine congrArg (fun t => max (t + bn (ix1 k)) 0 + x (ix2 n k)) ?_
  refine congrArg₂ (· + ·) (Finset.sum_congr rfl fun a _ => ?_) (Finset.sum_congr rfl fun b _ => ?_)
  · rw [concatN_left]; rfl
  · rw [concatN_right]; rfl

/-- A column of one value per node spread across its row reads the node's value. -/
theorem spread_apply (col : FVec Ideal S50000x1 .f32) (n : Fin 50000) (k : Fin 128) :
    Term.spread col (ix2 n k) = col (ix2 n (0 : Fin 1)) := by
  unfold Term.spread
  exact broadcastInDim_apply _ _ _ (ix2 n k) (ix2 n (0 : Fin 1)) (fun a => by
    match a with
    | ⟨0, _⟩ => rfl
    | ⟨1, _⟩ => rfl)

/-- The row sum of node n: 0 plus the sum of the row's 128 entries. -/
theorem rowSum_apply (r : FVec Ideal S50000x128 .f32) (n : Fin 50000) :
    Term.rowSum r (ix2 n (0 : Fin 1)) = ∑ k : Fin 128, r (ix2 n k) := by
  unfold Term.rowSum
  rw [broadcastInDim_apply _ _ _ (ix2 n (0 : Fin 1)) (ix1 n) (fun a => by
    match a with
    | ⟨0, _⟩ => rfl)]
  unfold Host.reduceAdd
  rw [Ideal.hostReduceAdd_def, Ideal.hostReduceAdd_single reducesTo_S50000x128_S50000_d1 (by decide) r _ (ix1 n),
    constant_apply, Ideal.ofBits_zero_f32, zero_add]
  exact Finset.sum_congr rfl fun k _ => congrArg r (funext fun a => Fin.ext (by
    match a with
    | ⟨0, _⟩ => rfl
    | ⟨1, _⟩ => rfl))

/-- A scalar broadcast to the column shape reads the scalar. -/
theorem scalarCol_apply {α : Type} (c : S_.Idx → α) (n : Fin 50000) :
    broadcastInDim S50000x1 ![] bcast_S_S50000x1 c (ix2 n (0 : Fin 1)) = c ix0 :=
  broadcastInDim_apply _ _ _ (ix2 n (0 : Fin 1)) ix0 (fun a => a.elim0)

/-- The mean of node n's row is the specification's mean of that row. -/
theorem refMean_apply (r : FVec Ideal S50000x128 .f32) (n : Fin 50000) :
    Term.refMean r (ix2 n (0 : Fin 1)) = Cert.Layer.rowMean (fun k => r (ix2 n k)) := by
  unfold Term.refMean Host.divf
  show FloatOps.hostDivf _ _ = _
  rw [Ideal.hostDivf_def, rowSum_apply, scalarCol_apply, constant_apply]
  rfl

/-- The variance's divisor, 128 minus the signed conversion of the zero word, is the word for 128. -/
theorem varDen_apply : Term.varDen (F := Ideal) ix0 = Cert.Layer.c128 := by
  unfold Term.varDen
  rw [subf_apply, constant_apply, sitofp_apply]
  show Ideal.ofBits .f32 0x43000000#32 - (((0#32 : BitVec 32).toInt : ℝ) : EReal) = _
  simp

/-- The word for 128 is above zero. -/
theorem c128_pos : (0 : EReal) < Ideal.ofBits .f32 0x43000000#32 := by
  have h : Ideal.ofBits .f32 0x43000000#32 = ((128 : ℝ) : EReal) := by
    simp [Ideal.ofBits, Ideal.ieee, -EReal.coe_mul]; norm_num
  rw [h]; exact_mod_cast (by norm_num : (0 : ℝ) < 128)

/-- The variance of node n's row: its divisor is positive, so the guarded quotient is the quotient, the specification's
    mean of the squared deviations from the row's own mean. -/
theorem refVar_apply (r : FVec Ideal S50000x128 .f32) (n : Fin 50000) :
    Term.refVar r (ix2 n (0 : Fin 1))
      = Cert.Layer.rowMean (fun a => (r (ix2 n a) - Cert.Layer.rowMean (fun k => r (ix2 n k)))
          * (r (ix2 n a) - Cert.Layer.rowMean (fun k => r (ix2 n k)))) := by
  have hg : Ideal.cmp .ogt Cert.Layer.c128 (Ideal.ofBits .f32 0x00000000#32) = 1#1 := by
    rw [Ideal.ofBits_zero_f32]
    show BitVec.ofBool (decide ((0 : EReal) < Ideal.ofBits .f32 0x43000000#32)) = 1#1
    rw [decide_eq_true c128_pos]; rfl
  unfold Term.refVar
  rw [select_apply, scalarCol_apply (cmpf .ogt (Term.varDen (F := Ideal)) (constant S_ .f32 0x00000000#32)), cmpf_apply, varDen_apply,
    constant_apply, Ideal.cmpf_def, hg, select_one]
  unfold Host.divf
  show _ = Ideal.div _ _
  show FloatOps.hostDivf _ _ = _
  rw [Ideal.hostDivf_def, rowSum_apply, scalarCol_apply, varDen_apply]
  refine congrArg (fun t => Ideal.div t Cert.Layer.c128) (Finset.sum_congr rfl fun a _ => ?_)
  rw [mulf_apply, subf_apply, spread_apply, refMean_apply]

/-- The normalised, scaled and shifted entry (n, k) of an array r, in the specification's words. -/
theorem refNorm_apply (r : FVec Ideal S50000x128 .f32) (gamma beta : FVec Ideal S128 .f32) (n : Fin 50000) (k : Fin 128) :
    Term.refNorm r gamma beta (ix2 n k)
      = (r (ix2 n k) - Cert.Layer.rowMean (fun a => r (ix2 n a)))
          * Ideal.rsqrt (Cert.Layer.rowMean (fun a => (r (ix2 n a) - Cert.Layer.rowMean (fun a => r (ix2 n a)))
              * (r (ix2 n a) - Cert.Layer.rowMean (fun a => r (ix2 n a)))) + Cert.Layer.cEps)
          * gamma (ix1 k) + beta (ix1 k) := by
  unfold Term.refNorm
  rw [addf_apply, mulf_apply, mulf_apply, subf_apply, spread_apply, refMean_apply, spread_apply, biasN_apply, biasN_apply]
  unfold Host.rsqrt
  show _ * FloatOps.hostUnary .rsqrt _ * _ + _ = _
  rw [Ideal.hostUnary_rsqrt_def, addf_apply, refVar_apply, scalarCol_apply, constant_apply]

/-- THE NODE STAGE: the reference's residual rows, normalised, are the specification's output array. -/
theorem refNode_eq (x agg : FVec Ideal S50000x128 .f32) (wn : FVec Ideal S256x128 .f32) (bn gamma beta : FVec Ideal S128 .f32) :
    Term.refNorm (Term.refRes x agg wn bn) gamma beta
      = Cert.Layer.nodeArr x agg (Cert.Layer.wnTop wn) (Cert.Layer.wnBot wn) bn gamma beta := by
  funext j
  obtain ⟨n, k, rfl⟩ : ∃ (n : Fin 50000) (k : Fin 128), j = ix2 n k := ⟨j 0, j 1, eq_ix2 j⟩
  rw [refNorm_apply]
  simp only [refRes_apply]
  rfl

end Cert.ReferenceIdeal.Bridge

end
-- ==== Proof.LayerValue.lean ====
/-
  Both programs compute ONE function of the eleven argument arrays, `layerOut`:
    gather the source rows at the wrapped source indices; the edge network row by row (`Cert.Layer.edgeArr`); sum the
    messages into their destination rows; the node network and the normalisation row by row (`Cert.Layer.nodeArr`).

  The reference's result term is `layerOut` because a dense layer on a concatenation [A ‖ B] is the sum of A against the
  weights' top rows and B against their bottom rows (the reference's stages read entry by entry).
  The kernel program's result is `layerOut` because (i) each pallas_call's output array is the row-wise function of
  the arrays it reads, block by block over its grid, (ii) the host operations between the calls are the reference's
  own (the same gather, the same summation into destination rows, slices of the weights), and (iii) under the
  precondition the kernel program's guarded gather never selects its filler.
-/
import proofs.«430327_j2954937499917_1_alg».proof.Proof.KernelHost
import proofs.«430327_j2954937499917_1_alg».proof.Proof.EdgeValue
import proofs.«430327_j2954937499917_1_alg».proof.Proof.NodeValue
import proofs.«430327_j2954937499917_1_alg».proof.Proof.WeightRows
import proofs.«430327_j2954937499917_1_alg».proof.Proof.SourceRange
import proofs.«430327_j2954937499917_1_alg».proof.Proof.RefBridge

noncomputable section

namespace Cert.Proof.LayerValue

open Idealize.ShloMosaic Idealize.ShloMosaic.TcCoe Idealize.SL.Sem

/-- The layer's output array as a function of the eleven argument arrays. -/
def layerOut (x : FVec Ideal Cert.ReferenceIdeal.S50000x128 .f32) (ei : IVec Cert.ReferenceIdeal.S2x640000 32)
    (ea : FVec Ideal Cert.ReferenceIdeal.S640000x32 .f32) (w1 : FVec Ideal Cert.ReferenceIdeal.S160x128 .f32)
    (b1 : FVec Ideal Cert.ReferenceIdeal.S128 .f32) (w2 : FVec Ideal Cert.ReferenceIdeal.S128x128 .f32)
    (b2 : FVec Ideal Cert.ReferenceIdeal.S128 .f32) (wn : FVec Ideal Cert.ReferenceIdeal.S256x128 .f32)
    (bn gamma beta : FVec Ideal Cert.ReferenceIdeal.S128 .f32) : FVec Ideal Cert.ReferenceIdeal.S50000x128 .f32 :=
  Cert.Layer.nodeArr x
    (Cert.ReferenceIdeal.Term.refAgg (F := Ideal) ei
      (Cert.Layer.edgeArr (Cert.ReferenceIdeal.Term.refSrc (F := Ideal) x ei) ea (Cert.Layer.w1Top w1) (Cert.Layer.w1Bot w1) b1 w2 b2))
    (Cert.Layer.wnTop wn) (Cert.Layer.wnBot wn) bn gamma beta

/-- The reference's result term is the layer's output. -/
theorem ref_value (x : FVec Ideal Cert.ReferenceIdeal.S50000x128 .f32) (ei : IVec Cert.ReferenceIdeal.S2x640000 32)
    (ea : FVec Ideal Cert.ReferenceIdeal.S640000x32 .f32) (w1 : FVec Ideal Cert.ReferenceIdeal.S160x128 .f32)
    (b1 : FVec Ideal Cert.ReferenceIdeal.S128 .f32) (w2 : FVec Ideal Cert.ReferenceIdeal.S128x128 .f32)
    (b2 : FVec Ideal Cert.ReferenceIdeal.S128 .f32) (wn : FVec Ideal Cert.ReferenceIdeal.S256x128 .f32)
    (bn gamma beta : FVec Ideal Cert.ReferenceIdeal.S128 .f32) :
    Cert.ReferenceIdeal.Term.refOut (F := Ideal) x ei ea w1 b1 w2 b2 wn bn gamma beta = layerOut x ei ea w1 b1 w2 b2 wn bn gamma beta := by
  unfold Cert.ReferenceIdeal.Term.refOut layerOut
  rw [Cert.ReferenceIdeal.Bridge.refEdge_eq, Cert.ReferenceIdeal.Bridge.refNode_eq]

/-! ## The two programs' shared host terms are one term -/

theorem agg_eq (ei : IVec Cert.KernelIdeal.S2x640000 32) (e : FVec Ideal Cert.KernelIdeal.S640000x128 .f32) :
    Cert.KernelIdeal.Term.kerAgg (F := Ideal) ei e = Cert.ReferenceIdeal.Term.refAgg (F := Ideal) ei e := rfl

theorem src_eq (x : FVec Ideal Cert.KernelIdeal.S50000x128 .f32) (ei : IVec Cert.KernelIdeal.S2x640000 32) :
    Host.gather Cert.KernelIdeal.gather_S50000x128_S640000x1_S640000x128_1_0_n_n_0_1_1128 x (Cert.KernelIdeal.Term.startIdx ei)
      = Cert.ReferenceIdeal.Term.refSrc (F := Ideal) x ei := rfl

/-! ## The kernel program's result -/

open Cert.KernelIdeal in
/-- Under the precondition (read at core `c`'s argument arrays) the kernel program's result array is the layer's
    output of its argument arrays: the second call's output array, of the first call's output array summed into
    destination rows, of the gathered source rows. -/
theorem kernel_value (m : (ℓ : Loc nD τ sig) → Buf (Elt Ideal) ℓ) (ρ : Dev nD → PrngReg) (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      = fun _ => 1#1) :
    Gen.W6 m ρ c (Proc.devRef .tc main_v13)
      = layerOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) := by
  rw [KerHost.out_eq, NodeValue.node_final, KerHost.V5_x, KerHost.V5_agg, KerHost.V5_wnx, KerHost.V5_wna, KerHost.V5_bn,
    KerHost.V5_gamma, KerHost.V5_beta, KerHost.edge_eq, EdgeValue.edge_final, KerHost.V3_src, KerHost.V3_ea, KerHost.V3_w1x,
    KerHost.V3_w1e, KerHost.V3_b1, KerHost.V3_w2, KerHost.V3_b2]
  rw [WeightRows.w1xOf_eq, WeightRows.w1eOf_eq, WeightRows.wnxOf_eq, WeightRows.wnaOf_eq,
    SourceRange.kerSrc_eq _ _ _ _ _ _ _ _ _ _ _ _ hpre, agg_eq, src_eq]
  rfl

end Cert.Proof.LayerValue

end
-- ==== Proof.lean ====
/-
  The certificate of one message-passing layer of a graph network: the kernel program (a gather, a Pallas edge network
  over 100 blocks of 6400 edges, a summation of the messages into their destination nodes, a Pallas node network with
  row normalisation over 10 blocks of 5000 nodes) against its jnp reference, over the extended reals.

  Both programs end with the layer's output `Cert.Proof.LayerValue.layerOut` of the eleven argument arrays
  (Proof/LayerValue.lean). The three frames: the two kernel programs' by their generated frame proofs, the reference's
  by its run with the result dropped. The idealization rewrote nothing, so `preserves` is trivial. The precondition is
  finiteness of the float inputs — which no step uses: only that addition on the extended reals is a commutative
  monoid — and that every source index lies in −50000 … 49999, i.e. inside the node table once a negative index has
  been counted from its end: outside that range the reference indexes out of range (it clamps), while the kernel
  program writes a filler row.
-/
import proofs.«430327_j2954937499917_1_alg».proof.Defs
import proofs.«430327_j2954937499917_1_alg».proof.Proof.Gen.Kernel
import proofs.«430327_j2954937499917_1_alg».proof.Proof.Gen.Kernel.Frame
import proofs.«430327_j2954937499917_1_alg».proof.Proof.Gen.KernelIdeal
import proofs.«430327_j2954937499917_1_alg».proof.Proof.Gen.KernelIdeal.Frame
import proofs.«430327_j2954937499917_1_alg».proof.Proof.Gen.ReferenceIdeal
import proofs.«430327_j2954937499917_1_alg».proof.Proof.Gen.Pre_finite_inputs
import proofs.«430327_j2954937499917_1_alg».proof.Proof.KernelRun
import proofs.«430327_j2954937499917_1_alg».proof.Proof.RefRun
import proofs.«430327_j2954937499917_1_alg».proof.Proof.LayerValue

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the layer's output of those arguments. -/
theorem algebraic : Cert.algebraic_KernelIdeal_ReferenceIdeal := by
  intro m ρ m' ρ' hpre hagree
  refine ⟨fun c => LayerValue.layerOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (LayerValue.kernel_value m ρ c (hpre c)), (h c).2⟩)
      (Cert.KernelIdeal.KerRun.run_out (F := Ideal) m ρ)
  · refine (θ_run Cert.ReferenceIdeal.defs _ _).mono (fun _ h c => ⟨(h c).1.trans ?_, (h c).2⟩)
      (Cert.ReferenceIdeal.RefRun.run (F := Ideal) m' ρ')
    obtain ⟨e0, e1, e2, e3, e4, e5, e6, e7, e8, e9, e10⟩ := hagree c
    rw [e0, e1, e2, e3, e4, e5, e6, e7, e8, e9, e10]
    exact LayerValue.ref_value _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
